-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S250000 : Shape := ⟨1, ![250000]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x64 : S_.BroadcastsInDim S3x64 (![] : Fin 0 → Fin S3x64.rank)
  reducesTo_S3x64_S_d0_1 : S3x64.ReducesTo [0, 1] S_
  bcast_S_S250000 : S_.BroadcastsInDim S250000 (![] : Fin 0 → Fin S250000.rank)
  reducesTo_S250000_S_d0 : S250000.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg12 : IVec S250000 32) (main_v45 : IVec S_ 1) (main_v50 : IVec S500000 1) : IVec S_ 1 :=
  let main_c_19 : IVec S_ 1 := constantI S_ 1 1#1
  let main_v51 : IVec S_ 1 := (fun x v => Host.reduce IntOp.andi x v reducesTo_S500000_S_d0 h_S_) main_v50 main_c_19
  let main_v52 : IVec S_ 1 := andi main_v45 main_v51
  let main_c_20 : IVec S_ 32 := constantI S_ 32 0#32
  let main_v53 : IVec S250000 32 := broadcastInDim S250000 ![] bcast_S_S250000 main_c_20
  let main_v54 : IVec S250000 1 := cmpi .sge main_arg12 main_v53
  let main_c_21 : IVec S_ 32 := constantI S_ 32 50000#32
  let main_v55 : IVec S250000 32 := broadcastInDim S250000 ![] bcast_S_S250000 main_c_21
  let main_v56 : IVec S250000 1 := cmpi .slt main_arg12 main_v55
  let main_v57 : IVec S250000 1 := andi main_v54 main_v56
  let main_c_22 : IVec S_ 1 := constantI S_ 1 1#1
  let main_v58 : IVec S_ 1 := (fun x v => Host.reduce IntOp.andi x v reducesTo_S250000_S_d0 h_S_) main_v57 main_c_22
  let main_v59 : IVec S_ 1 := andi main_v52 main_v58
  main_v59

def fn_part2 {F : FTy → Type} [FloatOps F] (main_arg7 : FVec F S3x64x128 .f32) (main_arg8 : IVec S250000 32) (main_arg10 : IVec S500000 32) (main_arg12 : IVec S250000 32) (main_v33 : IVec S_ 1) : IVec S_ 1 :=
  let main_v34 : FVec F S3x64x128 .f32 := Host.absf main_arg7
  let main_cst_12 : FVec F S_ .f32 := constant S_ .f32 0x7F800000#32
  let main_v35 : FVec F S3x64x128 .f32 := broadcastInDim S3x64x128 ![] bcast_S_S3x64x128 main_cst_12
  let main_v36 : IVec S3x64x128 1 := cmpf .olt main_v34 main_v35
  let main_c_13 : IVec S_ 1 := constantI S_ 1 1#1
  let main_v37 : IVec S_ 1 := (fun x v => Host.reduce IntOp.andi x v reducesTo_S3x64x128_S_d0_1_2 h_S_) main_v36 main_c_13
  let main_v38 : IVec S_ 1 := andi main_v33 main_v37
  let main_c_14 : IVec S_ 32 := constantI S_ 32 0#32
  let main_v39 : IVec S250000 32 := broadcastInDim S250000 ![] bcast_S_S250000 main_c_14
  let main_v40 : IVec S250000 1 := cmpi .sge main_arg8 main_v39
  let main_c_15 : IVec S_ 32 := constantI S_ 32 20000#32
  let main_v41 : IVec S250000 32 := broadcastInDim S250000 ![] bcast_S_S250000 main_c_15
  let main_v42 : IVec S250000 1 := cmpi .slt main_arg8 main_v41
  let main_v43 : IVec S250000 1 := andi main_v40 main_v42
  let main_c_16 : IVec S_ 1 := constantI S_ 1 1#1
  let main_v44 : IVec S_ 1 := (fun x v => Host.reduce IntOp.andi x v reducesTo_S250000_S_d0 h_S_) main_v43 main_c_16
  let main_v45 : IVec S_ 1 := andi main_v38 main_v44
  let main_c_17 : IVec S_ 32 := constantI S_ 32 0#32
  let main_v46 : IVec S500000 32 := broadcastInDim S500000 ![] bcast_S_S500000 main_c_17
  let main_v47 : IVec S500000 1 := cmpi .sge main_arg10 main_v46
  let main_c_18 : IVec S_ 32 := constantI S_ 32 50000#32
  let main_v48 : IVec S500000 32 := broadcastInDim S500000 ![] bcast_S_S500000 main_c_18
  let main_v49 : IVec S500000 1 := cmpi .slt main_arg10 main_v48
  let main_v50 : IVec S500000 1 := andi main_v47 main_v49
  fn_part3 (F := F) main_arg12 main_v45 main_v50

def fn_part1 {F : FTy → Type} [FloatOps F] (main_arg4 : FVec F S3x128x128 .f32) (main_arg5 : FVec F S3x64x128 .f32) (main_arg6 : FVec F S3x64 .f32) (main_arg7 : FVec F S3x64x128 .f32) (main_arg8 : IVec S250000 32) (main_arg10 : IVec S500000 32) (main_arg12 : IVec S250000 32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x64x128 .f32 := Host.absf main_arg5
  let main_cst_8 : FVec F S_ .f32 := constant S_ .f32 0x7F800000#32
  let main_v25 : FVec F S3x64x128 .f32 := broadcastInDim S3x64x128 ![] bcast_S_S3x64x128 main_cst_8
  let main_v26 : IVec S3x64x128 1 := cmpf .olt main_v24 main_v25
  let main_c_9 : IVec S_ 1 := constantI S_ 1 1#1
  let main_v27 : IVec S_ 1 := (fun x v => Host.reduce IntOp.andi x v reducesTo_S3x64x128_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg10 main_arg12 main_v33

def fn {F : FTy → Type} [FloatOps F] (main_arg0 : FVec F S50000x128 .f32) (main_arg1 : FVec F S20000x128 .f32) (main_arg2 : FVec F S3x128x128 .f32) (main_arg3 : FVec F S3x128 .f32) (main_arg4 : FVec F S3x128x128 .f32) (main_arg5 : FVec F S3x64x128 .f32) (main_arg6 : FVec F S3x64 .f32) (main_arg7 : FVec F S3x64x128 .f32) (main_arg8 : IVec S250000 32) (main_arg9 : IVec S250000 32) (main_arg10 : IVec S500000 32) (main_arg11 : IVec S500000 32) (main_arg12 : IVec S250000 32) (main_arg13 : IVec S250000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg10 main_arg12 main_v13 main_v16
-- ==== Kernel.lean ====
abbrev S50000x128 : Shape := ⟨2, ![50000, 128]⟩
abbrev S20000x128 : Shape := ⟨2, ![20000, 128]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S250000 : Shape := ⟨1, ![250000]⟩
abbrev S500000 : Shape := ⟨1, ![500000]⟩
abbrev S3x128x64 : Shape := ⟨3, ![3, 128, 64]⟩
abbrev S3x1x128 : Shape := ⟨3, ![3, 1, 128]⟩
abbrev S3x1x64 : Shape := ⟨3, ![3, 1, 64]⟩
abbrev S_ : Shape := ⟨0, ![]⟩
abbrev S250000x1 : Shape := ⟨2, ![250000, 1]⟩
abbrev S1 : Shape := ⟨1, ![1]⟩
abbrev S1x1 : Shape := ⟨2, ![1, 1]⟩
abbrev S250000x128 : Shape := ⟨2, ![250000, 128]⟩
abbrev S50000 : Shape := ⟨1, ![50000]⟩
abbrev S50000x1 : Shape := ⟨2, ![50000, 1]⟩
abbrev S500000x1 : Shape := ⟨2, ![500000, 1]⟩
abbrev S500000x128 : Shape := ⟨2, ![500000, 128]⟩
abbrev S20000 : Shape := ⟨1, ![20000]⟩
abbrev S20000x1 : Shape := ⟨2, ![20000, 1]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S5000x128 : Shape := ⟨2, ![5000, 128]⟩
abbrev S2000x128 : Shape := ⟨2, ![2000, 128]⟩
abbrev S1x128x64 : Shape := ⟨3, ![1, 128, 64]⟩
abbrev S128x64 : Shape := ⟨2, ![128, 64]⟩
abbrev S1x1x64 : Shape := ⟨3, ![1, 1, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 248
  | .vmem => 37
  | .smem => 0
  | _ => 0

abbrev hbmTy0_0 (i : Nat) : BufTy := match i % 128 with
  | 0 => ⟨S50000x128, .f32⟩
  | 1 => ⟨S20000x128, .f32⟩
  | 2 => ⟨S3x128x128, .f32⟩
  | 3 => ⟨S3x128, .f32⟩
  | 4 => ⟨S3x128x128, .f32⟩
  | 5 => ⟨S3x64x128, .f32⟩
  | 6 => ⟨S3x64, .f32⟩
  | 7 => ⟨S3x64x128, .f32⟩
  | 8 => ⟨S250000, .i32⟩
  | 9 => ⟨S250000, .i32⟩
  | 10 => ⟨S500000, .i32⟩
  | 11 => ⟨S500000, .i32⟩
  | 12 => ⟨S250000, .i32⟩
  | 13 => ⟨S250000, .i32⟩
  | 14 => ⟨S3x128x128, .f32⟩
  | 15 => ⟨S3x128x128, .f32⟩
  | 16 => ⟨S3x128x64, .f32⟩
  | 17 => ⟨S3x128x64, .f32⟩
  | 18 => ⟨S3x1x128, .f32⟩
  | 19 => ⟨S3x1x64, .f32⟩
  | 20 => ⟨S_, .i32⟩
  | 21 => ⟨S250000, .i32⟩
  | 22 => ⟨S250000, .i1⟩
  | 23 => ⟨S_, .i32⟩
  | 24 => ⟨S250000, .i32⟩
  | 25 => ⟨S250000, .i32⟩
  | 26 => ⟨S250000, .i32⟩
  | 27 => ⟨S250000x1, .i32⟩
  | 28 => ⟨S1, .i32⟩
  | 29 => ⟨S_, .i32⟩
  | 30 => ⟨S250000x1, .i32⟩
  | 31 => ⟨S250000x1, .i1⟩
  | 32 => ⟨S1x1, .i32⟩
  | 33 => ⟨S250000x1, .i32⟩
  | 34 => ⟨S250000x1, .i1⟩
  | 35 => ⟨S250000x1, .i1⟩
  | 36 => ⟨S_, .i1⟩
  | 37 => ⟨S250000, .i1⟩
  | 38 => ⟨S250000x128, .f32⟩
  | 39 => ⟨S250000x128, .i1⟩
  | 40 => ⟨S_, .f32⟩
  | 41 => ⟨S250000x128, .f32⟩
  | 42 => ⟨S250000x128, .f32⟩
  | 43 => ⟨S_, .f32⟩
  | 44 => ⟨S50000x128, .f32⟩
  | 45 => ⟨S250000x1, .i32⟩
  | 46 => ⟨S50000x128, .f32⟩
  | 47 => ⟨S_, .f32⟩
  | 48 => ⟨S250000, .f32⟩
  | 49 => ⟨S_, .f32⟩
  | 50 => ⟨S50000, .f32⟩
  | 51 => ⟨S250000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S1, .i32⟩
  | 68 => ⟨S_, .i32⟩
  | 69 => ⟨S500000x1, .i32⟩
  | 70 => ⟨S500000x1, .i1⟩
  | 71 => ⟨S1x1, .i32⟩
  | 72 => ⟨S500000x1, .i32⟩
  | 73 => ⟨S500000x1, .i1⟩
  | 74 => ⟨S500000x1, .i1⟩
  | 75 => ⟨S_, .i1⟩
  | 76 => ⟨S500000, .i1⟩
  | 77 => ⟨S500000x128, .f32⟩
  | 78 => ⟨S500000x128, .i1⟩
  | 79 => ⟨S_, .f32⟩
  | 80 => ⟨S500000x128, .f32⟩
  | 81 => ⟨S500000x128, .f32⟩
  | 82 => ⟨S_, .f32⟩
  | 83 => ⟨S50000x128, .f32⟩
  | 84 => ⟨S500000x1, .i32⟩
  | 85 => ⟨S50000x128, .f32⟩
  | 86 => ⟨S_, .f32⟩
  | 87 => ⟨S500000, .f32⟩
  | 88 => ⟨S_, .f32⟩
  | 89 => ⟨S50000, .f32⟩
  | 90 => ⟨S500000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S_, .i32⟩
  | 99 => ⟨S250000, .i32⟩
  | 100 => ⟨S250000, .i1⟩
  | 101 => ⟨S_, .i32⟩
  | 102 => ⟨S250000, .i32⟩
  | 103 => ⟨S250000, .i32⟩
  | 104 => ⟨S250000, .i32⟩
  | 105 => ⟨S250000x1, .i32⟩
  | 106 => ⟨S1, .i32⟩
  | 107 => ⟨S_, .i32⟩
  | 108 => ⟨S250000x1, .i32⟩
  | 109 => ⟨S250000x1, .i1⟩
  | 110 => ⟨S1x1, .i32⟩
  | 111 => ⟨S250000x1, .i32⟩
  | 112 => ⟨S250000x1, .i1⟩
  | 113 => ⟨S250000x1, .i1⟩
  | 114 => ⟨S_, .i1⟩
  | 115 => ⟨S250000, .i1⟩
  | 116 => ⟨S250000x128, .f32⟩
  | 117 => ⟨S250000x128, .i1⟩
  | 118 => ⟨S_, .f32⟩
  | 119 => ⟨S250000x128, .f32⟩
  | 120 => ⟨S250000x128, .f32⟩
  | 121 => ⟨S_, .f32⟩
  | 122 => ⟨S20000x128, .f32⟩
  | 123 => ⟨S250000x1, .i32⟩
  | 124 => ⟨S20000x128, .f32⟩
  | 125 => ⟨S_, .f32⟩
  | 126 => ⟨S250000, .f32⟩
  | 127 => ⟨S_, .f32⟩
  | _ => ⟨S50000x128, .f32⟩

abbrev hbmTy0_1 (i : Nat) : BufTy := match i % 128 with
  | 0 => ⟨S20000, .f32⟩
  | 1 => ⟨S250000x1, .i32⟩
  | 2 => ⟨S20000, .f32⟩
  | 3 => ⟨S_, .f32⟩
  | 4 => ⟨S20000, .f32⟩
  | 5 => ⟨S20000, .f32⟩
  | 6 => ⟨S20000x1, .f32⟩
  | 7 => ⟨S20000x128, .f32⟩
  | 8 => ⟨S20000x128, .f32⟩
  | 9 => ⟨S1x128x128, .f32⟩
  | 10 => ⟨S128x128, .f32⟩
  | 11 => ⟨S1x128x128, .f32⟩
  | 12 => ⟨S128x128, .f32⟩
  | 13 => ⟨S1x128x128, .f32⟩
  | 14 => ⟨S128x128, .f32⟩
  | 15 => ⟨S1x128x128, .f32⟩
  | 16 => ⟨S128x128, .f32⟩
  | 17 => ⟨S1x1x128, .f32⟩
  | 18 => ⟨S1x128, .f32⟩
  | 19 => ⟨S1x1x128, .f32⟩
  | 20 => ⟨S1x128, .f32⟩
  | 21 => ⟨S50000x128, .f32⟩
  | 22 => ⟨S1x128x128, .f32⟩
  | 23 => ⟨S128x128, .f32⟩
  | 24 => ⟨S1x128x128, .f32⟩
  | 25 => ⟨S128x128, .f32⟩
  | 26 => ⟨S1x1x128, .f32⟩
  | 27 => ⟨S1x128, .f32⟩
  | 28 => ⟨S20000x128, .f32⟩
  | 29 => ⟨S_, .i32⟩
  | 30 => ⟨S250000, .i32⟩
  | 31 => ⟨S250000, .i1⟩
  | 32 => ⟨S_, .i32⟩
  | 33 => ⟨S250000, .i32⟩
  | 34 => ⟨S250000, .i32⟩
  | 35 => ⟨S250000, .i32⟩
  | 36 => ⟨S250000x1, .i32⟩
  | 37 => ⟨S1, .i32⟩
  | 38 => ⟨S_, .i32⟩
  | 39 => ⟨S250000x1, .i32⟩
  | 40 => ⟨S250000x1, .i1⟩
  | 41 => ⟨S1x1, .i32⟩
  | 42 => ⟨S250000x1, .i32⟩
  | 43 => ⟨S250000x1, .i1⟩
  | 44 => ⟨S250000x1, .i1⟩
  | 45 => ⟨S_, .i1⟩
  | 46 => ⟨S250000, .i1⟩
  | 47 => ⟨S250000x128, .f32⟩
  | 48 => ⟨S250000x128, .i1⟩
  | 49 => ⟨S_, .f32⟩
  | 50 => ⟨S250000x128, .f32⟩
  | 51 => ⟨S250000x128, .f32⟩
  | 52 => ⟨S_, .f32⟩
  | 53 => ⟨S50000x128, .f32⟩
  | 54 => ⟨S250000x1, .i32⟩
  | 55 => ⟨S50000x128, .f32⟩
  | 56 => ⟨S_, .f32⟩
  | 57 => ⟨S250000, .f32⟩
  | 58 => ⟨S_, .f32⟩
  | 59 => ⟨S50000, .f32⟩
  | 60 => ⟨S250000x1, .i32⟩
  | 61 => ⟨S50000, .f32⟩
  | 62 => ⟨S_, .f32⟩
  | 63 => ⟨S50000, .f32⟩
  | 64 => ⟨S50000, .f32⟩
  | 65 => ⟨S50000x1, .f32⟩
  | 66 => ⟨S50000x128, .f32⟩
  | 67 => ⟨S50000x128, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S1, .i32⟩
  | 77 => ⟨S_, .i32⟩
  | 78 => ⟨S500000x1, .i32⟩
  | 79 => ⟨S500000x1, .i1⟩
  | 80 => ⟨S1x1, .i32⟩
  | 81 => ⟨S500000x1, .i32⟩
  | 82 => ⟨S500000x1, .i1⟩
  | 83 => ⟨S500000x1, .i1⟩
  | 84 => ⟨S_, .i1⟩
  | 85 => ⟨S500000, .i1⟩
  | 86 => ⟨S500000x128, .f32⟩
  | 87 => ⟨S500000x128, .i1⟩
  | 88 => ⟨S_, .f32⟩
  | 89 => ⟨S500000x128, .f32⟩
  | 90 => ⟨S500000x128, .f32⟩
  | 91 => ⟨S_, .f32⟩
  | 92 => ⟨S50000x128, .f32⟩
  | 93 => ⟨S500000x1, .i32⟩
  | 94 => ⟨S50000x128, .f32⟩
  | 95 => ⟨S_, .f32⟩
  | 96 => ⟨S500000, .f32⟩
  | 97 => ⟨S_, .f32⟩
  | 98 => ⟨S50000, .f32⟩
  | 99 => ⟨S500000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x128, .f32⟩
  | 106 => ⟨S50000x128, .f32⟩
  | 107 => ⟨S1x128x64, .f32⟩
  | 108 => ⟨S128x64, .f32⟩
  | 109 => ⟨S1x128x64, .f32⟩
  | 110 => ⟨S128x64, .f32⟩
  | 111 => ⟨S1x128x64, .f32⟩
  | 112 => ⟨S128x64, .f32⟩
  | 113 => ⟨S1x128x64, .f32⟩
  | 114 => ⟨S128x64, .f32⟩
  | 115 => ⟨S1x1x64, .f32⟩
  | 116 => ⟨S1x64, .f32⟩
  | 117 => ⟨S1x1x64, .f32⟩
  | 118 => ⟨S1x64, .f32⟩
  | 119 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x64, .f32⟩
  | .local _ .vmem, ⟨30, _⟩ => ⟨S128x64, .f32⟩
  | .local _ .vmem, ⟨31, _⟩ => ⟨S128x64, .f32⟩
  | .local _ .vmem, ⟨32, _⟩ => ⟨S128x64, .f32⟩
  | .local _ .vmem, ⟨33, _⟩ => ⟨S1x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_0 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_2 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v19 : Ref sig .tc := ⟨.hbm, 81, rfl⟩
abbrev main_cst_3 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_cst_4 : Ref sig .tc := ⟨.hbm, 86, rfl⟩
abbrev main_v23 : Ref sig .tc := ⟨.hbm, 87, rfl⟩
abbrev main_cst_5 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_6 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v32 : Ref sig .tc := ⟨.hbm, 120, rfl⟩
abbrev main_cst_7 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_cst_8 : Ref sig .tc := ⟨.hbm, 125, rfl⟩
abbrev main_v36 : Ref sig .tc := ⟨.hbm, 126, rfl⟩
abbrev main_cst_9 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_10 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_call3_c : Ref sig .tc := ⟨.hbm, 157, rfl⟩
abbrev main_call3_v0 : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_c_1 : Ref sig .tc := ⟨.hbm, 165, rfl⟩
abbrev main_call3_c_2 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_c_3 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_call3_cst : Ref sig .tc := ⟨.hbm, 177, rfl⟩
abbrev main_call3_v15 : Ref sig .tc := ⟨.hbm, 178, rfl⟩
abbrev main_v65 : Ref sig .tc := ⟨.hbm, 179, rfl⟩
abbrev main_cst_11 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_cst_12 : Ref sig .tc := ⟨.hbm, 184, rfl⟩
abbrev main_v69 : Ref sig .tc := ⟨.hbm, 185, rfl⟩
abbrev main_cst_13 : Ref sig .tc := ⟨.hbm, 186, rfl⟩
abbrev main_v70 : Ref sig .tc := ⟨.hbm, 187, rfl⟩
abbrev main_v71 : Ref sig .tc := ⟨.hbm, 188, rfl⟩
abbrev main_v72 : Ref sig .tc := ⟨.hbm, 189, rfl⟩
abbrev main_cst_14 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_call4_c : Ref sig .tc := ⟨.hbm, 196, rfl⟩
abbrev main_call4_v0 : Ref sig .tc := ⟨.hbm, 197, rfl⟩
abbrev main_call4_v1 : Ref sig .tc := ⟨.hbm, 198, rfl⟩
abbrev main_call4_c_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_c_1 : Ref sig .tc := ⟨.hbm, 204, rfl⟩
abbrev main_call4_c_2 : Ref sig .tc := ⟨.hbm, 205, rfl⟩
abbrev main_call4_v6 : Ref sig .tc := ⟨.hbm, 206, rfl⟩
abbrev main_call4_v7 : Ref sig .tc := ⟨.hbm, 207, rfl⟩
abbrev main_call4_v8 : Ref sig .tc := ⟨.hbm, 208, rfl⟩
abbrev main_call4_v9 : Ref sig .tc := ⟨.hbm, 209, rfl⟩
abbrev main_call4_v10 : Ref sig .tc := ⟨.hbm, 210, rfl⟩
abbrev main_call4_v11 : Ref sig .tc := ⟨.hbm, 211, rfl⟩
abbrev main_call4_c_3 : Ref sig .tc := ⟨.hbm, 212, rfl⟩
abbrev main_call4_v12 : Ref sig .tc := ⟨.hbm, 213, rfl⟩
abbrev main_call4_v13 : Ref sig .tc := ⟨.hbm, 214, rfl⟩
abbrev main_call4_v14 : Ref sig .tc := ⟨.hbm, 215, rfl⟩
abbrev main_call4_cst : Ref sig .tc := ⟨.hbm, 216, rfl⟩
abbrev main_call4_v15 : Ref sig .tc := ⟨.hbm, 217, rfl⟩
abbrev main_v78 : Ref sig .tc := ⟨.hbm, 218, rfl⟩
abbrev main_cst_15 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_cst_16 : Ref sig .tc := ⟨.hbm, 223, rfl⟩
abbrev main_v82 : Ref sig .tc := ⟨.hbm, 224, rfl⟩
abbrev main_cst_17 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_cst_18 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_v91 : Ref sig .tc := ⟨.hbm, 235, rfl⟩
abbrev main_v92 : Ref sig .tc := ⟨.hbm, 236, rfl⟩
abbrev main_v93 : Ref sig .tc := ⟨.hbm, 237, rfl⟩
abbrev main_v94 : Ref sig .tc := ⟨.hbm, 238, rfl⟩
abbrev main_v95 : Ref sig .tc := ⟨.hbm, 239, rfl⟩
abbrev main_v96 : Ref sig .tc := ⟨.hbm, 240, rfl⟩
abbrev main_v97 : Ref sig .tc := ⟨.hbm, 241, rfl⟩
abbrev main_v98 : Ref sig .tc := ⟨.hbm, 242, rfl⟩
abbrev main_v99 : Ref sig .tc := ⟨.hbm, 243, rfl⟩
abbrev main_v100 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  transposes_S3x128x128_S3x128x128_0_2_1 : S3x128x128.Transposes [0, 2, 1] S3x128x128
  transposes_S3x64x128_S3x128x64_0_2_1 : S3x64x128.Transposes [0, 2, 1] S3x128x64
  shapeCasts_S3x128_S3x1x128 : S3x128.ShapeCasts S3x1x128
  shapeCasts_S3x64_S3x1x64 : S3x64.ShapeCasts S3x1x64
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  reducesTo_S250000x1_S250000_d1 : S250000x1.ReducesTo [1] S250000
  h_S_ : 0 < S_.numel
  bcast_S250000_S250000x128_0 : S250000.BroadcastsInDim S250000x128 (![0] : Fin 1 → Fin S250000x128.rank)
  bcast_S_S250000x128 : S_.BroadcastsInDim S250000x128 (![] : Fin 0 → Fin S250000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x1x128_S1x1x128_0_0_0 : S3x1x128.Slices ![0, 0, 0] S1x1x128
  shapeCasts_S1x1x128_S1x128 : S1x1x128.ShapeCasts S1x128
  slices_S3x1x128_S1x1x128_1_0_0 : S3x1x128.Slices ![1, 0, 0] S1x1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_2_0_0 : S3x128x128.Slices ![2, 0, 0] S1x128x128
  slices_S3x1x128_S1x1x128_2_0_0 : S3x1x128.Slices ![2, 0, 0] S1x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x1x64_S1x1x64_0_0_0 : S3x1x64.Slices ![0, 0, 0] S1x1x64
  shapeCasts_S1x1x64_S1x64 : S1x1x64.ShapeCasts S1x64
  slices_S3x1x64_S1x1x64_1_0_0 : S3x1x64.Slices ![1, 0, 0] S1x1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S20000x128_S250000x1_S250000x128_1_0_n_n_0_1_1128_wf : GatherDims.WF S20000x128 S250000x1 S250000x128 [1] [0] [] [0] [] 1 ![1, 128]
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S250000x1_S250000x128_1_0_n_n_0_1_1128_wf : GatherDims.WF S50000x128 S250000x1 S250000x128 [1] [0] [] [0] [] 1 ![1, 128]
  scatter_S20000x128_S250000x1_S250000x128_1_0_0_1_wf : ScatterDims.WF S20000x128 S250000x1 S250000x128 [1] [0] [0] 1
  scatter_S20000_S250000x1_S250000_n_0_0_1_wf : ScatterDims.WF S20000 S250000x1 S250000 [] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S50000x64.size a
  hwx2_9 : ∀ i : grid2.Coords, EltTy.bits .f32 = 32 ∨ (Rect.block (s := S50000x64) S5000x64.size (cc2_transform_9 i) (hinb2_9 i)).WholeWords (EltTy.packing .f32)

variable [Facts₀]

def gather_S20000x128_S250000x1_S250000x128_1_0_n_n_0_1_1128 : GatherDims S20000x128 S250000x1 S250000x128 where
  offsetDims := [1]
  collapsedSliceDims := [0]
  operandBatchingDims := []
  startIndicesBatchingDims := []
  startIndexMap := [0]
  indexVectorDim := 1
  sliceSizes := ![1, 128]
  wf := gather_S20000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S20000_S250000x1_S250000_n_0_0_1 : ScatterDims S20000 S250000x1 S250000 where
  updateWindowDims := []
  insertedWindowDims := [0]
  scatterDimsToOperandDims := [0]
  indexVectorDim := 1
  wf := scatter_S20000_S250000x1_S250000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v92) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v96) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v98) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v100) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v102) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v103) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S250000 : Shape := ⟨1, ![250000]⟩
abbrev S500000 : Shape := ⟨1, ![500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S250000x1 : Shape := ⟨2, ![250000, 1]⟩
abbrev S250000x128 : Shape := ⟨2, ![250000, 128]⟩
abbrev S50000 : Shape := ⟨1, ![50000]⟩
abbrev S50000x1 : Shape := ⟨2, ![50000, 1]⟩
abbrev S500000x1 : Shape := ⟨2, ![500000, 1]⟩
abbrev S500000x128 : Shape := ⟨2, ![500000, 128]⟩
abbrev S20000 : Shape := ⟨1, ![20000]⟩
abbrev S20000x1 : Shape := ⟨2, ![20000, 1]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S128x64 : Shape := ⟨2, ![128, 64]⟩
abbrev S50000x64 : Shape := ⟨2, ![50000, 64]⟩
abbrev S20000x64 : Shape := ⟨2, ![20000, 64]⟩

abbrev nBuf : Space → Nat
  | .hbm => 262
  | .vmem => 0
  | .smem => 0
  | _ => 0

abbrev hbmTy0_0 (i : Nat) : BufTy := match i % 128 with
  | 0 => ⟨S50000x128, .f32⟩
  | 1 => ⟨S20000x128, .f32⟩
  | 2 => ⟨S3x128x128, .f32⟩
  | 3 => ⟨S3x128, .f32⟩
  | 4 => ⟨S3x128x128, .f32⟩
  | 5 => ⟨S3x64x128, .f32⟩
  | 6 => ⟨S3x64, .f32⟩
  | 7 => ⟨S3x64x128, .f32⟩
  | 8 => ⟨S250000, .i32⟩
  | 9 => ⟨S250000, .i32⟩
  | 10 => ⟨S500000, .i32⟩
  | 11 => ⟨S500000, .i32⟩
  | 12 => ⟨S250000, .i32⟩
  | 13 => ⟨S250000, .i32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S_, .i32⟩
  | 21 => ⟨S250000, .i32⟩
  | 22 => ⟨S250000, .i1⟩
  | 23 => ⟨S_, .i32⟩
  | 24 => ⟨S250000, .i32⟩
  | 25 => ⟨S250000, .i32⟩
  | 26 => ⟨S250000, .i32⟩
  | 27 => ⟨S250000x1, .i32⟩
  | 28 => ⟨S250000x128, .f32⟩
  | 29 => ⟨S_, .f32⟩
  | 30 => ⟨S50000x128, .f32⟩
  | 31 => ⟨S250000x1, .i32⟩
  | 32 => ⟨S50000x128, .f32⟩
  | 33 => ⟨S_, .f32⟩
  | 34 => ⟨S250000, .f32⟩
  | 35 => ⟨S_, .f32⟩
  | 36 => ⟨S50000, .f32⟩
  | 37 => ⟨S250000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S128x128, .f32⟩
  | 46 => ⟨S50000x128, .f32⟩
  | 47 => ⟨S1x128, .f32⟩
  | 48 => ⟨S50000x128, .f32⟩
  | 49 => ⟨S50000x128, .f32⟩
  | 50 => ⟨S128x128, .f32⟩
  | 51 => ⟨S50000x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S_, .f32⟩
  | 69 => ⟨S50000x128, .f32⟩
  | 70 => ⟨S500000x1, .i32⟩
  | 71 => ⟨S50000x128, .f32⟩
  | 72 => ⟨S_, .f32⟩
  | 73 => ⟨S500000, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S128x128, .f32⟩
  | 85 => ⟨S50000x128, .f32⟩
  | 86 => ⟨S1x128, .f32⟩
  | 87 => ⟨S50000x128, .f32⟩
  | 88 => ⟨S50000x128, .f32⟩
  | 89 => ⟨S128x128, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S_, .i32⟩
  | 103 => ⟨S250000, .i32⟩
  | 104 => ⟨S250000, .i1⟩
  | 105 => ⟨S_, .i32⟩
  | 106 => ⟨S250000, .i32⟩
  | 107 => ⟨S250000, .i32⟩
  | 108 => ⟨S250000, .i32⟩
  | 109 => ⟨S250000x1, .i32⟩
  | 110 => ⟨S250000x128, .f32⟩
  | 111 => ⟨S_, .f32⟩
  | 112 => ⟨S20000x128, .f32⟩
  | 113 => ⟨S250000x1, .i32⟩
  | 114 => ⟨S20000x128, .f32⟩
  | 115 => ⟨S_, .f32⟩
  | 116 => ⟨S250000, .f32⟩
  | 117 => ⟨S_, .f32⟩
  | 118 => ⟨S20000, .f32⟩
  | 119 => ⟨S250000x1, .i32⟩
  | 120 => ⟨S20000, .f32⟩
  | 121 => ⟨S_, .f32⟩
  | 122 => ⟨S20000, .f32⟩
  | 123 => ⟨S20000, .f32⟩
  | 124 => ⟨S20000x1, .f32⟩
  | 125 => ⟨S20000x128, .f32⟩
  | 126 => ⟨S20000x128, .f32⟩
  | 127 => ⟨S128x128, .f32⟩
  | _ => ⟨S50000x128, .f32⟩

abbrev hbmTy0_1 (i : Nat) : BufTy := match i % 128 with
  | 0 => ⟨S20000x128, .f32⟩
  | 1 => ⟨S1x128, .f32⟩
  | 2 => ⟨S20000x128, .f32⟩
  | 3 => ⟨S20000x128, .f32⟩
  | 4 => ⟨S128x128, .f32⟩
  | 5 => ⟨S20000x128, .f32⟩
  | 6 => ⟨S20000x128, .f32⟩
  | 7 => ⟨S_, .f32⟩
  | 8 => ⟨S50000x128, .f32⟩
  | 9 => ⟨S50000x128, .f32⟩
  | 10 => ⟨S_, .f32⟩
  | 11 => ⟨S20000x128, .f32⟩
  | 12 => ⟨S20000x128, .f32⟩
  | 13 => ⟨S1x64x128, .f32⟩
  | 14 => ⟨S64x128, .f32⟩
  | 15 => ⟨S1x64, .f32⟩
  | 16 => ⟨S64, .f32⟩
  | 17 => ⟨S1x64x128, .f32⟩
  | 18 => ⟨S64x128, .f32⟩
  | 19 => ⟨S_, .i32⟩
  | 20 => ⟨S250000, .i32⟩
  | 21 => ⟨S250000, .i1⟩
  | 22 => ⟨S_, .i32⟩
  | 23 => ⟨S250000, .i32⟩
  | 24 => ⟨S250000, .i32⟩
  | 25 => ⟨S250000, .i32⟩
  | 26 => ⟨S250000x1, .i32⟩
  | 27 => ⟨S250000x128, .f32⟩
  | 28 => ⟨S_, .f32⟩
  | 29 => ⟨S50000x128, .f32⟩
  | 30 => ⟨S250000x1, .i32⟩
  | 31 => ⟨S50000x128, .f32⟩
  | 32 => ⟨S_, .f32⟩
  | 33 => ⟨S250000, .f32⟩
  | 34 => ⟨S_, .f32⟩
  | 35 => ⟨S50000, .f32⟩
  | 36 => ⟨S250000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x64, .f32⟩
  | 45 => ⟨S50000x64, .f32⟩
  | 46 => ⟨S1x64, .f32⟩
  | 47 => ⟨S50000x64, .f32⟩
  | 48 => ⟨S50000x64, .f32⟩
  | 49 => ⟨S128x64, .f32⟩
  | 50 => ⟨S50000x64, .f32⟩
  | 51 => ⟨S50000x64, .f32⟩
  | 52 => ⟨S1x64x128, .f32⟩
  | 53 => ⟨S64x128, .f32⟩
  | 54 => ⟨S1x64, .f32⟩
  | 55 => ⟨S64, .f32⟩
  | 56 => ⟨S1x64x128, .f32⟩
  | 57 => ⟨S64x128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S_, .f32⟩
  | 68 => ⟨S50000x128, .f32⟩
  | 69 => ⟨S500000x1, .i32⟩
  | 70 => ⟨S50000x128, .f32⟩
  | 71 => ⟨S_, .f32⟩
  | 72 => ⟨S500000, .f32⟩
  | 73 => ⟨S_, .f32⟩
  | 74 => ⟨S50000, .f32⟩
  | 75 => ⟨S500000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S128x64, .f32⟩
  | 84 => ⟨S50000x64, .f32⟩
  | 85 => ⟨S1x64, .f32⟩
  | 86 => ⟨S50000x64, .f32⟩
  | 87 => ⟨S50000x64, .f32⟩
  | 88 => ⟨S128x64, .f32⟩
  | 89 => ⟨S50000x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S1x64x128, .f32⟩
  | 96 => ⟨S64x128, .f32⟩
  | 97 => ⟨S1x64, .f32⟩
  | 98 => ⟨S64, .f32⟩
  | 99 => ⟨S1x64x128, .f32⟩
  | 100 => ⟨S64x128, .f32⟩
  | 101 => ⟨S_, .i32⟩
  | 102 => ⟨S250000, .i32⟩
  | 103 => ⟨S250000, .i1⟩
  | 104 => ⟨S_, .i32⟩
  | 105 => ⟨S250000, .i32⟩
  | 106 => ⟨S250000, .i32⟩
  | 107 => ⟨S250000, .i32⟩
  | 108 => ⟨S250000x1, .i32⟩
  | 109 => ⟨S250000x128, .f32⟩
  | 110 => ⟨S_, .f32⟩
  | 111 => ⟨S20000x128, .f32⟩
  | 112 => ⟨S250000x1, .i32⟩
  | 113 => ⟨S20000x128, .f32⟩
  | 114 => ⟨S_, .f32⟩
  | 115 => ⟨S250000, .f32⟩
  | 116 => ⟨S_, .f32⟩
  | 117 => ⟨S20000, .f32⟩
  | 118 => ⟨S250000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x128, .f32⟩
  | 125 => ⟨S20000x128, .f32⟩
  | 126 => ⟨S128x64, .f32⟩
  | 127 => ⟨S20000x64, .f32⟩
  | _ => ⟨S50000x128, .f32⟩

abbrev hbmTy0_2 (i : Nat) : BufTy := match i % 128 with
  | 0 => ⟨S1x64, .f32⟩
  | 1 => ⟨S20000x64, .f32⟩
  | 2 => ⟨S20000x64, .f32⟩
  | 3 => ⟨S128x64, .f32⟩
  | 4 => ⟨S20000x64, .f32⟩
  | 5 => ⟨S20000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_11 : Ref sig .tc := ⟨.hbm, 102, rfl⟩
abbrev main_v75 : Ref sig .tc := ⟨.hbm, 103, rfl⟩
abbrev main_v76 : Ref sig .tc := ⟨.hbm, 104, rfl⟩
abbrev main_c_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call0_cst : Ref sig .tc := ⟨.hbm, 135, rfl⟩
abbrev main_call0_v0 : Ref sig .tc := ⟨.hbm, 136, rfl⟩
abbrev main_v102 : Ref sig .tc := ⟨.hbm, 137, rfl⟩
abbrev main_call1_cst : Ref sig .tc := ⟨.hbm, 138, rfl⟩
abbrev main_call1_v0 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_17 : Ref sig .tc := ⟨.hbm, 147, rfl⟩
abbrev main_v110 : Ref sig .tc := ⟨.hbm, 148, rfl⟩
abbrev main_v111 : Ref sig .tc := ⟨.hbm, 149, rfl⟩
abbrev main_c_18 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_19 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_20 : Ref sig .tc := ⟨.hbm, 160, rfl⟩
abbrev main_v120 : Ref sig .tc := ⟨.hbm, 161, rfl⟩
abbrev main_cst_21 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_22 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_23 : Ref sig .tc := ⟨.hbm, 186, rfl⟩
abbrev main_v143 : Ref sig .tc := ⟨.hbm, 187, rfl⟩
abbrev main_v144 : Ref sig .tc := ⟨.hbm, 188, rfl⟩
abbrev main_c_24 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_25 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_26 : Ref sig .tc := ⟨.hbm, 199, rfl⟩
abbrev main_v153 : Ref sig .tc := ⟨.hbm, 200, rfl⟩
abbrev main_cst_27 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_28 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_29 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_c_30 : Ref sig .tc := ⟨.hbm, 229, rfl⟩
abbrev main_v179 : Ref sig .tc := ⟨.hbm, 230, rfl⟩
abbrev main_v180 : Ref sig .tc := ⟨.hbm, 231, rfl⟩
abbrev main_c_31 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_32 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_33 : Ref sig .tc := ⟨.hbm, 242, rfl⟩
abbrev main_v189 : Ref sig .tc := ⟨.hbm, 243, rfl⟩
abbrev main_cst_34 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_35 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S250000 : S_.BroadcastsInDim S250000 (![] : Fin 0 → Fin S250000.rank)
  bcast_S250000_S250000x1_0 : S250000.BroadcastsInDim S250000x1 (![0] : Fin 1 → Fin S250000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  bcast_S_S500000 : S_.BroadcastsInDim S500000 (![] : Fin 0 → Fin S500000.rank)
  bcast_S500000_S500000x1_0 : S500000.BroadcastsInDim S500000x1 (![0] : Fin 1 → Fin S500000x1.rank)
  slices_S3x128x128_S1x128x128_2_0_0 : S3x128x128.Slices ![2, 0, 0] S1x128x128
  slices_S3x128_S1x128_2_0 : S3x128.Slices ![2, 0] S1x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  slices_S3x64x128_S1x64x128_0_0_0 : S3x64x128.Slices ![0, 0, 0] S1x64x128
  shapeCasts_S1x64x128_S64x128 : S1x64x128.ShapeCasts S64x128
  slices_S3x64_S1x64_0_0 : S3x64.Slices ![0, 0] S1x64
  shapeCasts_S1x64_S64 : S1x64.ShapeCasts S64
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x128_S1x64x128_1_0_0 : S3x64x128.Slices ![1, 0, 0] S1x64x128
  slices_S3x64_S1x64_1_0 : S3x64.Slices ![1, 0] S1x64
  bcast_S_S50000x64 : S_.BroadcastsInDim S50000x64 (![] : Fin 0 → Fin S50000x64.rank)
  slices_S3x64x128_S1x64x128_2_0_0 : S3x64x128.Slices ![2, 0, 0] S1x64x128
  slices_S3x64_S1x64_2_0 : S3x64.Slices ![2, 0] S1x64
  bcast_S1x64_S20000x64_0_1 : S1x64.BroadcastsInDim S20000x64 (![0, 1] : Fin 2 → Fin S20000x64.rank)
  gather_S20000x128_S250000x1_S250000x128_1_0_n_n_0_1_1128_wf : GatherDims.WF S20000x128 S250000x1 S250000x128 [1] [0] [] [0] [] 1 ![1, 128]
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S250000x1_S250000x128_1_0_n_n_0_1_1128_wf : GatherDims.WF S50000x128 S250000x1 S250000x128 [1] [0] [] [0] [] 1 ![1, 128]
  scatter_S20000x128_S250000x1_S250000x128_1_0_0_1_wf : ScatterDims.WF S20000x128 S250000x1 S250000x128 [1] [0] [0] 1
  scatter_S20000_S250000x1_S250000_n_0_0_1_wf : ScatterDims.WF S20000 S250000x1 S250000 [] [0] [0] 1
  dot_S20000x128_S128x128_S20000x128_1_0_0_1_n_n_wf : DotDims.WF S20000x128 S128x128 S20000x128 [1] [0] [0] [1] [] []
  dot_S50000x128_S128x64_S50000x64_1_0_0_1_n_n_wf : DotDims.WF S50000x128 S128x64 S50000x64 [1] [0] [0] [1] [] []
  dot_S20000x128_S128x64_S20000x64_1_0_0_1_n_n_wf : DotDims.WF S20000x128 S128x64 S20000x64 [1] [0] [0] [1] [] []

variable [Facts₀]

def gather_S20000x128_S250000x1_S250000x128_1_0_n_n_0_1_1128 : GatherDims S20000x128 S250000x1 S250000x128 where
  offsetDims := [1]
  collapsedSliceDims := [0]
  operandBatchingDims := []
  startIndicesBatchingDims := []
  startIndexMap := [0]
  indexVectorDim := 1
  sliceSizes := ![1, 128]
  wf := gather_S20000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S20000_S250000x1_S250000_n_0_0_1 : ScatterDims S20000 S250000x1 S250000 where
  updateWindowDims := []
  insertedWindowDims := [0]
  scatterDimsToOperandDims := [0]
  indexVectorDim := 1
  wf := scatter_S20000_S250000x1_S250000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.Pre.lean ====
/-
  The precondition, read back: beside the finiteness of the float inputs it says that every source index of the three
  edge lists names a row of the array it indexes — 0 ≤ writes_src < 20000, 0 ≤ cites_src < 50000,
  0 ≤ rev_src < 50000, read as signed 32-bit words.  The three conjuncts are the last three of the conjunction, so the
  finiteness part is never opened.
-/
import proofs.«420728_j39633958208182_1_alg».proof.Pre_finite_inputs
import proofs.«420728_j39633958208182_1_alg».proof.Proof.Gen.Pre_finite_inputs
import Idealize.ShloMosaic.Lib.ReduceAll
import Idealize.ShloMosaic.Lib.ValueIdx

noncomputable section

namespace Cert.Proof.Pre

open Idealize.ShloMosaic Idealize.ShloMosaic.ValueIdx

/-- Every word of `src`, read signed, is a row number below `n`. -/
def InRange {E : Nat} (src : IVec ⟨1, ![E]⟩ 32) (n : Nat) : Prop :=
  ∀ e : (⟨1, ![E]⟩ : Shape).Idx, 0 ≤ (src e).toInt ∧ (src e).toInt < n

/-- The shape of a scalar has exactly one index. -/
instance subsingleton_scalar_idx : Subsingleton Cert.Pre_finite_inputs.S_.Idx :=
  ⟨fun a b => funext fun d => d.elim0⟩

/-- One edge list.  If the conjunction over all positions of the two signed comparisons `lo ≤ src` and `src < hi` is
    true, where `lo` is constantly the word 0 and `hi` constantly a word `c` whose signed value is `n`, then every
    word of `src` lies in `[0, n)`: a conjunction that is true is true at every position, and there each comparison
    says what it says of the signed values. -/
theorem inRange_of_all {E : Nat} (src : IVec ⟨1, ![E]⟩ 32) (n : Nat) (c : BitVec 32) (hc : c.toInt = (n : Int))
    (lo hi : IVec ⟨1, ![E]⟩ 32) (hlo : ∀ e, lo e = 0#32) (hhi : ∀ e, hi e = c)
    {axes : List (Fin (⟨1, ![E]⟩ : Shape).rank)}
    (hr : (⟨1, ![E]⟩ : Shape).ReducesTo axes Cert.Pre_finite_inputs.S_) (hu : 0 < Cert.Pre_finite_inputs.S_.numel)
    (init : IVec Cert.Pre_finite_inputs.S_ 1)
    (hall : Host.reduce IntOp.andi (andi (cmpi .sge src lo) (cmpi .slt src hi)) init hr hu ix0 = 1#1) :
    InRange src n := by
  intro e
  have he : IntOp.andi (IntOp.cmpi .sge (src e) (lo e)) (IntOp.cmpi .slt (src e) (hi e)) = 1#1 :=
    Host.reduce_andi_all _ init hr hu ix0 hall e
  obtain ⟨h0, h1⟩ := IntOp.andi_eq_one.1 he
  rw [hlo, IntOp.cmpi_sge] at h0
  rw [hhi, IntOp.cmpi_slt, hc] at h1
  have z : (0#32 : BitVec 32).toInt = 0 := by decide
  rw [z] at h0
  exact ⟨h0, h1⟩

open Cert.Pre_finite_inputs in
/-- The three index ranges the precondition states. -/
theorem ranges
    (x0 : FVec Ideal S50000x128 .f32) (x1 : FVec Ideal S20000x128 .f32) (x2 : FVec Ideal S3x128x128 .f32)
    (x3 : FVec Ideal S3x128 .f32) (x4 : FVec Ideal S3x128x128 .f32) (x5 : FVec Ideal S3x64x128 .f32)
    (x6 : FVec Ideal S3x64 .f32) (x7 : FVec Ideal S3x64x128 .f32)
    (x8 x9 : IVec S250000 32) (x10 x11 : IVec S500000 32) (x12 x13 : IVec S250000 32)
    (h : Cert.Pre_finite_inputs.fn (F := Ideal) x0 x1 x2 x3 x4 x5 x6 x7 x8 x9 x10 x11 x12 x13 = fun _ => 1#1) :
    InRange x8 20000 ∧ InRange x10 50000 ∧ InRange x12 50000 := by
  have e := congrFun h ValueIdx.ix0
  unfold Cert.Pre_finite_inputs.fn Cert.Pre_finite_inputs.fn_part1 Cert.Pre_finite_inputs.fn_part2
    Cert.Pre_finite_inputs.fn_part3 at e
  dsimp only at e
  -- the conjunction is nested to the left: its last three conjuncts are the three ranges
  obtain ⟨e1, h12⟩ := IntOp.andi_eq_one.1 e
  obtain ⟨e2, h10⟩ := IntOp.andi_eq_one.1 e1
  obtain ⟨-, h8⟩ := IntOp.andi_eq_one.1 e2
  exact ⟨inRange_of_all x8 20000 20000#32 (by decide) _ _ (fun _ => rfl) (fun _ => rfl) _ _ _ h8,
    inRange_of_all x10 50000 50000#32 (by decide) _ _ (fun _ => rfl) (fun _ => rfl) _ _ _ h10,
    inRange_of_all x12 50000 50000#32 (by decide) _ _ (fun _ => rfl) (fun _ => rfl) _ _ _ h12⟩

end Cert.Proof.Pre

end
-- ==== Proof.Agg.lean ====
/-
  The neighbour aggregation both programs perform on the host, named once.  For an edge list (src, dst) and a feature
  array x: gather row src[e] of x for every edge e, add the gathered rows into their destination rows, and divide each
  destination row by max(number of incoming edges, 1).  The kernel program's gather differs from the reference's in one
  way: it replaces the row of an edge whose source index is out of range by a fill word, where the reference's gather
  clamps the index.  When every source index is in range no edge is replaced and the two gathers are the same function.
-/
import proofs.«420728_j39633958208182_1_alg».proof.Proof.Gen.KernelIdeal
import proofs.«420728_j39633958208182_1_alg».proof.Proof.Gen.ReferenceIdeal.Read
import proofs.«420728_j39633958208182_1_alg».proof.Proof.Pre
import Idealize.ShloMosaic.Lib.Affine
import Idealize.ShloMosaic.Lib.ReduceAll
import Idealize.ShloMosaic.PureOps.Reduce

noncomputable section

namespace Cert.KernelIdeal.Agg

open Idealize.ShloMosaic Idealize.ShloMosaic.ValueIdx
open Cert.KernelIdeal Cert.KernelIdeal.Facts₀ Cert.KernelIdeal.Facts

/-! ## A mask that is one everywhere

The kernel's gather keeps edge `e` when the conjunction, over the one-element row `e` of the column of start indices,
of `0 ≤ w` and `w ≤ n − 1` is one.  For a source word in `[0, n)` the wrapped start index is the word itself and both
comparisons hold, so every conjunct is one; a conjunction of ones is one; and a select under a mask of ones is its
first operand. -/

/-- A left fold of `and` from one over words that are all one is one. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi (1#1 : BitVec 1) 1#1 = 1#1 from by decide]
    exact foldl_andi_ones f hf l

/-- A reduction by `and`, from one, of a mask that is one everywhere is one at every index. -/
theorem reduce_andi_ones {s t u : Shape} {axes : List (Fin s.rank)} (x : s.Idx → BitVec 1) (hx : ∀ i, x i = 1#1)
    (init : u.Idx → BitVec 1) (hinit : ∀ k, init k = 1#1) (hr : s.ReducesTo axes t) (hu : 0 < u.numel) (j : t.Idx) :
    Host.reduce IntOp.andi x init hr hu j = 1#1 := by
  rw [Host.reduce_eq_foldl, hinit]
  exact foldl_andi_ones x hx _

/-- A mask that is one everywhere stays so when broadcast. -/
theorem broadcastInDim_ones {s t : Shape} (d : Fin s.rank → Fin t.rank) (hb : s.BroadcastsInDim t d)
    (x : s.Idx → BitVec 1) (hx : ∀ e, x e = 1#1) (j : t.Idx) : broadcastInDim t d hb x j = 1#1 := by
  unfold broadcastInDim
  exact hx _

/-- A select under a mask that is one everywhere is its first operand. -/
theorem select_ones {s : Shape} {α : Type} (c : IVec s 1) (hc : ∀ i, c i = 1#1) (a b : s.Idx → α) :
    select c a b = a := by
  funext i
  rw [ValueIdx.select_apply, hc i]
  exact if_pos rfl

/-- A nonnegative word is not counted from the end: the wrapped index is the word. -/
theorem wrap_word {w N : BitVec 32} (h0 : 0 ≤ w.toInt) :
    Scalar.select (IntOp.cmpi .slt w 0#32) (IntOp.addi w N) w = w := by
  have hc : ¬IntOp.cmpi .slt w 0#32 = 1#1 := by
    rw [IntOp.cmpi_slt, show (0#32 : BitVec 32).toInt = 0 from rfl]
    omega
  exact if_neg hc

/-- Of nonnegative words the wrapped indices are the words. -/
theorem wrap_vec {s : Shape} (src zs ns : IVec s 32) (hzs : ∀ e, zs e = 0#32) (h0 : ∀ e, 0 ≤ (src e).toInt) :
    select (cmpi .slt src zs) (addi src ns) src = src := by
  funext e
  show Scalar.select (IntOp.cmpi .slt (src e) (zs e)) (IntOp.addi (src e) (ns e)) (src e) = src e
  rw [hzs]
  exact wrap_word (h0 e)

/-- A word in `[0, n)` passes the test `0 ≤ w ∧ w ≤ n − 1`. -/
theorem keep_word {w M : BitVec 32} {n : Int} (h0 : 0 ≤ w.toInt) (h1 : w.toInt < n) (hM : M.toInt = n - 1) :
    IntOp.andi (IntOp.cmpi .sge w 0#32) (IntOp.cmpi .sle w M) = 1#1 := by
  rw [IntOp.andi_eq_one, IntOp.cmpi_sge, IntOp.cmpi_sle, hM, show (0#32 : BitVec 32).toInt = 0 from rfl]
  exact ⟨h0, by omega⟩

/-- The range test on the column of start indices, when those are source words in `[0, n)`: one at every index. -/
theorem keepCol_ones {s c : Shape} (d : Fin s.rank → Fin c.rank) (hb : s.BroadcastsInDim c d) (src : IVec s 32)
    (zc mc : IVec c 32) (M : BitVec 32) (n : Nat) (hzc : ∀ i, zc i = 0#32) (hmc : ∀ i, mc i = M)
    (hM : M.toInt = (n : Int) - 1) (hsrc : ∀ e, 0 ≤ (src e).toInt ∧ (src e).toInt < n) (i : c.Idx) :
    andi (cmpi .sge (broadcastInDim c d hb src) zc) (cmpi .sle (broadcastInDim c d hb src) mc) i = 1#1 := by
  show IntOp.andi (IntOp.cmpi .sge (broadcastInDim c d hb src i) (zc i))
    (IntOp.cmpi .sle (broadcastInDim c d hb src i) (mc i)) = 1#1
  rw [hzc, hmc]
  obtain ⟨e, he⟩ : ∃ e, broadcastInDim c d hb src i = src e := ⟨_, rfl⟩
  rw [he]
  exact keep_word (hsrc e).1 (hsrc e).2 hM

/-! ## Edge type W: sources among 20000 rows, 250000 edges, destinations among 50000 rows -/

/-- The source indices as the gather takes them: a negative index counted from the end, then a column of start indices. -/
def wrapW (src : IVec S250000 32) : IVec S250000x1 32 :=
  broadcastInDim S250000x1 ![0] bcast_S250000_S250000x1_0
    (select (cmpi .slt src (broadcastInDim S250000 ![] bcast_S_S250000 (constantI S_ 32 0#32)))
      (addi src (broadcastInDim S250000 ![] bcast_S_S250000 (constantI S_ 32 20000#32))) src)

/-- The reference's gather of source rows: row `src[e]` of `x` for edge `e` (the start index clamped into the array). -/
def takeRW {F : FTy → Type} [FloatOps F] (x : FVec F S20000x128 .f32) (src : IVec S250000 32) : FVec F S250000x128 .f32 :=
  Host.gather gather_S20000x128_S250000x1_S250000x128_1_0_n_n_0_1_1128 x (wrapW src)

/-- Which edges the kernel's gather keeps: those whose start index lies in `[0, 19999]`. -/
def keepW (src : IVec S250000 32) : IVec S250000 1 :=
  Host.reduce IntOp.andi
    (andi (cmpi .sge (wrapW src) (broadcastInDim S250000x1 ![] bcast_S_S250000x1 (constantI S_ 32 0#32)))
      (cmpi .sle (wrapW src) (broadcastInDim S250000x1 ![0, 1] bcast_S1x1_S250000x1_0_1
        (broadcastInDim S1x1 ![1] bcast_S1_S1x1_1 (constantI S1 32 19999#32)))))
    (constantI S_ 1 1#1) reducesTo_S250000x1_S250000_d1 h_S_

/-- The kernel program's gather of source rows: the same rows, but an edge whose index is out of range gets the
    fill word in every column instead of a clamped row. -/
def takeKW {F : FTy → Type} [FloatOps F] (x : FVec F S20000x128 .f32) (src : IVec S250000 32) : FVec F S250000x128 .f32 :=
  select (broadcastInDim S250000x128 ![0] bcast_S250000_S250000x128_0 (keepW src))
    (takeRW x src)
    (broadcastInDim S250000x128 ![] bcast_S_S250000x128 (constant S_ .f32 0x7FC00000#32))

/-- The mean over incoming edges: the gathered rows summed into their destination rows, divided by the number of
    edges into each destination, that count taken as at least one. -/
def segMeanW {F : FTy → Type} [FloatOps F] (g : FVec F S250000x128 .f32) (dst : IVec S250000 32) : FVec F S50000x128 .f32 :=
  Host.divf
    (Host.scatterAdd scatter_S50000x128_S250000x1_S250000x128_1_0_0_1
      (broadcastInDim S50000x128 ![] bcast_S_S50000x128 (constant S_ .f32 0x00000000#32))
      (broadcastInDim S250000x1 ![0] bcast_S250000_S250000x1_0 dst) g)
    (broadcastInDim S50000x128 ![0, 1] bcast_S50000x1_S50000x128_0_1
      (broadcastInDim S50000x1 ![0] bcast_S50000_S50000x1_0
        (maximumf
          (Host.scatterAdd scatter_S50000_S250000x1_S250000_n_0_0_1
            (broadcastInDim S50000 ![] bcast_S_S50000 (constant S_ .f32 0x00000000#32))
            (broadcastInDim S250000x1 ![0] bcast_S250000_S250000x1_0 dst)
            (broadcastInDim S250000 ![] bcast_S_S250000 (constant S_ .f32 0x3F800000#32)))
          (broadcastInDim S50000 ![] bcast_S_S50000 (constant S_ .f32 0x3F800000#32)))))

/-- With every source index in range the kernel's gather keeps every edge, and is the reference's gather. -/
theorem takeKW_eq {F : FTy → Type} [FloatOps F] (x : FVec F S20000x128 .f32) (src : IVec S250000 32)
    (h : Cert.Proof.Pre.InRange src 20000) : takeKW x src = takeRW x src := by
  have hw : wrapW src = broadcastInDim S250000x1 ![0] bcast_S250000_S250000x1_0 src := by
    unfold wrapW
    rw [wrap_vec src _ _ ?_ (fun e => (h e).1)]
    exact fun _ => rfl
  have hk : ∀ e, keepW src e = 1#1 := by
    intro e
    unfold keepW
    rw [hw]
    exact reduce_andi_ones _ (keepCol_ones _ _ src _ _ 19999#32 20000 (fun _ => rfl) (fun _ => rfl) (by decide) h) _
      (fun _ => rfl) _ _ e
  unfold takeKW
  exact select_ones _ (broadcastInDim_ones _ _ _ hk) _ _

/-! ## Edge type C: sources among 50000 rows, 500000 edges, destinations among 50000 rows -/

/-- The source indices as the gather takes them: a negative index counted from the end, then a column of start indices. -/
def wrapC (src : IVec S500000 32) : IVec S500000x1 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- The reference's gather of source rows: row `src[e]` of `x` for edge `e` (the start index clamped into the array). -/
def takeRC {F : FTy → Type} [FloatOps F] (x : FVec F S50000x128 .f32) (src : IVec S500000 32) : FVec F S500000x128 .f32 :=
  Host.gather gather_S50000x128_S500000x1_S500000x128_1_0_n_n_0_1_1128 x (wrapC src)

/-- Which edges the kernel's gather keeps: those whose start index lies in `[0, 49999]`. -/
def keepC (src : IVec S500000 32) : IVec S500000 1 :=
  Host.reduce IntOp.andi
    (andi (cmpi .sge (wrapC src) (broadcastInDim S500000x1 ![] bcast_S_S500000x1 (constantI S_ 32 0#32)))
      (cmpi .sle (wrapC src) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- The kernel program's gather of source rows: the same rows, but an edge whose index is out of range gets the
    fill word in every column instead of a clamped row. -/
def takeKC {F : FTy → Type} [FloatOps F] (x : FVec F S50000x128 .f32) (src : IVec S500000 32) : FVec F S500000x128 .f32 :=
  select (broadcastInDim S500000x128 ![0] bcast_S500000_S500000x128_0 (keepC src))
    (takeRC x src)
    (broadcastInDim S500000x128 ![] bcast_S_S500000x128 (constant S_ .f32 0x7FC00000#32))

/-- The mean over incoming edges: the gathered rows summed into their destination rows, divided by the number of
    edges into each destination, that count taken as at least one. -/
def segMeanC {F : FTy → Type} [FloatOps F] (g : FVec F S500000x128 .f32) (dst : IVec S500000 32) : FVec F S50000x128 .f32 :=
  Host.divf
    (Host.scatterAdd scatter_S50000x128_S500000x1_S500000x128_1_0_0_1
      (broadcastInDim S50000x128 ![] bcast_S_S50000x128 (constant S_ .f32 0x00000000#32))
      (broadcastInDim S500000x1 ![0] bcast_S500000_S500000x1_0 dst) g)
    (broadcastInDim S50000x128 ![0, 1] bcast_S50000x1_S50000x128_0_1
      (broadcastInDim S50000x1 ![0] bcast_S50000_S50000x1_0
        (maximumf
          (Host.scatterAdd scatter_S50000_S500000x1_S500000_n_0_0_1
            (broadcastInDim S50000 ![] bcast_S_S50000 (constant S_ .f32 0x00000000#32))
            (broadcastInDim S500000x1 ![0] bcast_S500000_S500000x1_0 dst)
            (broadcastInDim S500000 ![] bcast_S_S500000 (constant S_ .f32 0x3F800000#32)))
          (broadcastInDim S50000 ![] bcast_S_S50000 (constant S_ .f32 0x3F800000#32)))))

/-- With every source index in range the kernel's gather keeps every edge, and is the reference's gather. -/
theorem takeKC_eq {F : FTy → Type} [FloatOps F] (x : FVec F S50000x128 .f32) (src : IVec S500000 32)
    (h : Cert.Proof.Pre.InRange src 50000) : takeKC x src = takeRC x src := by
  have hw : wrapC src = broadcastInDim S500000x1 ![0] bcast_S500000_S500000x1_0 src := by
    unfold wrapC
    rw [wrap_vec src _ _ ?_ (fun e => (h e).1)]
    exact fun _ => rfl
  have hk : ∀ e, keepC src e = 1#1 := by
    intro e
    unfold keepC
    rw [hw]
    exact reduce_andi_ones _ (keepCol_ones _ _ src _ _ 49999#32 50000 (fun _ => rfl) (fun _ => rfl) (by decide) h) _
      (fun _ => rfl) _ _ e
  unfold takeKC
  exact select_ones _ (broadcastInDim_ones _ _ _ hk) _ _

/-! ## Edge type R: sources among 50000 rows, 250000 edges, destinations among 20000 rows -/

/-- The source indices as the gather takes them: a negative index counted from the end, then a column of start indices. -/
def wrapR (src : IVec S250000 32) : IVec S250000x1 32 :=
  broadcastInDim S250000x1 ![0] bcast_S250000_S250000x1_0
    (select (cmpi .slt src (broadcastInDim S250000 ![] bcast_S_S250000 (constantI S_ 32 0#32)))
      (addi src (broadcastInDim S250000 ![] bcast_S_S250000 (constantI S_ 32 50000#32))) src)

/-- The reference's gather of source rows: row `src[e]` of `x` for edge `e` (the start index clamped into the array). -/
def takeRR {F : FTy → Type} [FloatOps F] (x : FVec F S50000x128 .f32) (src : IVec S250000 32) : FVec F S250000x128 .f32 :=
  Host.gather gather_S50000x128_S250000x1_S250000x128_1_0_n_n_0_1_1128 x (wrapR src)

/-- Which edges the kernel's gather keeps: those whose start index lies in `[0, 49999]`. -/
def keepR (src : IVec S250000 32) : IVec S250000 1 :=
  Host.reduce IntOp.andi
    (andi (cmpi .sge (wrapR src) (broadcastInDim S250000x1 ![] bcast_S_S250000x1 (constantI S_ 32 0#32)))
      (cmpi .sle (wrapR src) (broadcastInDim S250000x1 ![0, 1] bcast_S1x1_S250000x1_0_1
        (broadcastInDim S1x1 ![1] bcast_S1_S1x1_1 (constantI S1 32 49999#32)))))
    (constantI S_ 1 1#1) reducesTo_S250000x1_S250000_d1 h_S_

/-- The kernel program's gather of source rows: the same rows, but an edge whose index is out of range gets the
    fill word in every column instead of a clamped row. -/
def takeKR {F : FTy → Type} [FloatOps F] (x : FVec F S50000x128 .f32) (src : IVec S250000 32) : FVec F S250000x128 .f32 :=
  select (broadcastInDim S250000x128 ![0] bcast_S250000_S250000x128_0 (keepR src))
    (takeRR x src)
    (broadcastInDim S250000x128 ![] bcast_S_S250000x128 (constant S_ .f32 0x7FC00000#32))

/-- The mean over incoming edges: the gathered rows summed into their destination rows, divided by the number of
    edges into each destination, that count taken as at least one. -/
def segMeanR {F : FTy → Type} [FloatOps F] (g : FVec F S250000x128 .f32) (dst : IVec S250000 32) : FVec F S20000x128 .f32 :=
  Host.divf
    (Host.scatterAdd scatter_S20000x128_S250000x1_S250000x128_1_0_0_1
      (broadcastInDim S20000x128 ![] bcast_S_S20000x128 (constant S_ .f32 0x00000000#32))
      (broadcastInDim S250000x1 ![0] bcast_S250000_S250000x1_0 dst) g)
    (broadcastInDim S20000x128 ![0, 1] bcast_S20000x1_S20000x128_0_1
      (broadcastInDim S20000x1 ![0] bcast_S20000_S20000x1_0
        (maximumf
          (Host.scatterAdd scatter_S20000_S250000x1_S250000_n_0_0_1
            (broadcastInDim S20000 ![] bcast_S_S20000 (constant S_ .f32 0x00000000#32))
            (broadcastInDim S250000x1 ![0] bcast_S250000_S250000x1_0 dst)
            (broadcastInDim S250000 ![] bcast_S_S250000 (constant S_ .f32 0x3F800000#32)))
          (broadcastInDim S20000 ![] bcast_S_S20000 (constant S_ .f32 0x3F800000#32)))))

/-- With every source index in range the kernel's gather keeps every edge, and is the reference's gather. -/
theorem takeKR_eq {F : FTy → Type} [FloatOps F] (x : FVec F S50000x128 .f32) (src : IVec S250000 32)
    (h : Cert.Proof.Pre.InRange src 50000) : takeKR x src = takeRR x src := by
  have hw : wrapR src = broadcastInDim S250000x1 ![0] bcast_S250000_S250000x1_0 src := by
    unfold wrapR
    rw [wrap_vec src _ _ ?_ (fun e => (h e).1)]
    exact fun _ => rfl
  have hk : ∀ e, keepR src e = 1#1 := by
    intro e
    unfold keepR
    rw [hw]
    exact reduce_andi_ones _ (keepCol_ones _ _ src _ _ 49999#32 50000 (fun _ => rfl) (fun _ => rfl) (by decide) h) _
      (fun _ => rfl) _ _ e
  unfold takeKR
  exact select_ones _ (broadcastInDim_ones _ _ _ hk) _ _

/-! ## The reference's aggregation stages are these functions -/

section Reference
open Cert.ReferenceIdeal.Read

variable (x0 : FVec Ideal S50000x128 .f32) (x1 : FVec Ideal S20000x128 .f32) (x2 : FVec Ideal S3x128x128 .f32)
  (x3 : FVec Ideal S3x128 .f32) (x4 : FVec Ideal S3x128x128 .f32)
  (x8 x9 : IVec S250000 32) (x10 x11 : IVec S500000 32) (x12 x13 : IVec S250000 32)

theorem ref_aggW1 : val_main_v24 (F := Ideal) x1 x8 x9 = segMeanW (F := Ideal) (takeRW x1 x8) x9 := by
  unfold val_main_v24 val_main_v15 val_main_v23 val_main_v22 val_main_v21 val_main_v19 val_main_v20 val_main_v18
    val_main_v17 val_main_v16 val_main_v14 val_main_v13 val_main_v12 val_main_v11 val_main_v10 val_main_v9 val_main_v8
    val_main_v7 val_main_v6 val_main_c val_main_c_0 val_main_cst val_main_cst_1 val_main_cst_2 val_main_cst_3
    segMeanW takeRW wrapW
  rfl
theorem ref_aggC1 : val_main_v57 (F := Ideal) x0 x10 x11 = segMeanC (F := Ideal) (takeRC x0 x10) x11 := by
  unfold val_main_v57 val_main_v48 val_main_v56 val_main_v55 val_main_v54 val_main_v52 val_main_v53 val_main_v51
    val_main_v50 val_main_v49 val_main_v47 val_main_v46 val_main_v45 val_main_v44 val_main_v43 val_main_v42 val_main_v41
    val_main_v40 val_main_v39 val_main_c_4 val_main_c_5 val_main_cst_6 val_main_cst_7 val_main_cst_8 val_main_cst_9
    segMeanC takeRC wrapC
  rfl
theorem ref_aggR1 : val_main_v93 (F := Ideal) x0 x12 x13 = segMeanR (F := Ideal) (takeRR x0 x12) x13 := by
  unfold val_main_v93 val_main_v84 val_main_v92 val_main_v91 val_main_v90 val_main_v88 val_main_v89 val_main_v87
    val_main_v86 val_main_v85 val_main_v83 val_main_v82 val_main_v81 val_main_v80 val_main_v79 val_main_v78 val_main_v77
    val_main_v76 val_main_v75 val_main_c_11 val_main_c_12 val_main_cst_13 val_main_cst_14 val_main_cst_15 val_main_cst_16
    segMeanR takeRR wrapR
  rfl
theorem ref_aggW2 : val_main_v128 (F := Ideal) x0 x1 x2 x3 x4 x8 x9 x12 x13
    = segMeanW (F := Ideal) (takeRW (val_main_v103 (F := Ideal) x0 x1 x2 x3 x4 x12 x13) x8) x9 := by
  unfold val_main_v128 val_main_v119 val_main_v127 val_main_v126 val_main_v125 val_main_v123 val_main_v124 val_main_v122
    val_main_v121 val_main_v120 val_main_v118 val_main_v117 val_main_v116 val_main_v115 val_main_v114 val_main_v113
    val_main_v112 val_main_v111 val_main_v110 val_main_c_17 val_main_c_18 val_main_cst_19 val_main_cst_20 val_main_cst_21
    val_main_cst_22 segMeanW takeRW wrapW
  generalize val_main_v103 (F := Ideal) x0 x1 x2 x3 x4 x12 x13 = g
  rfl
theorem ref_aggC2 : val_main_v161 (F := Ideal) x0 x1 x2 x3 x4 x8 x9 x10 x11
    = segMeanC (F := Ideal) (takeRC (val_main_v102 (F := Ideal) x0 x1 x2 x3 x4 x8 x9 x10 x11) x10) x11 := by
  unfold val_main_v161 val_main_v152 val_main_v160 val_main_v159 val_main_v158 val_main_v156 val_main_v157 val_main_v155
    val_main_v154 val_main_v153 val_main_v151 val_main_v150 val_main_v149 val_main_v148 val_main_v147 val_main_v146
    val_main_v145 val_main_v144 val_main_v143 val_main_c_23 val_main_c_24 val_main_cst_25 val_main_cst_26 val_main_cst_27
    val_main_cst_28 segMeanC takeRC wrapC
  generalize val_main_v102 (F := Ideal) x0 x1 x2 x3 x4 x8 x9 x10 x11 = g
  rfl

end Reference

end Cert.KernelIdeal.Agg

end
-- ==== Proof.Spec.lean ====
/-
  The layer both programs compute, as one function of its operands, element by element, over the extended reals.

  One relation's message at destination row `p` and output feature `q`:
      (∑ₖ agg[p, k] · wl[k, q]) + b[0, q] + ∑ₖ x[p, k] · wr[k, q],
  the mean-aggregated neighbour features through the left weights, the bias, and the node's own features through the
  right weights (the weights already transposed to [in, out], the bias a row vector).  A destination type with two
  incoming relations averages the two messages (`comb2`), one with a single relation keeps it (`comb1`); the hidden
  layer clamps the result at zero from below.
-/
import Idealize.ShloMosaic.Lib.ValueIdx
import Idealize.ShloMosaic.PureOps.Ideal

noncomputable section

open scoped BigOperators

namespace Cert.Proof.Spec

open Idealize.ShloMosaic Idealize.ShloMosaic.ValueIdx

/-- One relation's message at row `p`, feature `q`. -/
def sage {N O : Nat} (agg x : Vec Ideal ⟨2, ![N, 128]⟩ .f32) (wl wr : Vec Ideal ⟨2, ![128, O]⟩ .f32)
    (b : Vec Ideal ⟨2, ![1, O]⟩ .f32) (p : Fin N) (q : Fin O) : EReal :=
  (∑ k : Fin 128, agg (ix2 p k) * wl (ix2 k q)) + b (ix2 0 q) + ∑ k : Fin 128, x (ix2 p k) * wr (ix2 k q)

/-- The literal one half, as both programs carry it. -/
def half : EReal := Ideal.ofBits .f32 0x3F000000#32
/-- The literal zero, as both programs carry it. -/
def zero : EReal := Ideal.ofBits .f32 0x00000000#32

/-- Two relations into one destination type: half the sum of the two messages. -/
def comb2 {N O : Nat} (x a0 a1 : Vec Ideal ⟨2, ![N, 128]⟩ .f32) (wl0 wl1 wr0 wr1 : Vec Ideal ⟨2, ![128, O]⟩ .f32)
    (b0 b1 : Vec Ideal ⟨2, ![1, O]⟩ .f32) : Vec Ideal ⟨2, ![N, O]⟩ .f32 :=
  fun i => half * (sage a0 x wl0 wr0 b0 (i 0) (i 1) + sage a1 x wl1 wr1 b1 (i 0) (i 1))

/-- The same, clamped at zero from below. -/
def comb2relu {N O : Nat} (x a0 a1 : Vec Ideal ⟨2, ![N, 128]⟩ .f32) (wl0 wl1 wr0 wr1 : Vec Ideal ⟨2, ![128, O]⟩ .f32)
    (b0 b1 : Vec Ideal ⟨2, ![1, O]⟩ .f32) : Vec Ideal ⟨2, ![N, O]⟩ .f32 :=
  fun i => max (comb2 x a0 a1 wl0 wl1 wr0 wr1 b0 b1 i) zero

/-- One relation into a destination type, clamped at zero from below. -/
def comb1relu {N O : Nat} (x a : Vec Ideal ⟨2, ![N, 128]⟩ .f32) (wl wr : Vec Ideal ⟨2, ![128, O]⟩ .f32)
    (b : Vec Ideal ⟨2, ![1, O]⟩ .f32) : Vec Ideal ⟨2, ![N, O]⟩ .f32 :=
  fun i => max (sage a x wl wr b (i 0) (i 1)) zero

/-- Slice `p` of a stack of three [out, in] weight matrices, transposed to [in, out]. -/
def wT {O : Nat} (W : Vec Ideal ⟨3, ![3, O, 128]⟩ .f32) (p : Fin 3) : Vec Ideal ⟨2, ![128, O]⟩ .f32 :=
  fun i => W (ix3 p (i 1) (i 0))

/-- Row `p` of a stack of three bias vectors, as a [1, out] row. -/
def bRow {O : Nat} (B : Vec Ideal ⟨2, ![3, O]⟩ .f32) (p : Fin 3) : Vec Ideal ⟨2, ![1, O]⟩ .f32 :=
  fun i => B (ix2 p (i 1))

end Cert.Proof.Spec

end
-- ==== Proof.Layout.lean ====
/-
  The weight and bias operands as the kernel program's host code prepares them.  The weights arrive as a stack of three
  [out, in] matrices; the program transposes the stack to [3, in, out], cuts out slice p and drops the unit axis: entry
  (k, j) of the result is W[p, j, k].  The biases arrive as a [3, out] array; the program views it as [3, 1, out], cuts
  out slice p and drops one unit axis: entry (0, j) of the result is B[p, j].
-/
import Idealize.ShloMosaic.Lib.Pipeline.Value
import Idealize.ShloMosaic.Lib.ValueIdx
import proofs.«420728_j39633958208182_1_alg».proof.Proof.Spec

noncomputable section

namespace Cert.Proof.Layout

open Idealize.ShloMosaic Idealize.ShloMosaic.ValueIdx Cert.Proof.Spec

/-- Slice `p` of the transposed weight stack, as a matrix, is `wT W p`. -/
theorem wslice {O : Nat} (W : Vec Ideal ⟨3, ![3, O, 128]⟩ .f32) (p : Nat) (hp : p < 3)
    (ht : (⟨3, ![3, O, 128]⟩ : Shape).Transposes [0, 2, 1] ⟨3, ![3, 128, O]⟩)
    (hs : (⟨3, ![3, 128, O]⟩ : Shape).Slices ![p, 0, 0] ⟨3, ![1, 128, O]⟩)
    (hc : (⟨3, ![1, 128, O]⟩ : Shape).ShapeCasts ⟨2, ![128, O]⟩) :
    shapeCast ⟨2, ![128, O]⟩
        (extractStridedSlice ⟨3, ![1, 128, O]⟩ ![p, 0, 0] (transpose ⟨3, ![3, 128, O]⟩ [0, 2, 1] W ht) hs) hc
      = wT W ⟨p, hp⟩ := by
  funext i
  obtain ⟨k, j, rfl⟩ : ∃ (k : Fin 128) (j : Fin O), i = ix2 k j := ⟨i 0, i 1, eq_ix2 i⟩
  rw [shapeCast_apply _ hc (ix2 k j) (ix3 (0 : Fin 1) k j)
    (by rw [Shape.rowMajor_val_three, Shape.rowMajor_val_two]
        show (0 * 128 + k.val) * O + j.val = k.val * O + j.val
        rw [Nat.zero_mul, Nat.zero_add])]
  rw [extractStridedSlice_apply ![p, 0, 0] _ hs (ix3 (0 : Fin 1) k j) (ix3 (⟨p, hp⟩ : Fin 3) k j)
    (fun a => match a with
      | ⟨0, _⟩ => by show p = p + 0; omega
      | ⟨1, _⟩ => by show k.val = 0 + k.val; omega
      | ⟨2, _⟩ => by show j.val = 0 + j.val; omega)]
  rw [transpose_apply [0, 2, 1] W ht (ix3 (⟨p, hp⟩ : Fin 3) k j) (ix3 (⟨p, hp⟩ : Fin 3) j k)
    (fun b => match b with
      | ⟨0, _⟩ => rfl
      | ⟨1, _⟩ => rfl
      | ⟨2, _⟩ => rfl)]
  rfl

/-- Row `p` of the bias array viewed as [3, 1, out], as a [1, out] row, is `bRow B p`. -/
theorem bslice {O : Nat} (B : Vec Ideal ⟨2, ![3, O]⟩ .f32) (p : Nat) (hp : p < 3)
    (hr : (⟨2, ![3, O]⟩ : Shape).ShapeCasts ⟨3, ![3, 1, O]⟩)
    (hs : (⟨3, ![3, 1, O]⟩ : Shape).Slices ![p, 0, 0] ⟨3, ![1, 1, O]⟩)
    (hc : (⟨3, ![1, 1, O]⟩ : Shape).ShapeCasts ⟨2, ![1, O]⟩) :
    shapeCast ⟨2, ![1, O]⟩
        (extractStridedSlice ⟨3, ![1, 1, O]⟩ ![p, 0, 0] (shapeCast ⟨3, ![3, 1, O]⟩ B hr) hs) hc
      = bRow B ⟨p, hp⟩ := by
  funext i
  obtain ⟨z, j, rfl⟩ : ∃ (z : Fin 1) (j : Fin O), i = ix2 z j := ⟨i 0, i 1, eq_ix2 i⟩
  have hz : z.val = 0 := by omega
  rw [shapeCast_apply _ hc (ix2 z j) (ix3 (0 : Fin 1) (0 : Fin 1) j)
    (by rw [Shape.rowMajor_val_three, Shape.rowMajor_val_two]
        show (0 * 1 + 0) * O + j.val = z.val * O + j.val
        rw [hz])]
  rw [extractStridedSlice_apply ![p, 0, 0] _ hs (ix3 (0 : Fin 1) (0 : Fin 1) j) (ix3 (⟨p, hp⟩ : Fin 3) (0 : Fin 1) j)
    (fun a => match a with
      | ⟨0, _⟩ => by show p = p + 0; omega
      | ⟨1, _⟩ => by show 0 = 0 + 0; omega
      | ⟨2, _⟩ => by show j.val = 0 + j.val; omega)]
  rw [shapeCast_apply B hr (ix3 (⟨p, hp⟩ : Fin 3) (0 : Fin 1) j) (ix2 (⟨p, hp⟩ : Fin 3) j)
    (by rw [Shape.rowMajor_val_three, Shape.rowMajor_val_two]
        show p * O + j.val = (p * 1 + 0) * O + j.val
        rw [Nat.mul_one, Nat.add_zero])]
  rfl

end Cert.Proof.Layout

end
-- ==== Proof.KHost.lean ====
/-
  The kernel program's host stretches, read one at a time, and then along the whole program: what the buffers each region
  stages hold when the region is entered, as functions of the program's arguments and of the earlier regions' outputs.

  A stretch of host operations writes each of its result buffers once and no other buffer; so a buffer that a stretch
  does not write holds after the stretch what it held before, and a result buffer holds its operation's function of the
  operands' contents.  A region writes its output array and leaves every other buffer alone.
-/
import proofs.«420728_j39633958208182_1_alg».proof.Proof.Gen.KernelIdeal.Frame
import proofs.«420728_j39633958208182_1_alg».proof.Proof.Agg
import proofs.«420728_j39633958208182_1_alg».proof.Proof.Spec
import proofs.«420728_j39633958208182_1_alg».proof.Proof.Layout
import Idealize.ShloMosaic.Lib.StableHlo.Run

set_option maxRecDepth 16384

noncomputable section

namespace Cert.KernelIdeal.KHost

open Idealize.ShloMosaic Idealize.ShloMosaic.TcCoe Idealize.SL.Sem Idealize.ShloMosaic.ValueIdx Idealize.ShloMosaic.StableHlo
open Cert.KernelIdeal Cert.KernelIdeal.Gen Cert.KernelIdeal.Agg
open Cert.Proof.Spec

/-! ## What each stretch writes -/

noncomputable def wr_hostOps0 : List (Ref sig .tc) :=
  [main_v0, main_v1, main_v2, main_v3, main_v4, main_v5]
noncomputable def wr_hostOps0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
noncomputable def wr_hostOps0_2 : List (Ref sig .tc) :=
  [main_cst, main_v7, main_v8, main_v9, main_cst_0, main_v10, main_cst_1, main_v11, main_v12, main_v13, main_cst_2, main_v14, main_v15, main_v16, main_v17, main_v18]
noncomputable def wr_hostOps0_3 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19]
noncomputable def wr_hostOps0_4 : List (Ref sig .tc) :=
  [main_cst_3, main_v20, main_v21, main_v22, main_cst_4, main_v23, main_cst_5, main_v24, main_v25, main_v26, main_cst_6, main_v27, main_v28, main_v29, main_v30, main_v31]
noncomputable def wr_hostOps0_5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v32]
noncomputable def wr_hostOps0_6 : List (Ref sig .tc) :=
  [main_cst_7, main_v33, main_v34, main_v35, main_cst_8, main_v36, main_cst_9, main_v37, main_v38, main_v39, main_cst_10, main_v40, main_v41, main_v42, main_v43, main_v44, main_v45, main_v46, main_v47, main_v48, main_v49, main_v50, main_v51, main_v52, main_v53, main_v54, main_v55, main_v56]
noncomputable def wr_hostOps1 : List (Ref sig .tc) :=
  [main_v58, main_v59, main_v60, main_v61, main_v62, main_v63]
noncomputable def wr_hostOps2 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v65]
noncomputable def wr_hostOps2_1 : List (Ref sig .tc) :=
  [main_cst_11, main_v66, main_v67, main_v68, main_cst_12, main_v69, main_cst_13, main_v70, main_v71, main_v72, main_cst_14, main_v73, main_v74, main_v75, main_v76, main_v77]
noncomputable def wr_hostOps2_2 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v78]
noncomputable def wr_hostOps2_3 : List (Ref sig .tc) :=
  [main_cst_15, main_v79, main_v80, main_v81, main_cst_16, main_v82, main_cst_17, main_v83, main_v84, main_v85, main_cst_18, main_v86, main_v87, main_v88, main_v89, main_v90, main_v91, main_v92, main_v93, main_v94, main_v95, main_v96, main_v97, main_v98, main_v99, main_v100, main_v101, main_v102]

section Writes
variable {F : FTy → Type} [FloatOps F]

/-- Closes "every operation of the stretch writes only buffers of the list". -/
macro "writes_in_list" : tactic => `(tactic| (
  simp only [hostOps0, hostOps0_1, hostOps0_2, hostOps0_3, hostOps0_4, hostOps0_5, hostOps0_6, hostOps1, hostOps2,
    hostOps2_1, hostOps2_2, hostOps2_3, List.Forall, StableHlo.nullary_writes, StableHlo.unary_writes,
    StableHlo.binary_writes, StableHlo.ternary_writes, StableHlo.quaternary_writes, StableHlo.reshape_writes,
    StableHlo.binaryIndexed_writes]
  repeat' apply And.intro
  all_goals (rw [Finset.singleton_subset_iff, List.mem_toFinset]; exact List.mem_map_of_mem (by decide))))

theorem hW_hostOps0 : (hostOps0 (F := F)).Forall fun op => op.writes ⊆ ((wr_hostOps0).map (Proc.devRef (τ := τ) .tc)).toFinset := by
  writes_in_list
theorem hW_hostOps0_1 : (hostOps0_1 (F := F)).Forall fun op => op.writes ⊆ ((wr_hostOps0_1).map (Proc.devRef (τ := τ) .tc)).toFinset := by
  writes_in_list
theorem hW_hostOps0_2 : (hostOps0_2 (F := F)).Forall fun op => op.writes ⊆ ((wr_hostOps0_2).map (Proc.devRef (τ := τ) .tc)).toFinset := by
  writes_in_list
theorem hW_hostOps0_3 : (hostOps0_3 (F := F)).Forall fun op => op.writes ⊆ ((wr_hostOps0_3).map (Proc.devRef (τ := τ) .tc)).toFinset := by
  writes_in_list
theorem hW_hostOps0_4 : (hostOps0_4 (F := F)).Forall fun op => op.writes ⊆ ((wr_hostOps0_4).map (Proc.devRef (τ := τ) .tc)).toFinset := by
  writes_in_list
theorem hW_hostOps0_5 : (hostOps0_5 (F := F)).Forall fun op => op.writes ⊆ ((wr_hostOps0_5).map (Proc.devRef (τ := τ) .tc)).toFinset := by
  writes_in_list
theorem hW_hostOps0_6 : (hostOps0_6 (F := F)).Forall fun op => op.writes ⊆ ((wr_hostOps0_6).map (Proc.devRef (τ := τ) .tc)).toFinset := by
  writes_in_list
theorem hW_hostOps1 : (hostOps1 (F := F)).Forall fun op => op.writes ⊆ ((wr_hostOps1).map (Proc.devRef (τ := τ) .tc)).toFinset := by
  writes_in_list
theorem hW_hostOps2 : (hostOps2 (F := F)).Forall fun op => op.writes ⊆ ((wr_hostOps2).map (Proc.devRef (τ := τ) .tc)).toFinset := by
  writes_in_list
theorem hW_hostOps2_1 : (hostOps2_1 (F := F)).Forall fun op => op.writes ⊆ ((wr_hostOps2_1).map (Proc.devRef (τ := τ) .tc)).toFinset := by
  writes_in_list
theorem hW_hostOps2_2 : (hostOps2_2 (F := F)).Forall fun op => op.writes ⊆ ((wr_hostOps2_2).map (Proc.devRef (τ := τ) .tc)).toFinset := by
  writes_in_list
theorem hW_hostOps2_3 : (hostOps2_3 (F := F)).Forall fun op => op.writes ⊆ ((wr_hostOps2_3).map (Proc.devRef (τ := τ) .tc)).toFinset := by
  writes_in_list

/-- A buffer outside a stretch's list keeps its contents through the stretch. -/
theorem skip_hostOps0 (U : Valuation τ sig (Elt F)) (r : Ref sig .tc) (hr : r ∉ wr_hostOps0) :
    StableHlo.after (hostOps0 (F := F)) U (Proc.devRef .tc r) = U (Proc.devRef .tc r) :=
  StableHlo.after_of_writes_sub _ U hW_hostOps0 hr
theorem skip_hostOps0_1 (U : Valuation τ sig (Elt F)) (r : Ref sig .tc) (hr : r ∉ wr_hostOps0_1) :
    StableHlo.after (hostOps0_1 (F := F)) U (Proc.devRef .tc r) = U (Proc.devRef .tc r) :=
  StableHlo.after_of_writes_sub _ U hW_hostOps0_1 hr
theorem skip_hostOps0_2 (U : Valuation τ sig (Elt F)) (r : Ref sig .tc) (hr : r ∉ wr_hostOps0_2) :
    StableHlo.after (hostOps0_2 (F := F)) U (Proc.devRef .tc r) = U (Proc.devRef .tc r) :=
  StableHlo.after_of_writes_sub _ U hW_hostOps0_2 hr
theorem skip_hostOps0_3 (U : Valuation τ sig (Elt F)) (r : Ref sig .tc) (hr : r ∉ wr_hostOps0_3) :
    StableHlo.after (hostOps0_3 (F := F)) U (Proc.devRef .tc r) = U (Proc.devRef .tc r) :=
  StableHlo.after_of_writes_sub _ U hW_hostOps0_3 hr
theorem skip_hostOps0_4 (U : Valuation τ sig (Elt F)) (r : Ref sig .tc) (hr : r ∉ wr_hostOps0_4) :
    StableHlo.after (hostOps0_4 (F := F)) U (Proc.devRef .tc r) = U (Proc.devRef .tc r) :=
  StableHlo.after_of_writes_sub _ U hW_hostOps0_4 hr
theorem skip_hostOps0_5 (U : Valuation τ sig (Elt F)) (r : Ref sig .tc) (hr : r ∉ wr_hostOps0_5) :
    StableHlo.after (hostOps0_5 (F := F)) U (Proc.devRef .tc r) = U (Proc.devRef .tc r) :=
  StableHlo.after_of_writes_sub _ U hW_hostOps0_5 hr
theorem skip_hostOps0_6 (U : Valuation τ sig (Elt F)) (r : Ref sig .tc) (hr : r ∉ wr_hostOps0_6) :
    StableHlo.after (hostOps0_6 (F := F)) U (Proc.devRef .tc r) = U (Proc.devRef .tc r) :=
  StableHlo.after_of_writes_sub _ U hW_hostOps0_6 hr
theorem skip_hostOps1 (U : Valuation τ sig (Elt F)) (r : Ref sig .tc) (hr : r ∉ wr_hostOps1) :
    StableHlo.after (hostOps1 (F := F)) U (Proc.devRef .tc r) = U (Proc.devRef .tc r) :=
  StableHlo.after_of_writes_sub _ U hW_hostOps1 hr
theorem skip_hostOps2 (U : Valuation τ sig (Elt F)) (r : Ref sig .tc) (hr : r ∉ wr_hostOps2) :
    StableHlo.after (hostOps2 (F := F)) U (Proc.devRef .tc r) = U (Proc.devRef .tc r) :=
  StableHlo.after_of_writes_sub _ U hW_hostOps2 hr
theorem skip_hostOps2_1 (U : Valuation τ sig (Elt F)) (r : Ref sig .tc) (hr : r ∉ wr_hostOps2_1) :
    StableHlo.after (hostOps2_1 (F := F)) U (Proc.devRef .tc r) = U (Proc.devRef .tc r) :=
  StableHlo.after_of_writes_sub _ U hW_hostOps2_1 hr
theorem skip_hostOps2_2 (U : Valuation τ sig (Elt F)) (r : Ref sig .tc) (hr : r ∉ wr_hostOps2_2) :
    StableHlo.after (hostOps2_2 (F := F)) U (Proc.devRef .tc r) = U (Proc.devRef .tc r) :=
  StableHlo.after_of_writes_sub _ U hW_hostOps2_2 hr
theorem skip_hostOps2_3 (U : Valuation τ sig (Elt F)) (r : Ref sig .tc) (hr : r ∉ wr_hostOps2_3) :
    StableHlo.after (hostOps2_3 (F := F)) U (Proc.devRef .tc r) = U (Proc.devRef .tc r) :=
  StableHlo.after_of_writes_sub _ U hW_hostOps2_3 hr

end Writes

/-! ## What each stretch computes -/

section Compute
variable {F : FTy → Type} [FloatOps F]

theorem gatherW1 (U : Valuation τ sig (Elt F)) :
    StableHlo.after (hostOps0_1 (F := F)) U (Proc.devRef .tc main_v6)
      = takeKW (F := F) (U (Proc.devRef .tc main_arg1)) (U (Proc.devRef .tc main_arg8)) := by
  dsimp only [hostOps0_1]; after_results_simp; simp only [TRef.ofBuf, TRef.toBuf, cast_eq]; rfl
theorem meanW1 (U : Valuation τ sig (Elt F)) :
    StableHlo.after (hostOps0_2 (F := F)) U (Proc.devRef .tc main_v18)
      = segMeanW (F := F) (U (Proc.devRef .tc main_v6)) (U (Proc.devRef .tc main_arg9)) := by
  dsimp only [hostOps0_2]; after_results_simp <;> rfl
theorem gatherC1 (U : Valuation τ sig (Elt F)) :
    StableHlo.after (hostOps0_3 (F := F)) U (Proc.devRef .tc main_v19)
      = takeKC (F := F) (U (Proc.devRef .tc main_arg0)) (U (Proc.devRef .tc main_arg10)) := by
  dsimp only [hostOps0_3]; after_results_simp; simp only [TRef.ofBuf, TRef.toBuf, cast_eq]; rfl
theorem meanC1 (U : Valuation τ sig (Elt F)) :
    StableHlo.after (hostOps0_4 (F := F)) U (Proc.devRef .tc main_v31)
      = segMeanC (F := F) (U (Proc.devRef .tc main_v19)) (U (Proc.devRef .tc main_arg11)) := by
  dsimp only [hostOps0_4]; after_results_simp <;> rfl
theorem gatherR1 (U : Valuation τ sig (Elt F)) :
    StableHlo.after (hostOps0_5 (F := F)) U (Proc.devRef .tc main_v32)
      = takeKR (F := F) (U (Proc.devRef .tc main_arg0)) (U (Proc.devRef .tc main_arg12)) := by
  dsimp only [hostOps0_5]; after_results_simp; simp only [TRef.ofBuf, TRef.toBuf, cast_eq]; rfl
theorem meanR1 (U : Valuation τ sig (Elt F)) :
    StableHlo.after (hostOps0_6 (F := F)) U (Proc.devRef .tc main_v44)
      = segMeanR (F := F) (U (Proc.devRef .tc main_v32)) (U (Proc.devRef .tc main_arg13)) := by
  dsimp only [hostOps0_6]; after_results_simp <;> rfl
theorem gatherW2 (U : Valuation τ sig (Elt F)) :
    StableHlo.after (hostOps2 (F := F)) U (Proc.devRef .tc main_v65)
      = takeKW (F := F) (U (Proc.devRef .tc main_v64)) (U (Proc.devRef .tc main_arg8)) := by
  dsimp only [hostOps2]; after_results_simp; simp only [TRef.ofBuf, TRef.toBuf, cast_eq]; rfl
theorem meanW2 (U : Valuation τ sig (Elt F)) :
    StableHlo.after (hostOps2_1 (F := F)) U (Proc.devRef .tc main_v77)
      = segMeanW (F := F) (U (Proc.devRef .tc main_v65)) (U (Proc.devRef .tc main_arg9)) := by
  dsimp only [hostOps2_1]; after_results_simp <;> rfl
theorem gatherC2 (U : Valuation τ sig (Elt F)) :
    StableHlo.after (hostOps2_2 (F := F)) U (Proc.devRef .tc main_v78)
      = takeKC (F := F) (U (Proc.devRef .tc main_v57)) (U (Proc.devRef .tc main_arg10)) := by
  dsimp only [hostOps2_2]; after_results_simp; simp only [TRef.ofBuf, TRef.toBuf, cast_eq]; rfl
theorem meanC2 (U : Valuation τ sig (Elt F)) :
    StableHlo.after (hostOps2_3 (F := F)) U (Proc.devRef .tc main_v90)
      = segMeanC (F := F) (U (Proc.devRef .tc main_v78)) (U (Proc.devRef .tc main_arg11)) := by
  dsimp only [hostOps2_3]; after_results_simp <;> rfl

theorem trWl1 (U : Valuation τ sig (Elt F)) :
    StableHlo.after (hostOps0 (F := F)) U (Proc.devRef .tc main_v0)
      = transpose S3x128x128 [0, 2, 1] (U (Proc.devRef .tc main_arg2)) Facts₀.transposes_S3x128x128_S3x128x128_0_2_1 := by
  dsimp only [hostOps0]; after_results_simp <;> rfl
theorem trWr1 (U : Valuation τ sig (Elt F)) :
    StableHlo.after (hostOps0 (F := F)) U (Proc.devRef .tc main_v1)
      = transpose S3x128x128 [0, 2, 1] (U (Proc.devRef .tc main_arg4)) Facts₀.transposes_S3x128x128_S3x128x128_0_2_1 := by
  dsimp only [hostOps0]; after_results_simp <;> rfl
theorem trWl2 (U : Valuation τ sig (Elt F)) :
    StableHlo.after (hostOps0 (F := F)) U (Proc.devRef .tc main_v2)
      = transpose S3x128x64 [0, 2, 1] (U (Proc.devRef .tc main_arg5)) Facts₀.transposes_S3x64x128_S3x128x64_0_2_1 := by
  dsimp only [hostOps0]; after_results_simp <;> rfl
theorem trWr2 (U : Valuation τ sig (Elt F)) :
    StableHlo.after (hostOps0 (F := F)) U (Proc.devRef .tc main_v3)
      = transpose S3x128x64 [0, 2, 1] (U (Proc.devRef .tc main_arg7)) Facts₀.transposes_S3x64x128_S3x128x64_0_2_1 := by
  dsimp only [hostOps0]; after_results_simp <;> rfl
theorem rsB1 (U : Valuation τ sig (Elt F)) :
    StableHlo.after (hostOps0 (F := F)) U (Proc.devRef .tc main_v4)
      = shapeCast S3x1x128 (U (Proc.devRef .tc main_arg3)) Facts₀.shapeCasts_S3x128_S3x1x128 := by
  dsimp only [hostOps0]; after_results_simp <;> rfl
theorem rsB2 (U : Valuation τ sig (Elt F)) :
    StableHlo.after (hostOps0 (F := F)) U (Proc.devRef .tc main_v5)
      = shapeCast S3x1x64 (U (Proc.devRef .tc main_arg6)) Facts₀.shapeCasts_S3x64_S3x1x64 := by
  dsimp only [hostOps0]; after_results_simp <;> rfl

theorem sl46 (U : Valuation τ sig (Elt F)) :
    StableHlo.after (hostOps0_6 (F := F)) U (Proc.devRef .tc main_v46)
      = shapeCast S128x128 (extractStridedSlice S1x128x128 ![0, 0, 0] (U (Proc.devRef .tc main_v0)) Facts₀.slices_S3x128x128_S1x128x128_0_0_0) Facts₀.shapeCasts_S1x128x128_S128x128 := by
  dsimp only [hostOps0_6]; after_results_simp <;> rfl
theorem sl48 (U : Valuation τ sig (Elt F)) :
    StableHlo.after (hostOps0_6 (F := F)) U (Proc.devRef .tc main_v48)
      = shapeCast S128x128 (extractStridedSlice S1x128x128 ![1, 0, 0] (U (Proc.devRef .tc main_v0)) Facts₀.slices_S3x128x128_S1x128x128_1_0_0) Facts₀.shapeCasts_S1x128x128_S128x128 := by
  dsimp only [hostOps0_6]; after_results_simp <;> rfl
theorem sl50 (U : Valuation τ sig (Elt F)) :
    StableHlo.after (hostOps0_6 (F := F)) U (Proc.devRef .tc main_v50)
      = shapeCast S128x128 (extractStridedSlice S1x128x128 ![0, 0, 0] (U (Proc.devRef .tc main_v1)) Facts₀.slices_S3x128x128_S1x128x128_0_0_0) Facts₀.shapeCasts_S1x128x128_S128x128 := by
  dsimp only [hostOps0_6]; after_results_simp <;> rfl
theorem sl52 (U : Valuation τ sig (Elt F)) :
    StableHlo.after (hostOps0_6 (F := F)) U (Proc.devRef .tc main_v52)
      = shapeCast S128x128 (extractStridedSlice S1x128x128 ![1, 0, 0] (U (Proc.devRef .tc main_v1)) Facts₀.slices_S3x128x128_S1x128x128_1_0_0) Facts₀.shapeCasts_S1x128x128_S128x128 := by
  dsimp only [hostOps0_6]; after_results_simp <;> rfl
theorem sl54 (U : Valuation τ sig (Elt F)) :
    StableHlo.after (hostOps0_6 (F := F)) U (Proc.devRef .tc main_v54)
      = shapeCast S1x128 (extractStridedSlice S1x1x128 ![0, 0, 0] (U (Proc.devRef .tc main_v4)) Facts₀.slices_S3x1x128_S1x1x128_0_0_0) Facts₀.shapeCasts_S1x1x128_S1x128 := by
  dsimp only [hostOps0_6]; after_results_simp <;> rfl
theorem sl56 (U : Valuation τ sig (Elt F)) :
    StableHlo.after (hostOps0_6 (F := F)) U (Proc.devRef .tc main_v56)
      = shapeCast S1x128 (extractStridedSlice S1x1x128 ![1, 0, 0] (U (Proc.devRef .tc main_v4)) Facts₀.slices_S3x1x128_S1x1x128_1_0_0) Facts₀.shapeCasts_S1x1x128_S1x128 := by
  dsimp only [hostOps0_6]; after_results_simp <;> rfl
theorem sl59 (U : Valuation τ sig (Elt F)) :
    StableHlo.after (hostOps1 (F := F)) U (Proc.devRef .tc main_v59)
      = shapeCast S128x128 (extractStridedSlice S1x128x128 ![2, 0, 0] (U (Proc.devRef .tc main_v0)) Facts₀.slices_S3x128x128_S1x128x128_2_0_0) Facts₀.shapeCasts_S1x128x128_S128x128 := by
  dsimp only [hostOps1]; after_results_simp <;> rfl
theorem sl61 (U : Valuation τ sig (Elt F)) :
    StableHlo.after (hostOps1 (F := F)) U (Proc.devRef .tc main_v61)
      = shapeCast S128x128 (extractStridedSlice S1x128x128 ![2, 0, 0] (U (Proc.devRef .tc main_v1)) Facts₀.slices_S3x128x128_S1x128x128_2_0_0) Facts₀.shapeCasts_S1x128x128_S128x128 := by
  dsimp only [hostOps1]; after_results_simp <;> rfl
theorem sl63 (U : Valuation τ sig (Elt F)) :
    StableHlo.after (hostOps1 (F := F)) U (Proc.devRef .tc main_v63)
      = shapeCast S1x128 (extractStridedSlice S1x1x128 ![2, 0, 0] (U (Proc.devRef .tc main_v4)) Facts₀.slices_S3x1x128_S1x1x128_2_0_0) Facts₀.shapeCasts_S1x1x128_S1x128 := by
  dsimp only [hostOps1]; after_results_simp <;> rfl
theorem sl92 (U : Valuation τ sig (Elt F)) :
    StableHlo.after (hostOps2_3 (F := F)) U (Proc.devRef .tc main_v92)
      = shapeCast S128x64 (extractStridedSlice S1x128x64 ![0, 0, 0] (U (Proc.devRef .tc main_v2)) Facts₀.slices_S3x128x64_S1x128x64_0_0_0) Facts₀.shapeCasts_S1x128x64_S128x64 := by
  dsimp only [hostOps2_3]; after_results_simp <;> rfl
theorem sl94 (U : Valuation τ sig (Elt F)) :
    StableHlo.after (hostOps2_3 (F := F)) U (Proc.devRef .tc main_v94)
      = shapeCast S128x64 (extractStridedSlice S1x128x64 ![1, 0, 0] (U (Proc.devRef .tc main_v2)) Facts₀.slices_S3x128x64_S1x128x64_1_0_0) Facts₀.shapeCasts_S1x128x64_S128x64 := by
  dsimp only [hostOps2_3]; after_results_simp <;> rfl
theorem sl96 (U : Valuation τ sig (Elt F)) :
    StableHlo.after (hostOps2_3 (F := F)) U (Proc.devRef .tc main_v96)
      = shapeCast S128x64 (extractStridedSlice S1x128x64 ![0, 0, 0] (U (Proc.devRef .tc main_v3)) Facts₀.slices_S3x128x64_S1x128x64_0_0_0) Facts₀.shapeCasts_S1x128x64_S128x64 := by
  dsimp only [hostOps2_3]; after_results_simp <;> rfl
theorem sl98 (U : Valuation τ sig (Elt F)) :
    StableHlo.after (hostOps2_3 (F := F)) U (Proc.devRef .tc main_v98)
      = shapeCast S128x64 (extractStridedSlice S1x128x64 ![1, 0, 0] (U (Proc.devRef .tc main_v3)) Facts₀.slices_S3x128x64_S1x128x64_1_0_0) Facts₀.shapeCasts_S1x128x64_S128x64 := by
  dsimp only [hostOps2_3]; after_results_simp <;> rfl
theorem sl100 (U : Valuation τ sig (Elt F)) :
    StableHlo.after (hostOps2_3 (F := F)) U (Proc.devRef .tc main_v100)
      = shapeCast S1x64 (extractStridedSlice S1x1x64 ![0, 0, 0] (U (Proc.devRef .tc main_v5)) Facts₀.slices_S3x1x64_S1x1x64_0_0_0) Facts₀.shapeCasts_S1x1x64_S1x64 := by
  dsimp only [hostOps2_3]; after_results_simp <;> rfl
theorem sl102 (U : Valuation τ sig (Elt F)) :
    StableHlo.after (hostOps2_3 (F := F)) U (Proc.devRef .tc main_v102)
      = shapeCast S1x64 (extractStridedSlice S1x1x64 ![1, 0, 0] (U (Proc.devRef .tc main_v5)) Facts₀.slices_S3x1x64_S1x1x64_1_0_0) Facts₀.shapeCasts_S1x1x64_S1x64 := by
  dsimp only [hostOps2_3]; after_results_simp <;> rfl

end Compute

/-! ## Along the program: one step back -/

section Along
variable {F : FTy → Type} [FloatOps F]
variable (m : (ℓ : Loc nD τ sig) → Buf (Elt F) ℓ) (ρ : Dev nD → PrngReg) (c : Dev nD)

theorem W1_of (r : Ref sig .tc) (h : r ∉ wr_hostOps0) : W1 m ρ c (Proc.devRef .tc r) = W0 m ρ c (Proc.devRef .tc r) :=
  skip_hostOps0 _ r h
theorem W2_of (r : Ref sig .tc) (h : r ∉ wr_hostOps0_1) : W2 m ρ c (Proc.devRef .tc r) = W1 m ρ c (Proc.devRef .tc r) :=
  skip_hostOps0_1 _ r h
theorem W3_of (r : Ref sig .tc) (h : r ∉ wr_hostOps0_2) : W3 m ρ c (Proc.devRef .tc r) = W2 m ρ c (Proc.devRef .tc r) :=
  skip_hostOps0_2 _ r h
theorem W4_of (r : Ref sig .tc) (h : r ∉ wr_hostOps0_3) : W4 m ρ c (Proc.devRef .tc r) = W3 m ρ c (Proc.devRef .tc r) :=
  skip_hostOps0_3 _ r h
theorem W5_of (r : Ref sig .tc) (h : r ∉ wr_hostOps0_4) : W5 m ρ c (Proc.devRef .tc r) = W4 m ρ c (Proc.devRef .tc r) :=
  skip_hostOps0_4 _ r h
theorem W6_of (r : Ref sig .tc) (h : r ∉ wr_hostOps0_5) : W6 m ρ c (Proc.devRef .tc r) = W5 m ρ c (Proc.devRef .tc r) :=
  skip_hostOps0_5 _ r h
theorem W7_of (r : Ref sig .tc) (h : r ∉ wr_hostOps0_6) : W7 m ρ c (Proc.devRef .tc r) = W6 m ρ c (Proc.devRef .tc r) :=
  skip_hostOps0_6 _ r h
theorem W9_of (r : Ref sig .tc) (h : r ∉ wr_hostOps1) : W9 m ρ c (Proc.devRef .tc r) = W8 m ρ c (Proc.devRef .tc r) :=
  skip_hostOps1 _ r h
theorem W11_of (r : Ref sig .tc) (h : r ∉ wr_hostOps2) : W11 m ρ c (Proc.devRef .tc r) = W10 m ρ c (Proc.devRef .tc r) :=
  skip_hostOps2 _ r h
theorem W12_of (r : Ref sig .tc) (h : r ∉ wr_hostOps2_1) : W12 m ρ c (Proc.devRef .tc r) = W11 m ρ c (Proc.devRef .tc r) :=
  skip_hostOps2_1 _ r h
theorem W13_of (r : Ref sig .tc) (h : r ∉ wr_hostOps2_2) : W13 m ρ c (Proc.devRef .tc r) = W12 m ρ c (Proc.devRef .tc r) :=
  skip_hostOps2_2 _ r h
theorem W14_of (r : Ref sig .tc) (h : r ∉ wr_hostOps2_3) : W14 m ρ c (Proc.devRef .tc r) = W13 m ρ c (Proc.devRef .tc r) :=
  skip_hostOps2_3 _ r h

/-- At launch a buffer holds what the memory holds. -/
theorem W0_eq (r : Ref sig .tc) : W0 m ρ c (Proc.devRef .tc r) = m ((c : Thread nD τ).loc r) := rfl

end Along

end Cert.KernelIdeal.KHost

end
-- ==== Proof.KOperands.lean ====
/-
  What each region of the kernel program finds in the arrays it stages, as functions of the program's arguments and of
  the earlier regions' outputs: the node features, the mean-aggregated neighbour features of each relation, and the
  weight and bias slices.
-/
import proofs.«420728_j39633958208182_1_alg».proof.Proof.KHost

set_option maxRecDepth 16384

noncomputable section

namespace Cert.KernelIdeal.KHost

open Idealize.ShloMosaic Idealize.ShloMosaic.TcCoe Idealize.SL.Sem Idealize.ShloMosaic.ValueIdx Idealize.ShloMosaic.StableHlo
open Cert.KernelIdeal Cert.KernelIdeal.Gen Cert.KernelIdeal.Agg
open Cert.Proof.Spec

variable (m : (ℓ : Loc nD τ sig) → Buf (Elt Ideal) ℓ) (ρ : Dev nD → PrngReg) (c : Dev nD)

/-! ## Region 0: the hidden paper features' operands -/

theorem in0_x : W7 m ρ c (Proc.devRef .tc main_arg0) = (m ((c : Thread nD τ).loc main_arg0)) := by
  rw [W7_of m ρ c main_arg0 (by decide),
    W6_of m ρ c main_arg0 (by decide),
    W5_of m ρ c main_arg0 (by decide),
    W4_of m ρ c main_arg0 (by decide),
    W3_of m ρ c main_arg0 (by decide),
    W2_of m ρ c main_arg0 (by decide),
    W1_of m ρ c main_arg0 (by decide)]

theorem in0_a0 : W7 m ρ c (Proc.devRef .tc main_v18) = segMeanW (F := Ideal) (takeKW (F := Ideal) (m ((c : Thread nD τ).loc main_arg1)) (m ((c : Thread nD τ).loc main_arg8))) (m ((c : Thread nD τ).loc main_arg9)) := by
  rw [W7_of m ρ c main_v18 (by decide),
    W6_of m ρ c main_v18 (by decide),
    W5_of m ρ c main_v18 (by decide),
    W4_of m ρ c main_v18 (by decide)]
  rw [show W3 m ρ c (Proc.devRef .tc main_v18) = _ from meanW1 (W2 m ρ c)]
  rw [show W2 m ρ c (Proc.devRef .tc main_v6) = _ from gatherW1 (W1 m ρ c)]
  rw [W1_of m ρ c main_arg1 (by decide),
    W1_of m ρ c main_arg8 (by decide),
    W2_of m ρ c main_arg9 (by decide),
    W1_of m ρ c main_arg9 (by decide)]

theorem in0_a1 : W7 m ρ c (Proc.devRef .tc main_v31) = segMeanC (F := Ideal) (takeKC (F := Ideal) (m ((c : Thread nD τ).loc main_arg0)) (m ((c : Thread nD τ).loc main_arg10))) (m ((c : Thread nD τ).loc main_arg11)) := by
  rw [W7_of m ρ c main_v31 (by decide),
    W6_of m ρ c main_v31 (by decide)]
  rw [show W5 m ρ c (Proc.devRef .tc main_v31) = _ from meanC1 (W4 m ρ c)]
  rw [show W4 m ρ c (Proc.devRef .tc main_v19) = _ from gatherC1 (W3 m ρ c)]
  rw [W3_of m ρ c main_arg0 (by decide),
    W2_of m ρ c main_arg0 (by decide),
    W1_of m ρ c main_arg0 (by decide),
    W3_of m ρ c main_arg10 (by decide),
    W2_of m ρ c main_arg10 (by decide),
    W1_of m ρ c main_arg10 (by decide),
    W4_of m ρ c main_arg11 (by decide),
    W3_of m ρ c main_arg11 (by decide),
    W2_of m ρ c main_arg11 (by decide),
    W1_of m ρ c main_arg11 (by decide)]

theorem in0_wl0 : W7 m ρ c (Proc.devRef .tc main_v46) = wT (m ((c : Thread nD τ).loc main_arg2)) 0 := by
  rw [show W7 m ρ c (Proc.devRef .tc main_v46) = _ from sl46 (W6 m ρ c)]
  rw [W6_of m ρ c main_v0 (by decide),
    W5_of m ρ c main_v0 (by decide),
    W4_of m ρ c main_v0 (by decide),
    W3_of m ρ c main_v0 (by decide),
    W2_of m ρ c main_v0 (by decide)]
  rw [show W1 m ρ c (Proc.devRef .tc main_v0) = _ from trWl1 (W0 m ρ c)]
  exact Cert.Proof.Layout.wslice _ 0 (by decide) _ _ _
theorem in0_wl1 : W7 m ρ c (Proc.devRef .tc main_v48) = wT (m ((c : Thread nD τ).loc main_arg2)) 1 := by
  rw [show W7 m ρ c (Proc.devRef .tc main_v48) = _ from sl48 (W6 m ρ c)]
  rw [W6_of m ρ c main_v0 (by decide),
    W5_of m ρ c main_v0 (by decide),
    W4_of m ρ c main_v0 (by decide),
    W3_of m ρ c main_v0 (by decide),
    W2_of m ρ c main_v0 (by decide)]
  rw [show W1 m ρ c (Proc.devRef .tc main_v0) = _ from trWl1 (W0 m ρ c)]
  exact Cert.Proof.Layout.wslice _ 1 (by decide) _ _ _
theorem in0_wr0 : W7 m ρ c (Proc.devRef .tc main_v50) = wT (m ((c : Thread nD τ).loc main_arg4)) 0 := by
  rw [show W7 m ρ c (Proc.devRef .tc main_v50) = _ from sl50 (W6 m ρ c)]
  rw [W6_of m ρ c main_v1 (by decide),
    W5_of m ρ c main_v1 (by decide),
    W4_of m ρ c main_v1 (by decide),
    W3_of m ρ c main_v1 (by decide),
    W2_of m ρ c main_v1 (by decide)]
  rw [show W1 m ρ c (Proc.devRef .tc main_v1) = _ from trWr1 (W0 m ρ c)]
  exact Cert.Proof.Layout.wslice _ 0 (by decide) _ _ _
theorem in0_wr1 : W7 m ρ c (Proc.devRef .tc main_v52) = wT (m ((c : Thread nD τ).loc main_arg4)) 1 := by
  rw [show W7 m ρ c (Proc.devRef .tc main_v52) = _ from sl52 (W6 m ρ c)]
  rw [W6_of m ρ c main_v1 (by decide),
    W5_of m ρ c main_v1 (by decide),
    W4_of m ρ c main_v1 (by decide),
    W3_of m ρ c main_v1 (by decide),
    W2_of m ρ c main_v1 (by decide)]
  rw [show W1 m ρ c (Proc.devRef .tc main_v1) = _ from trWr1 (W0 m ρ c)]
  exact Cert.Proof.Layout.wslice _ 1 (by decide) _ _ _
theorem in0_b0 : W7 m ρ c (Proc.devRef .tc main_v54) = bRow (m ((c : Thread nD τ).loc main_arg3)) 0 := by
  rw [show W7 m ρ c (Proc.devRef .tc main_v54) = _ from sl54 (W6 m ρ c)]
  rw [W6_of m ρ c main_v4 (by decide),
    W5_of m ρ c main_v4 (by decide),
    W4_of m ρ c main_v4 (by decide),
    W3_of m ρ c main_v4 (by decide),
    W2_of m ρ c main_v4 (by decide)]
  rw [show W1 m ρ c (Proc.devRef .tc main_v4) = _ from rsB1 (W0 m ρ c)]
  exact Cert.Proof.Layout.bslice _ 0 (by decide) _ _ _
theorem in0_b1 : W7 m ρ c (Proc.devRef .tc main_v56) = bRow (m ((c : Thread nD τ).loc main_arg3)) 1 := by
  rw [show W7 m ρ c (Proc.devRef .tc main_v56) = _ from sl56 (W6 m ρ c)]
  rw [W6_of m ρ c main_v4 (by decide),
    W5_of m ρ c main_v4 (by decide),
    W4_of m ρ c main_v4 (by decide),
    W3_of m ρ c main_v4 (by decide),
    W2_of m ρ c main_v4 (by decide)]
  rw [show W1 m ρ c (Proc.devRef .tc main_v4) = _ from rsB1 (W0 m ρ c)]
  exact Cert.Proof.Layout.bslice _ 1 (by decide) _ _ _

/-! ## Region 1: the hidden author features' operands -/

theorem in1_x : W9 m ρ c (Proc.devRef .tc main_arg1) = (m ((c : Thread nD τ).loc main_arg1)) := by
  rw [W9_of m ρ c main_arg1 (by decide),
    W8_of_ne m ρ c main_arg1 (by decide),
    W7_of m ρ c main_arg1 (by decide),
    W6_of m ρ c main_arg1 (by decide),
    W5_of m ρ c main_arg1 (by decide),
    W4_of m ρ c main_arg1 (by decide),
    W3_of m ρ c main_arg1 (by decide),
    W2_of m ρ c main_arg1 (by decide),
    W1_of m ρ c main_arg1 (by decide)]

theorem in1_a : W9 m ρ c (Proc.devRef .tc main_v44) = segMeanR (F := Ideal) (takeKR (F := Ideal) (m ((c : Thread nD τ).loc main_arg0)) (m ((c : Thread nD τ).loc main_arg12))) (m ((c : Thread nD τ).loc main_arg13)) := by
  rw [W9_of m ρ c main_v44 (by decide),
    W8_of_ne m ρ c main_v44 (by decide)]
  rw [show W7 m ρ c (Proc.devRef .tc main_v44) = _ from meanR1 (W6 m ρ c)]
  rw [show W6 m ρ c (Proc.devRef .tc main_v32) = _ from gatherR1 (W5 m ρ c)]
  rw [W5_of m ρ c main_arg0 (by decide),
    W4_of m ρ c main_arg0 (by decide),
    W3_of m ρ c main_arg0 (by decide),
    W2_of m ρ c main_arg0 (by decide),
    W1_of m ρ c main_arg0 (by decide),
    W5_of m ρ c main_arg12 (by decide),
    W4_of m ρ c main_arg12 (by decide),
    W3_of m ρ c main_arg12 (by decide),
    W2_of m ρ c main_arg12 (by decide),
    W1_of m ρ c main_arg12 (by decide),
    W6_of m ρ c main_arg13 (by decide),
    W5_of m ρ c main_arg13 (by decide),
    W4_of m ρ c main_arg13 (by decide),
    W3_of m ρ c main_arg13 (by decide),
    W2_of m ρ c main_arg13 (by decide),
    W1_of m ρ c main_arg13 (by decide)]

theorem in1_wl : W9 m ρ c (Proc.devRef .tc main_v59) = wT (m ((c : Thread nD τ).loc main_arg2)) 2 := by
  rw [show W9 m ρ c (Proc.devRef .tc main_v59) = _ from sl59 (W8 m ρ c)]
  rw [W8_of_ne m ρ c main_v0 (by decide),
    W7_of m ρ c main_v0 (by decide),
    W6_of m ρ c main_v0 (by decide),
    W5_of m ρ c main_v0 (by decide),
    W4_of m ρ c main_v0 (by decide),
    W3_of m ρ c main_v0 (by decide),
    W2_of m ρ c main_v0 (by decide)]
  rw [show W1 m ρ c (Proc.devRef .tc main_v0) = _ from trWl1 (W0 m ρ c)]
  exact Cert.Proof.Layout.wslice _ 2 (by decide) _ _ _
theorem in1_wr : W9 m ρ c (Proc.devRef .tc main_v61) = wT (m ((c : Thread nD τ).loc main_arg4)) 2 := by
  rw [show W9 m ρ c (Proc.devRef .tc main_v61) = _ from sl61 (W8 m ρ c)]
  rw [W8_of_ne m ρ c main_v1 (by decide),
    W7_of m ρ c main_v1 (by decide),
    W6_of m ρ c main_v1 (by decide),
    W5_of m ρ c main_v1 (by decide),
    W4_of m ρ c main_v1 (by decide),
    W3_of m ρ c main_v1 (by decide),
    W2_of m ρ c main_v1 (by decide)]
  rw [show W1 m ρ c (Proc.devRef .tc main_v1) = _ from trWr1 (W0 m ρ c)]
  exact Cert.Proof.Layout.wslice _ 2 (by decide) _ _ _
theorem in1_b : W9 m ρ c (Proc.devRef .tc main_v63) = bRow (m ((c : Thread nD τ).loc main_arg3)) 2 := by
  rw [show W9 m ρ c (Proc.devRef .tc main_v63) = _ from sl63 (W8 m ρ c)]
  rw [W8_of_ne m ρ c main_v4 (by decide),
    W7_of m ρ c main_v4 (by decide),
    W6_of m ρ c main_v4 (by decide),
    W5_of m ρ c main_v4 (by decide),
    W4_of m ρ c main_v4 (by decide),
    W3_of m ρ c main_v4 (by decide),
    W2_of m ρ c main_v4 (by decide)]
  rw [show W1 m ρ c (Proc.devRef .tc main_v4) = _ from rsB1 (W0 m ρ c)]
  exact Cert.Proof.Layout.bslice _ 2 (by decide) _ _ _

/-! ## Region 2: the output logits' operands -/

theorem in2_x : W14 m ρ c (Proc.devRef .tc main_v57) = W8 m ρ c (Proc.devRef .tc main_v57) := by
  rw [W14_of m ρ c main_v57 (by decide),
    W13_of m ρ c main_v57 (by decide),
    W12_of m ρ c main_v57 (by decide),
    W11_of m ρ c main_v57 (by decide),
    W10_of_ne m ρ c main_v57 (by decide),
    W9_of m ρ c main_v57 (by decide)]

theorem in2_a0 : W14 m ρ c (Proc.devRef .tc main_v77)
    = segMeanW (F := Ideal) (takeKW (F := Ideal) (W10 m ρ c (Proc.devRef .tc main_v64)) (m ((c : Thread nD τ).loc main_arg8))) (m ((c : Thread nD τ).loc main_arg9)) := by
  rw [W14_of m ρ c main_v77 (by decide),
    W13_of m ρ c main_v77 (by decide)]
  rw [show W12 m ρ c (Proc.devRef .tc main_v77) = _ from meanW2 (W11 m ρ c)]
  rw [show W11 m ρ c (Proc.devRef .tc main_v65) = _ from gatherW2 (W10 m ρ c)]
  rw [W10_of_ne m ρ c main_arg8 (by decide),
    W9_of m ρ c main_arg8 (by decide),
    W8_of_ne m ρ c main_arg8 (by decide),
    W7_of m ρ c main_arg8 (by decide),
    W6_of m ρ c main_arg8 (by decide),
    W5_of m ρ c main_arg8 (by decide),
    W4_of m ρ c main_arg8 (by decide),
    W3_of m ρ c main_arg8 (by decide),
    W2_of m ρ c main_arg8 (by decide),
    W1_of m ρ c main_arg8 (by decide),
    W11_of m ρ c main_arg9 (by decide),
    W10_of_ne m ρ c main_arg9 (by decide),
    W9_of m ρ c main_arg9 (by decide),
    W8_of_ne m ρ c main_arg9 (by decide),
    W7_of m ρ c main_arg9 (by decide),
    W6_of m ρ c main_arg9 (by decide),
    W5_of m ρ c main_arg9 (by decide),
    W4_of m ρ c main_arg9 (by decide),
    W3_of m ρ c main_arg9 (by decide),
    W2_of m ρ c main_arg9 (by decide),
    W1_of m ρ c main_arg9 (by decide)]

theorem in2_a1 : W14 m ρ c (Proc.devRef .tc main_v90)
    = segMeanC (F := Ideal) (takeKC (F := Ideal) (W8 m ρ c (Proc.devRef .tc main_v57)) (m ((c : Thread nD τ).loc main_arg10))) (m ((c : Thread nD τ).loc main_arg11)) := by
  rw [show W14 m ρ c (Proc.devRef .tc main_v90) = _ from meanC2 (W13 m ρ c)]
  rw [show W13 m ρ c (Proc.devRef .tc main_v78) = _ from gatherC2 (W12 m ρ c)]
  rw [W12_of m ρ c main_v57 (by decide),
    W11_of m ρ c main_v57 (by decide),
    W10_of_ne m ρ c main_v57 (by decide),
    W9_of m ρ c main_v57 (by decide),
    W12_of m ρ c main_arg10 (by decide),
    W11_of m ρ c main_arg10 (by decide),
    W10_of_ne m ρ c main_arg10 (by decide),
    W9_of m ρ c main_arg10 (by decide),
    W8_of_ne m ρ c main_arg10 (by decide),
    W7_of m ρ c main_arg10 (by decide),
    W6_of m ρ c main_arg10 (by decide),
    W5_of m ρ c main_arg10 (by decide),
    W4_of m ρ c main_arg10 (by decide),
    W3_of m ρ c main_arg10 (by decide),
    W2_of m ρ c main_arg10 (by decide),
    W1_of m ρ c main_arg10 (by decide),
    W13_of m ρ c main_arg11 (by decide),
    W12_of m ρ c main_arg11 (by decide),
    W11_of m ρ c main_arg11 (by decide),
    W10_of_ne m ρ c main_arg11 (by decide),
    W9_of m ρ c main_arg11 (by decide),
    W8_of_ne m ρ c main_arg11 (by decide),
    W7_of m ρ c main_arg11 (by decide),
    W6_of m ρ c main_arg11 (by decide),
    W5_of m ρ c main_arg11 (by decide),
    W4_of m ρ c main_arg11 (by decide),
    W3_of m ρ c main_arg11 (by decide),
    W2_of m ρ c main_arg11 (by decide),
    W1_of m ρ c main_arg11 (by decide)]

theorem in2_wl0 : W14 m ρ c (Proc.devRef .tc main_v92) = wT (m ((c : Thread nD τ).loc main_arg5)) 0 := by
  rw [show W14 m ρ c (Proc.devRef .tc main_v92) = _ from sl92 (W13 m ρ c)]
  rw [W13_of m ρ c main_v2 (by decide),
    W12_of m ρ c main_v2 (by decide),
    W11_of m ρ c main_v2 (by decide),
    W10_of_ne m ρ c main_v2 (by decide),
    W9_of m ρ c main_v2 (by decide),
    W8_of_ne m ρ c main_v2 (by decide),
    W7_of m ρ c main_v2 (by decide),
    W6_of m ρ c main_v2 (by decide),
    W5_of m ρ c main_v2 (by decide),
    W4_of m ρ c main_v2 (by decide),
    W3_of m ρ c main_v2 (by decide),
    W2_of m ρ c main_v2 (by decide)]
  rw [show W1 m ρ c (Proc.devRef .tc main_v2) = _ from trWl2 (W0 m ρ c)]
  exact Cert.Proof.Layout.wslice _ 0 (by decide) _ _ _
theorem in2_wl1 : W14 m ρ c (Proc.devRef .tc main_v94) = wT (m ((c : Thread nD τ).loc main_arg5)) 1 := by
  rw [show W14 m ρ c (Proc.devRef .tc main_v94) = _ from sl94 (W13 m ρ c)]
  rw [W13_of m ρ c main_v2 (by decide),
    W12_of m ρ c main_v2 (by decide),
    W11_of m ρ c main_v2 (by decide),
    W10_of_ne m ρ c main_v2 (by decide),
    W9_of m ρ c main_v2 (by decide),
    W8_of_ne m ρ c main_v2 (by decide),
    W7_of m ρ c main_v2 (by decide),
    W6_of m ρ c main_v2 (by decide),
    W5_of m ρ c main_v2 (by decide),
    W4_of m ρ c main_v2 (by decide),
    W3_of m ρ c main_v2 (by decide),
    W2_of m ρ c main_v2 (by decide)]
  rw [show W1 m ρ c (Proc.devRef .tc main_v2) = _ from trWl2 (W0 m ρ c)]
  exact Cert.Proof.Layout.wslice _ 1 (by decide) _ _ _
theorem in2_wr0 : W14 m ρ c (Proc.devRef .tc main_v96) = wT (m ((c : Thread nD τ).loc main_arg7)) 0 := by
  rw [show W14 m ρ c (Proc.devRef .tc main_v96) = _ from sl96 (W13 m ρ c)]
  rw [W13_of m ρ c main_v3 (by decide),
    W12_of m ρ c main_v3 (by decide),
    W11_of m ρ c main_v3 (by decide),
    W10_of_ne m ρ c main_v3 (by decide),
    W9_of m ρ c main_v3 (by decide),
    W8_of_ne m ρ c main_v3 (by decide),
    W7_of m ρ c main_v3 (by decide),
    W6_of m ρ c main_v3 (by decide),
    W5_of m ρ c main_v3 (by decide),
    W4_of m ρ c main_v3 (by decide),
    W3_of m ρ c main_v3 (by decide),
    W2_of m ρ c main_v3 (by decide)]
  rw [show W1 m ρ c (Proc.devRef .tc main_v3) = _ from trWr2 (W0 m ρ c)]
  exact Cert.Proof.Layout.wslice _ 0 (by decide) _ _ _
theorem in2_wr1 : W14 m ρ c (Proc.devRef .tc main_v98) = wT (m ((c : Thread nD τ).loc main_arg7)) 1 := by
  rw [show W14 m ρ c (Proc.devRef .tc main_v98) = _ from sl98 (W13 m ρ c)]
  rw [W13_of m ρ c main_v3 (by decide),
    W12_of m ρ c main_v3 (by decide),
    W11_of m ρ c main_v3 (by decide),
    W10_of_ne m ρ c main_v3 (by decide),
    W9_of m ρ c main_v3 (by decide),
    W8_of_ne m ρ c main_v3 (by decide),
    W7_of m ρ c main_v3 (by decide),
    W6_of m ρ c main_v3 (by decide),
    W5_of m ρ c main_v3 (by decide),
    W4_of m ρ c main_v3 (by decide),
    W3_of m ρ c main_v3 (by decide),
    W2_of m ρ c main_v3 (by decide)]
  rw [show W1 m ρ c (Proc.devRef .tc main_v3) = _ from trWr2 (W0 m ρ c)]
  exact Cert.Proof.Layout.wslice _ 1 (by decide) _ _ _
theorem in2_b0 : W14 m ρ c (Proc.devRef .tc main_v100) = bRow (m ((c : Thread nD τ).loc main_arg6)) 0 := by
  rw [show W14 m ρ c (Proc.devRef .tc main_v100) = _ from sl100 (W13 m ρ c)]
  rw [W13_of m ρ c main_v5 (by decide),
    W12_of m ρ c main_v5 (by decide),
    W11_of m ρ c main_v5 (by decide),
    W10_of_ne m ρ c main_v5 (by decide),
    W9_of m ρ c main_v5 (by decide),
    W8_of_ne m ρ c main_v5 (by decide),
    W7_of m ρ c main_v5 (by decide),
    W6_of m ρ c main_v5 (by decide),
    W5_of m ρ c main_v5 (by decide),
    W4_of m ρ c main_v5 (by decide),
    W3_of m ρ c main_v5 (by decide),
    W2_of m ρ c main_v5 (by decide)]
  rw [show W1 m ρ c (Proc.devRef .tc main_v5) = _ from rsB2 (W0 m ρ c)]
  exact Cert.Proof.Layout.bslice _ 0 (by decide) _ _ _
theorem in2_b1 : W14 m ρ c (Proc.devRef .tc main_v102) = bRow (m ((c : Thread nD τ).loc main_arg6)) 1 := by
  rw [show W14 m ρ c (Proc.devRef .tc main_v102) = _ from sl102 (W13 m ρ c)]
  rw [W13_of m ρ c main_v5 (by decide),
    W12_of m ρ c main_v5 (by decide),
    W11_of m ρ c main_v5 (by decide),
    W10_of_ne m ρ c main_v5 (by decide),
    W9_of m ρ c main_v5 (by decide),
    W8_of_ne m ρ c main_v5 (by decide),
    W7_of m ρ c main_v5 (by decide),
    W6_of m ρ c main_v5 (by decide),
    W5_of m ρ c main_v5 (by decide),
    W4_of m ρ c main_v5 (by decide),
    W3_of m ρ c main_v5 (by decide),
    W2_of m ρ c main_v5 (by decide)]
  rw [show W1 m ρ c (Proc.devRef .tc main_v5) = _ from rsB2 (W0 m ρ c)]
  exact Cert.Proof.Layout.bslice _ 1 (by decide) _ _ _

end Cert.KernelIdeal.KHost

end
-- ==== Proof.Region0.lean ====
/-
  Region 0 of the kernel program, as one function of the arrays it finds: every block the pipeline writes back is the
  layer's formula on the rows that block covers, and the blocks tile the output array, so the array the region leaves is
  the formula on the whole arrays.
-/
import proofs.«420728_j39633958208182_1_alg».proof.Proof.Gen.KernelIdeal.Frame
import proofs.«420728_j39633958208182_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.Proof.Spec
open scoped BigOperators

/-! ## One product of a row block with a weight matrix, at an index -/

/-- The row axis of the left operand is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The feature axis of the left operand is the summation index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The input axis of the weights is the summation index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The output axis of the weights is the output's feature. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times a weight matrix into a zero accumulator, at row `r` and feature `q`: the sum over the 128
    input features. -/
theorem product_at (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row, repeated down the rows, at row `r` and feature `q`. -/
theorem bias_at (b : Vec Ideal S1x128 .f32) (r : Fin 5000) (q : Fin 128) :
    broadcastTo S5000x128 b broadcasts_S1x128_S5000x128 (ix2 r q) = b (ix2 0 q) :=
  broadcastTo_apply b broadcasts_S1x128_S5000x128 (ix2 r q) (ix2 0 q) (fun a => by
    match a with
    | ⟨0, _⟩ => rfl
    | ⟨1, _⟩ => rfl)

/-! ## What the body computes from its blocks, at an index -/

/-- The body's result at row `r` of its block and feature `q` is the layer's formula on the blocks. -/
theorem payload_at (x a0 a1 : Vec Ideal S5000x128 .f32) (wl0 wl1 wr0 wr1 : Vec Ideal S128x128 .f32)
    (b0 b1 : Vec Ideal S1x128 .f32) (r : Fin 5000) (q : Fin 128) :
    k0_pay1 (k0_pay2 x a0 a1 wl0 wl1 wr0 wr1 b0 b1) (k0_pay3 (F := Ideal)) (ix2 r q)
      = comb2relu x a0 a1 wl0 wl1 wr0 wr1 b0 b1 (ix2 r q) := by
  unfold k0_pay1 k0_pay2 k0_pay3
  simp only [shapeCast_self]
  rw [maximumf_apply, mulf_apply, broadcast_apply, broadcast_apply, addf_apply, addf_apply, addf_apply, addf_apply, addf_apply,
    product_at, product_at, product_at, product_at, bias_at, bias_at]
  rfl

/-! ## The layer's formula depends on its row operands through one row only -/

/-- One relation's message at a row of a block is the message at the array's row the block's row is. -/
theorem sage_rows {N M O : Nat} (agg x : Vec Ideal ⟨2, ![N, 128]⟩ .f32) (AGG X : Vec Ideal ⟨2, ![M, 128]⟩ .f32)
    (wl wr : Vec Ideal ⟨2, ![128, O]⟩ .f32) (b : Vec Ideal ⟨2, ![1, O]⟩ .f32) (r : Fin N) (p : Fin M) (q : Fin O)
    (hagg : ∀ k : Fin 128, agg (ix2 r k) = AGG (ix2 p k)) (hx : ∀ k : Fin 128, x (ix2 r k) = X (ix2 p k)) :
    sage agg x wl wr b r q = sage AGG X wl wr b p q := by
  unfold sage
  simp only [hagg, hx]

/-- The same for the clamped half-sum of two messages. -/
theorem comb2relu_rows {N M O : Nat} (x a0 a1 : Vec Ideal ⟨2, ![N, 128]⟩ .f32) (X A0 A1 : Vec Ideal ⟨2, ![M, 128]⟩ .f32)
    (wl0 wl1 wr0 wr1 : Vec Ideal ⟨2, ![128, O]⟩ .f32) (b0 b1 : Vec Ideal ⟨2, ![1, O]⟩ .f32) (r : Fin N) (p : Fin M) (q : Fin O)
    (hx : ∀ k : Fin 128, x (ix2 r k) = X (ix2 p k)) (h0 : ∀ k : Fin 128, a0 (ix2 r k) = A0 (ix2 p k))
    (h1 : ∀ k : Fin 128, a1 (ix2 r k) = A1 (ix2 p k)) :
    comb2relu x a0 a1 wl0 wl1 wr0 wr1 b0 b1 (ix2 r q) = comb2relu X A0 A1 wl0 wl1 wr0 wr1 b0 b1 (ix2 p q) := by
  show max (half * (sage a0 x wl0 wr0 b0 r q + sage a1 x wl1 wr1 b1 r q)) zero
    = max (half * (sage A0 X wl0 wr0 b0 p q + sage A1 X wl1 wr1 b1 p q)) zero
  rw [sage_rows a0 x A0 X wl0 wr0 b0 r p q h0 hx, sage_rows a1 x A1 X wl1 wr1 b1 r p q h1 hx]

/-! ## The windows' blocks as parts of the arrays -/

theorem origin : (![0, 0] : Fin 2 → Nat) = fun _ => 0 := funext fun a => by
  match a with
  | ⟨0, _⟩ => rfl
  | ⟨1, _⟩ => rfl

/-- Where each window's block sits at a grid point: the row windows at block row `t`, the weights and biases whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `r` of the node-feature block at point `t` is row `5000 t + r` of the node features. -/
theorem rows0 (r : Fin 5000) (k : Fin 128) (p : Fin 50000) (hp : p.val = t.val * 5000 + r.val) :
    (iblk0 V c 0 t : Vec Ideal S5000x128 .f32) (ix2 r k) = (V c main_arg0 : Vec Ideal S50000x128 .f32) (ix2 p k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 128 + 1 * k.val = k.val; rw [e1]; omega

/-- The same for the first relation's aggregated neighbours. -/
theorem rows1 (r : Fin 5000) (k : Fin 128) (p : Fin 50000) (hp : p.val = t.val * 5000 + r.val) :
    (iblk0 V c 1 t : Vec Ideal S5000x128 .f32) (ix2 r k) = (V c main_v18 : Vec Ideal S50000x128 .f32) (ix2 p k) := by
  obtain ⟨-, -, e0, e1, -⟩ := block_indices t
  unfold iblk0
  rw [View.read_apply]
  show V c main_v18 _ = V c main_v18 _
  congr 1
  funext a
  apply Fin.ext
  match a with
  | ⟨0, _⟩ => show win0_1.index t (0 : Fin 2) * 5000 + 1 * r.val = p.val; rw [e0, hp]; omega
  | ⟨1, _⟩ => show win0_1.index t (1 : Fin 2) * 128 + 1 * k.val = k.val; rw [e1]; omega

/-- The same for the second relation's aggregated neighbours. -/
theorem rows2 (r : Fin 5000) (k : Fin 128) (p : Fin 50000) (hp : p.val = t.val * 5000 + r.val) :
    (iblk0 V c 2 t : Vec Ideal S5000x128 .f32) (ix2 r k) = (V c main_v31 : Vec Ideal S50000x128 .f32) (ix2 p k) := by
  obtain ⟨-, -, -, -, e0, e1, -⟩ := block_indices t
  unfold iblk0
  rw [View.read_apply]
  show V c main_v31 _ = V c main_v31 _
  congr 1
  funext a
  apply Fin.ext
  match a with
  | ⟨0, _⟩ => show win0_2.index t (0 : Fin 2) * 5000 + 1 * r.val = p.val; rw [e0, hp]; omega
  | ⟨1, _⟩ => show win0_2.index t (1 : Fin 2) * 128 + 1 * k.val = k.val; rw [e1]; omega

end Blocks
section Blocks
variable (V : (c : Dev nD) → (b : Ref sig .tc) → Buf (Elt Ideal) ((c : Thread nD τ).loc b)) (c : Dev nD) (t : Fin cfg0.N)

/-- The first relation's neighbour weights are staged whole at every point. -/
theorem whole3 : (iblk0 V c 3 t : Vec Ideal S128x128 .f32) = (V c main_v46 : Vec Ideal S128x128 .f32) := by
  obtain ⟨-, -, -, -, -, -, e0, e1, -⟩ := block_indices t
  funext y
  unfold iblk0
  rw [View.read_apply]
  show V c main_v46 _ = V c main_v46 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second relation's neighbour weights are staged whole at every point. -/
theorem whole4 : (iblk0 V c 4 t : Vec Ideal S128x128 .f32) = (V c main_v48 : Vec Ideal S128x128 .f32) := by
  obtain ⟨-, -, -, -, -, -, -, -, e0, e1, -⟩ := block_indices t
  funext y
  unfold iblk0
  rw [View.read_apply]
  show V c main_v48 _ = V c main_v48 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The first relation's self weights are staged whole at every point. -/
theorem whole5 : (iblk0 V c 5 t : Vec Ideal S128x128 .f32) = (V c main_v50 : Vec Ideal S128x128 .f32) := by
  obtain ⟨-, -, -, -, -, -, -, -, -, -, e0, e1, -⟩ := block_indices t
  funext y
  unfold iblk0
  rw [View.read_apply]
  show V c main_v50 _ = V c main_v50 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The second relation's self weights are staged whole at every point. -/
theorem whole6 : (iblk0 V c 6 t : Vec Ideal S128x128 .f32) = (V c main_v52 : Vec Ideal S128x128 .f32) := by
  obtain ⟨-, -, -, -, -, -, -, -, -, -, -, -, e0, e1, -⟩ := block_indices t
  funext y
  unfold iblk0
  rw [View.read_apply]
  show V c main_v52 _ = V c main_v52 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- The first relation's bias row is staged whole at every point. -/
theorem whole7 : (iblk0 V c 7 t : Vec Ideal S1x128 .f32) = (V c main_v54 : Vec Ideal S1x128 .f32) := by
  obtain ⟨-, -, -, -, -, -, -, -, -, -, -, -, -, -, e0, e1, -⟩ := block_indices t
  funext y
  unfold iblk0
  rw [View.read_apply]
  show V c main_v54 _ = V c main_v54 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The second relation's bias row is staged whole at every point. -/
theorem whole8 : (iblk0 V c 8 t : Vec Ideal S1x128 .f32) = (V c main_v56 : Vec Ideal S1x128 .f32) := by
  obtain ⟨-, -, -, -, -, -, -, -, -, -, -, -, -, -, -, -, e0, e1, -⟩ := block_indices t
  funext y
  unfold iblk0
  rw [View.read_apply]
  show V c main_v56 _ = V c main_v56 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-! ## What a point writes back -/

/-- What point `t` writes back is block `t` of the layer's formula on the whole arrays. -/
theorem flushed_eq :
    (dat0 (F := Ideal) V c).flushed 9 t = ((cfg0.win 9).blk t).view.read (Elt Ideal)
      (comb2relu (V c main_arg0) (V c main_v18) (V c main_v31) (V c main_v46) (V c main_v48) (V c main_v50) (V c main_v52) (V c main_v54) (V c main_v56)) := by
  show (cfg0.win 9).cut (grid0.coords t) ((dat0 V c).after 9 t) = _
  rw [after0_9]
  unfold out0_9
  rw [View.canon_unit_zero origin]
  simp only [View.ld_unit_zero (S := S5000x128) origin, View.ld_unit_zero (S := S128x128) origin, View.ld_unit_zero (S := S1x128) origin]
  funext j
  obtain ⟨r, q, rfl⟩ : ∃ (r : Fin 5000) (q : Fin 128), j = ix2 r q := ⟨j 0, j 1, eq_ix2 j⟩
  refine (payload_at (iblk0 V c 0 t) (iblk0 V c 1 t) (iblk0 V c 2 t) (iblk0 V c 3 t) (iblk0 V c 4 t) (iblk0 V c 5 t) (iblk0 V c 6 t) (iblk0 V c 7 t) (iblk0 V c 8 t) r q).trans ?_
  rw [whole3 V c t, whole4 V c t, whole5 V c t, whole6 V c t, whole7 V c t, whole8 V c t]
  have ht : t.val < 10 := lt_of_lt_of_eq t.isLt N_0
  have hr : r.val < 5000 := r.isLt
  obtain ⟨-, -, -, -, -, -, -, -, -, -, -, -, -, -, -, -, -, -, e0, e1⟩ := block_indices t
  have hemb : ((cfg0.win 9).blk t).view.emb (ix2 r q) = (ix2 (⟨t.val * 5000 + r.val, by omega⟩ : Fin 50000) q : S50000x128.Idx) := by
    funext a
    apply Fin.ext
    match a with
    | ⟨0, _⟩ => show win0_9.index t (0 : Fin 2) * 5000 + 1 * r.val = t.val * 5000 + r.val; rw [e0]; omega
    | ⟨1, _⟩ => show win0_9.index t (1 : Fin 2) * 128 + 1 * q.val = q.val; rw [e1]; omega
  rw [View.read_apply, hemb]
  exact comb2relu_rows _ _ _ _ _ _ _ _ _ _ _ _ r ⟨t.val * 5000 + r.val, by omega⟩ q
    (fun k => rows0 V c t r k _ rfl) (fun k => rows1 V c t r k _ rfl) (fun k => rows2 V c t r k _ rfl)

/-! ## The blocks tile the output array -/

/-- An index of the output array is in point `t`'s block iff each coordinate is in the block's range on its axis. -/
theorem mem_block (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v57).slice (win0_9.rect t)).set ↔ _
  rw [View.set_slice_whole, Rect.mem_set_unit]
  exact Iff.rfl

end Blocks

/-- What region 0 leaves in its output array, from the contents `V` it is entered at. -/
theorem value (V : (c : Dev nD) → (b : Ref sig .tc) → Buf (Elt Ideal) ((c : Thread nD τ).loc b)) (c : Dev nD) :
    (dat0 (F := Ideal) V c).arrAt 9 cfg0.N = comb2relu (V c main_arg0) (V c main_v18) (V c main_v31) (V c main_v46) (V c main_v48) (V c main_v50) (V c main_v52) (V c main_v54) (V c main_v56) := by
  refine (dat0 (F := Ideal) V c).arrAt_eq_of_cover 9 _ (fun t _ => flushed_eq V c t) (fun i => ?_)
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, -, -, -, -, -, -, -, e0, e1⟩ := block_indices ⟨(i 0).val / 5000, ht⟩
  refine ⟨⟨(i 0).val / 5000, ht⟩, flush0_9 _, ?_⟩
  rw [mem_block]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 128 ≤ (i 1).val ∧ (i 1).val < win0_9.index ⟨(i 0).val / 5000, ht⟩ (1 : Fin 2) * 128 + 128
    rw [e1]
    omega

end Cert.KernelIdeal.Region0

end
-- ==== Proof.Region1.lean ====
/-
  Region 1 of the kernel program, as one function of the arrays it finds: every block the pipeline writes back is the
  layer's formula on the rows that block covers, and the blocks tile the output array, so the array the region leaves is
  the formula on the whole arrays.
-/
import proofs.«420728_j39633958208182_1_alg».proof.Proof.Gen.KernelIdeal.Frame
import proofs.«420728_j39633958208182_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.Proof.Spec
open scoped BigOperators

/-! ## One row block's product with a weight matrix, entry by entry

The block's dimension numbers contract the block's axis 1 against the weights' axis 0 and keep the block's axis 0 and
the weights' axis 1: at output entry `(r, q)` the left operand is read at `(r, k)` and the right one at `(k, q)`. -/

theorem lhs_rows_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_rows_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_rows_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_rows_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A row block times a weight matrix into a zero accumulator, at entry `(r, q)`: the sum over the 128 features. -/
theorem rows_matmul_apply {φ₁ φ₂ : FTy} (a : FVec Ideal S2000x128 φ₁) (w : FVec Ideal S128x128 φ₂) (r : Fin 2000) (q : Fin 128) :
    matmul dot_S2000x128_S128x128_S2000x128_1_0_0_1_n_n none a w (constant (F := Ideal) S2000x128 .f32 0x00000000#32) (ix2 r q)
      = ∑ k : Fin 128, a (ix2 r k) * w (ix2 k q) := by
  show FloatOps.matmul dot_S2000x128_S128x128_S2000x128_1_0_0_1_n_n none a w (constant (F := Ideal) S2000x128 .f32 0x00000000#32) (ix2 r q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact lhs_rows_0 _ _
    | ⟨1, _⟩ => exact (lhs_rows_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (rhs_rows_0 _ _).trans hk
    | ⟨1, _⟩ => exact rhs_rows_1 _ _)
  rw [el, er]

/-- The bias row spread over the block's rows, at entry `(r, q)`: the row's entry `q`. -/
theorem bias_rows_apply (b : Vec Ideal S1x128 .f32) (r : Fin 2000) (q : Fin 128) :
    broadcastTo S2000x128 b broadcasts_S1x128_S2000x128 (ix2 r q) = b (ix2 0 q) :=
  broadcastTo_apply b broadcasts_S1x128_S2000x128 (ix2 r q) (ix2 0 q) (fun a => by
    match a with
    | ⟨0, _⟩ => rfl
    | ⟨1, _⟩ => rfl)

/-! ## What the body stores, entry by entry -/

/-- The body's one store at entry `(r, q)` of the block: the layer's message on the block's row `r`, clamped at zero. -/
theorem payload_apply (x a : Vec Ideal S2000x128 .f32) (wl wr : Vec Ideal S128x128 .f32) (b : Vec Ideal S1x128 .f32)
    (r : Fin 2000) (q : Fin 128) :
    k1_pay1 (F := Ideal) x a wl wr b (ix2 r q) = max (sage a x wl wr b r q) zero := by
  unfold k1_pay1 sage zero
  rw [maximumf_apply, addf_apply, addf_apply, rows_matmul_apply, rows_matmul_apply, bias_rows_apply, broadcast_apply]
  simp only [shapeCast_self, truncf_apply]
  rfl

/-! ## From the block's formula to the whole arrays' -/

/-- The stored entry `(r, q)` of a block whose row `r` is row `p` of the two feature arrays, and whose weight and
    bias blocks are the whole weight and bias arrays, is the layer's formula at `(p, q)` of the whole arrays. -/
theorem block_formula
    (X A : Vec Ideal S20000x128 .f32) (Wl Wr : Vec Ideal S128x128 .f32) (B : Vec Ideal S1x128 .f32)
    (x a : Vec Ideal S2000x128 .f32) (wl wr : Vec Ideal S128x128 .f32) (b : Vec Ideal S1x128 .f32)
    (r : Fin 2000) (q : Fin 128) (p : Fin 20000)
    (hx : ∀ k : Fin 128, x (ix2 r k) = X (ix2 p k)) (ha : ∀ k : Fin 128, a (ix2 r k) = A (ix2 p k))
    (hwl : ∀ k : Fin 128, wl (ix2 k q) = Wl (ix2 k q)) (hwr : ∀ k : Fin 128, wr (ix2 k q) = Wr (ix2 k q))
    (hb : b (ix2 0 q) = B (ix2 0 q)) :
    k1_pay1 (F := Ideal) x a wl wr b (ix2 r q) = comb1relu X A Wl Wr B (ix2 p q) := by
  rw [payload_apply]
  show max (sage a x wl wr b r q) zero = max (sage A X Wl Wr B p q) zero
  unfold sage
  simp only [hx, ha, hwl, hwr, hb]

section Blocks
variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the ten grid points: the three row windows sit at block `(t, 0)`, the weight and bias windows
    at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The node features' block at point `t`: its row `r` is the array's row `2000 t + r`. -/
theorem self_rows_apply (c : Dev nD) (t : Fin cfg1.N) (r : Fin 2000) (k : Fin 128) (p : Fin 20000)
    (hp : p.val = t.val * 2000 + r.val) :
    (iblk1 V c 0 t : Vec Ideal S2000x128 .f32) (ix2 r k) = (V c main_arg1 : Vec Ideal S20000x128 .f32) (ix2 p k) := by
  obtain ⟨e0, e1, -⟩ := index_facts t
  show (V c main_arg1 : Vec Ideal S20000x128 .f32) (((cfg1.win 0).blk t).view.emb (ix2 r k)) = _
  refine congrArg _ (funext fun a => Fin.ext ?_)
  match a with
  | ⟨0, _⟩ => show win1_0.index t (0 : Fin 2) * 2000 + 1 * r.val = p.val; rw [e0, hp]; omega
  | ⟨1, _⟩ => show win1_0.index t (1 : Fin 2) * 128 + 1 * k.val = k.val; rw [e1]; omega

/-- The aggregated neighbour features' block at point `t`: its row `r` is the array's row `2000 t + r`. -/
theorem agg_rows_apply (c : Dev nD) (t : Fin cfg1.N) (r : Fin 2000) (k : Fin 128) (p : Fin 20000)
    (hp : p.val = t.val * 2000 + r.val) :
    (iblk1 V c 1 t : Vec Ideal S2000x128 .f32) (ix2 r k) = (V c main_v44 : Vec Ideal S20000x128 .f32) (ix2 p k) := by
  obtain ⟨-, -, e0, e1, -⟩ := index_facts t
  show (V c main_v44 : Vec Ideal S20000x128 .f32) (((cfg1.win 1).blk t).view.emb (ix2 r k)) = _
  refine congrArg _ (funext fun a => Fin.ext ?_)
  match a with
  | ⟨0, _⟩ => show win1_1.index t (0 : Fin 2) * 2000 + 1 * r.val = p.val; rw [e0, hp]; omega
  | ⟨1, _⟩ => show win1_1.index t (1 : Fin 2) * 128 + 1 * k.val = k.val; rw [e1]; omega

/-- The left weights' block at every point is the whole matrix. -/
theorem wl_block_apply (c : Dev nD) (t : Fin cfg1.N) (k q : Fin 128) :
    (iblk1 V c 2 t : Vec Ideal S128x128 .f32) (ix2 k q) = (V c main_v59 : Vec Ideal S128x128 .f32) (ix2 k q) := by
  obtain ⟨-, -, -, -, e0, e1, -⟩ := index_facts t
  show (V c main_v59 : Vec Ideal S128x128 .f32) (((cfg1.win 2).blk t).view.emb (ix2 k q)) = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The right weights' block at every point is the whole matrix. -/
theorem wr_block_apply (c : Dev nD) (t : Fin cfg1.N) (k q : Fin 128) :
    (iblk1 V c 3 t : Vec Ideal S128x128 .f32) (ix2 k q) = (V c main_v61 : Vec Ideal S128x128 .f32) (ix2 k q) := by
  obtain ⟨-, -, -, -, -, -, e0, e1, -⟩ := index_facts t
  show (V c main_v61 : Vec Ideal S128x128 .f32) (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias block at every point is the whole row. -/
theorem bias_block_apply (c : Dev nD) (t : Fin cfg1.N) (q : Fin 128) :
    (iblk1 V c 4 t : Vec Ideal S1x128 .f32) (ix2 0 q) = (V c main_v63 : Vec Ideal S1x128 .f32) (ix2 0 q) := by
  obtain ⟨-, -, -, -, -, -, -, -, e0, e1, -⟩ := index_facts t
  show (V c main_v63 : Vec Ideal S1x128 .f32) (((cfg1.win 4).blk t).view.emb (ix2 0 q)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- What point `t` writes back is block `t` of the layer's formula on the whole arrays. -/
theorem flushed_eq (c : Dev nD) (t : Fin cfg1.N) :
    (dat1 (F := Ideal) V c).flushed 5 t
      = ((cfg1.win 5).blk t).view.read (Elt Ideal) (comb1relu (V c main_arg1) (V c main_v44) (V c main_v59) (V c main_v61) (V c main_v63)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets, View.ld_unit_zero (S := S1x128) zero_offsets]
  funext j
  obtain ⟨-, -, -, -, -, -, -, -, -, -, e0, e1⟩ := index_facts t
  have hN : t.val < 10 := by have h := t.isLt; have hN : cfg1.N = 10 := N_1; omega
  have hj0 : (j 0).val < 2000 := (j 0).isLt
  have hj1 : (j 1).val < 128 := (j 1).isLt
  have hL : (win1 5).xinj (grid1.coords t) j = ix2 (⟨(j 0).val, hj0⟩ : Fin 2000) (⟨(j 1).val, hj1⟩ : Fin 128) :=
    funext fun a => by match a with | ⟨0, _⟩ => rfl | ⟨1, _⟩ => rfl
  have hR : ((View.whole main_v64).slice ((win1 5).rect t)).emb j
      = ix2 (⟨t.val * 2000 + (j 0).val, by omega⟩ : Fin 20000) (⟨(j 1).val, hj1⟩ : Fin 128) :=
    funext fun a => Fin.ext (by
      match a with
      | ⟨0, _⟩ => show win1_5.index t (0 : Fin 2) * 2000 + 1 * (j 0).val = t.val * 2000 + (j 0).val; rw [e0]; omega
      | ⟨1, _⟩ => show win1_5.index t (1 : Fin 2) * 128 + 1 * (j 1).val = (j 1).val; rw [e1]; omega)
  show k1_pay1 (F := Ideal) (iblk1 V c 0 t) (iblk1 V c 1 t) (iblk1 V c 2 t) (iblk1 V c 3 t) (iblk1 V c 4 t) ((win1 5).xinj (grid1.coords t) j)
    = comb1relu (V c main_arg1) (V c main_v44) (V c main_v59) (V c main_v61) (V c main_v63) (((View.whole main_v64).slice ((win1 5).rect t)).emb j)
  rw [hL, hR]
  exact block_formula _ _ _ _ _ _ _ _ _ _ _ _ _
    (fun k => self_rows_apply V c t _ k _ rfl) (fun k => agg_rows_apply V c t _ k _ rfl)
    (fun k => wl_block_apply V c t k _) (fun k => wr_block_apply V c t k _) (bias_block_apply V c t _)

end Blocks

/-! ## The blocks tile the output array -/

/-- An index of the output array is in point `t`'s block iff each coordinate is in the block's range on its axis. -/
theorem mem_block (t : Fin cfg1.N) (i : S20000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v64).slice (win1_5.rect t)).set ↔ _
  rw [View.set_slice_whole, Rect.mem_set_unit]
  exact Iff.rfl

/-- Every row of the output lies in some point's block: row `p` in the block of point `p / 2000`. -/
theorem covered (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  have hN : cfg1.N = 10 := N_1
  obtain ⟨t, ht⟩ : ∃ t : Fin cfg1.N, t.val = (i 0).val / 2000 := ⟨⟨(i 0).val / 2000, by omega⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- What region 1 leaves in its output array, from the contents `V` it is entered at. -/
theorem value (V : (c : Dev nD) → (b : Ref sig .tc) → Buf (Elt Ideal) ((c : Thread nD τ).loc b)) (c : Dev nD) :
    (dat1 (F := Ideal) V c).arrAt 5 cfg1.N = comb1relu (V c main_arg1) (V c main_v44) (V c main_v59) (V c main_v61) (V c main_v63) :=
  (dat1 (F := Ideal) V c).arrAt_eq_of_cover 5
    (comb1relu (V c main_arg1) (V c main_v44) (V c main_v59) (V c main_v61) (V c main_v63))
    (fun t _ => flushed_eq V c t) (fun i => covered i)

end Cert.KernelIdeal.Region1

end
-- ==== Proof.Region2.lean ====
/-
  Region 2 of the kernel program, as one function of the arrays it finds: every block the pipeline writes back is the
  layer's formula on the rows that block covers, and the blocks tile the output array, so the array the region leaves is
  the formula on the whole arrays.
-/
import proofs.«420728_j39633958208182_1_alg».proof.Proof.Gen.KernelIdeal.Frame
import proofs.«420728_j39633958208182_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.Proof.Spec

/-! ## One product of a row block with a weight matrix

The contraction pairs axis 1 of the [5000, 128] operand with axis 0 of the [128, 64] operand.  At output entry
(r, q) and contraction position k the left operand is read at (r, k) and the right one at (k, q). -/

/-- The left operand's row is the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction position. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction position. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product into the zero accumulator, at row `r` and feature `q`: the sum over the 128 shared features. -/
theorem matmul_at (a : FVec Ideal S5000x128 .bf16) (w : FVec Ideal S128x64 .bf16) (r : Fin 5000) (q : Fin 64) :
    matmul dot_S5000x128_S128x64_S5000x64_1_0_0_1_n_n none a w (constant (F := Ideal) S5000x64 .f32 0x00000000#32) (ix2 r q)
      = ∑ k : Fin 128, a (ix2 r k) * w (ix2 k q) := by
  refine (Ideal.matmul_constant_zero_apply dot_S5000x128_S128x64_S5000x64_1_0_0_1_n_n none a w (ix2 r q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 r q) ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block's rows reads, at row `r` and feature `q`, the bias of feature `q`. -/
theorem bias_at (b : FVec Ideal S1x64 .f32) (hb : S1x64.Broadcasts S5000x64) (r : Fin 5000) (q : Fin 64) :
    broadcastTo S5000x64 b hb (ix2 r q) = b (ix2 0 q) := by
  refine broadcastTo_apply b hb (ix2 r q) (ix2 0 q) (fun a => ?_)
  match a with
  | ⟨0, _⟩ => rfl
  | ⟨1, _⟩ => rfl

/-! ## The body's result at an entry of the block -/

/-- What the body stores at row `r`, feature `q` of its output block: half the sum of the two relations' messages
    on the block's rows. -/
theorem payload_at (x a0 a1 : Vec Ideal S5000x128 .f32) (wl0 wl1 wr0 wr1 : Vec Ideal S128x64 .f32) (b0 b1 : Vec Ideal S1x64 .f32)
    (r : Fin 5000) (q : Fin 64) :
    k2_pay1 (F := Ideal) (k2_pay2 x a0 a1 wl0 wl1 wr0 wr1 b0 b1) (Scalar.ofBits .f32 0x3F000000#32) (ix2 r q)
      = comb2 x a0 a1 wl0 wl1 wr0 wr1 b0 b1 (ix2 r q) := by
  unfold k2_pay1 k2_pay2
  simp only [mulf_apply, addf_apply, broadcast_apply, matmul_at, bias_at, shapeCast_self, truncf_apply]
  rfl

/-! ## Where the blocks sit

Region 2 runs over ten grid points.  At point `t` the three row operands and the output are staged as rows
`5000 t … 5000 t + 4999` of their arrays, all columns; the four weight matrices and the two bias rows are staged whole. -/

theorem zero_offsets : (![0, 0] : Fin 2 → Nat) = fun _ => 0 := funext fun a => by
  match a with
  | ⟨0, _⟩ => rfl
  | ⟨1, _⟩ => rfl

/-- The row windows' block index at point `t` is `(t, 0)`. -/
theorem row_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

/-- The weight and bias windows' block index is `(0, 0)` at every point. -/
theorem whole_index : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row `r` of window 0's block at point `t` is row `5000 t + r` of the node features. -/
theorem rows0 (V : (c : Dev nD) → (b : Ref sig .tc) → Buf (Elt Ideal) ((c : Thread nD τ).loc b)) (c : Dev nD) (t : Fin cfg2.N)
    (r : Fin 5000) (R : Fin 50000) (hR : R.val = t.val * 5000 + r.val) (k : Fin 128) :
    iblk2 (F := Ideal) V c 0 t (ix2 r k) = V c main_v57 (ix2 R k) := by
  obtain ⟨e00, e01, e10, e11, e20, e21, e90, e91⟩ := row_index t
  show V c main_v57 (((cfg2.win 0).blk t).view.emb (ix2 r k)) = V c main_v57 (ix2 R k)
  refine congrArg (V c main_v57) (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

/-- Row `r` of window 1's block at point `t` is row `5000 t + r` of the first relation's aggregated features. -/
theorem rows1 (V : (c : Dev nD) → (b : Ref sig .tc) → Buf (Elt Ideal) ((c : Thread nD τ).loc b)) (c : Dev nD) (t : Fin cfg2.N)
    (r : Fin 5000) (R : Fin 50000) (hR : R.val = t.val * 5000 + r.val) (k : Fin 128) :
    iblk2 (F := Ideal) V c 1 t (ix2 r k) = V c main_v77 (ix2 R k) := by
  obtain ⟨e00, e01, e10, e11, e20, e21, e90, e91⟩ := row_index t
  show V c main_v77 (((cfg2.win 1).blk t).view.emb (ix2 r k)) = V c main_v77 (ix2 R k)
  refine congrArg (V c main_v77) (funext fun a => Fin.ext ?_)
  match a with
  | ⟨0, _⟩ => show win2_1.index t (0 : Fin 2) * 5000 + 1 * r.val = R.val; omega
  | ⟨1, _⟩ => show win2_1.index t (1 : Fin 2) * 128 + 1 * k.val = k.val; omega

/-- Row `r` of window 2's block at point `t` is row `5000 t + r` of the second relation's aggregated features. -/
theorem rows2 (V : (c : Dev nD) → (b : Ref sig .tc) → Buf (Elt Ideal) ((c : Thread nD τ).loc b)) (c : Dev nD) (t : Fin cfg2.N)
    (r : Fin 5000) (R : Fin 50000) (hR : R.val = t.val * 5000 + r.val) (k : Fin 128) :
    iblk2 (F := Ideal) V c 2 t (ix2 r k) = V c main_v90 (ix2 R k) := by
  obtain ⟨e00, e01, e10, e11, e20, e21, e90, e91⟩ := row_index t
  show V c main_v90 (((cfg2.win 2).blk t).view.emb (ix2 r k)) = V c main_v90 (ix2 R k)
  refine congrArg (V c main_v90) (funext fun a => Fin.ext ?_)
  match a with
  | ⟨0, _⟩ => show win2_2.index t (0 : Fin 2) * 5000 + 1 * r.val = R.val; omega
  | ⟨1, _⟩ => show win2_2.index t (1 : Fin 2) * 128 + 1 * k.val = k.val; omega

/-- Window 3 stages the first relation's left weights whole at every point. -/
theorem whole3 (V : (c : Dev nD) → (b : Ref sig .tc) → Buf (Elt Ideal) ((c : Thread nD τ).loc b)) (c : Dev nD) (t : Fin cfg2.N) :
    (iblk2 (F := Ideal) V c 3 t : Vec Ideal S128x64 .f32) = V c main_v92 := by
  obtain ⟨e30, e31, e40, e41, e50, e51, e60, e61, e70, e71, e80, e81⟩ := whole_index t
  funext y
  show V c main_v92 (((cfg2.win 3).blk t).view.emb y) = V c main_v92 y
  refine congrArg (V c main_v92) (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- Window 4 stages the second relation's left weights whole at every point. -/
theorem whole4 (V : (c : Dev nD) → (b : Ref sig .tc) → Buf (Elt Ideal) ((c : Thread nD τ).loc b)) (c : Dev nD) (t : Fin cfg2.N) :
    (iblk2 (F := Ideal) V c 4 t : Vec Ideal S128x64 .f32) = V c main_v94 := by
  obtain ⟨e30, e31, e40, e41, e50, e51, e60, e61, e70, e71, e80, e81⟩ := whole_index t
  funext y
  show V c main_v94 (((cfg2.win 4).blk t).view.emb y) = V c main_v94 y
  refine congrArg (V c main_v94) (funext fun a => Fin.ext ?_)
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- Window 5 stages the first relation's right weights whole at every point. -/
theorem whole5 (V : (c : Dev nD) → (b : Ref sig .tc) → Buf (Elt Ideal) ((c : Thread nD τ).loc b)) (c : Dev nD) (t : Fin cfg2.N) :
    (iblk2 (F := Ideal) V c 5 t : Vec Ideal S128x64 .f32) = V c main_v96 := by
  obtain ⟨e30, e31, e40, e41, e50, e51, e60, e61, e70, e71, e80, e81⟩ := whole_index t
  funext y
  show V c main_v96 (((cfg2.win 5).blk t).view.emb y) = V c main_v96 y
  refine congrArg (V c main_v96) (funext fun a => Fin.ext ?_)
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- Window 6 stages the second relation's right weights whole at every point. -/
theorem whole6 (V : (c : Dev nD) → (b : Ref sig .tc) → Buf (Elt Ideal) ((c : Thread nD τ).loc b)) (c : Dev nD) (t : Fin cfg2.N) :
    (iblk2 (F := Ideal) V c 6 t : Vec Ideal S128x64 .f32) = V c main_v98 := by
  obtain ⟨e30, e31, e40, e41, e50, e51, e60, e61, e70, e71, e80, e81⟩ := whole_index t
  funext y
  show V c main_v98 (((cfg2.win 6).blk t).view.emb y) = V c main_v98 y
  refine congrArg (V c main_v98) (funext fun a => Fin.ext ?_)
  match a with
  | ⟨0, _⟩ => show win2_6.index t (0 : Fin 2) * 128 + 1 * (y 0).val = (y 0).val; omega
  | ⟨1, _⟩ => show win2_6.index t (1 : Fin 2) * 64 + 1 * (y 1).val = (y 1).val; omega

/-- Window 7 stages the first relation's bias row whole at every point. -/
theorem whole7 (V : (c : Dev nD) → (b : Ref sig .tc) → Buf (Elt Ideal) ((c : Thread nD τ).loc b)) (c : Dev nD) (t : Fin cfg2.N) :
    (iblk2 (F := Ideal) V c 7 t : Vec Ideal S1x64 .f32) = V c main_v100 := by
  obtain ⟨e30, e31, e40, e41, e50, e51, e60, e61, e70, e71, e80, e81⟩ := whole_index t
  funext y
  show V c main_v100 (((cfg2.win 7).blk t).view.emb y) = V c main_v100 y
  refine congrArg (V c main_v100) (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

/-- Window 8 stages the second relation's bias row whole at every point. -/
theorem whole8 (V : (c : Dev nD) → (b : Ref sig .tc) → Buf (Elt Ideal) ((c : Thread nD τ).loc b)) (c : Dev nD) (t : Fin cfg2.N) :
    (iblk2 (F := Ideal) V c 8 t : Vec Ideal S1x64 .f32) = V c main_v102 := by
  obtain ⟨e30, e31, e40, e41, e50, e51, e60, e61, e70, e71, e80, e81⟩ := whole_index t
  funext y
  show V c main_v102 (((cfg2.win 8).blk t).view.emb y) = V c main_v102 y
  refine congrArg (V c main_v102) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

/-- Entry `(r, q)` of the output's block at point `t` is entry `(5000 t + r, q)` of the output array. -/
theorem out_entry (t : Fin cfg2.N) (r : Fin 5000) (R : Fin 50000) (hR : R.val = t.val * 5000 + r.val) (q : Fin 64) :
    ((cfg2.win 9).blk t).view.emb (ix2 r q) = ix2 R q := by
  obtain ⟨e00, e01, e10, e11, e20, e21, e90, e91⟩ := row_index t
  refine funext fun a => Fin.ext ?_
  match a with
  | ⟨0, _⟩ => show win2_9.index t (0 : Fin 2) * 5000 + 1 * r.val = R.val; omega
  | ⟨1, _⟩ => show win2_9.index t (1 : Fin 2) * 64 + 1 * q.val = q.val; omega

/-- The layer's formula reads its three row operands only in the row it is asked for: on row blocks that are rows
    `R` of the arrays at block row `r`, the formula of the blocks at `r` is the formula of the arrays at `R`. -/
theorem comb2_rows (X A0 A1 : Vec Ideal S50000x128 .f32) (xb a0b a1b : Vec Ideal S5000x128 .f32)
    (wl0 wl1 wr0 wr1 : Vec Ideal S128x64 .f32) (b0 b1 : Vec Ideal S1x64 .f32) (r : Fin 5000) (R : Fin 50000) (q : Fin 64)
    (hx : ∀ k, xb (ix2 r k) = X (ix2 R k)) (h0 : ∀ k, a0b (ix2 r k) = A0 (ix2 R k)) (h1 : ∀ k, a1b (ix2 r k) = A1 (ix2 R k)) :
    comb2 xb a0b a1b wl0 wl1 wr0 wr1 b0 b1 (ix2 r q) = comb2 X A0 A1 wl0 wl1 wr0 wr1 b0 b1 (ix2 R q) := by
  show half * (((∑ k : Fin 128, a0b (ix2 r k) * wl0 (ix2 k q)) + b0 (ix2 0 q) + ∑ k : Fin 128, xb (ix2 r k) * wr0 (ix2 k q))
      + ((∑ k : Fin 128, a1b (ix2 r k) * wl1 (ix2 k q)) + b1 (ix2 0 q) + ∑ k : Fin 128, xb (ix2 r k) * wr1 (ix2 k q)))
    = half * (((∑ k : Fin 128, A0 (ix2 R k) * wl0 (ix2 k q)) + b0 (ix2 0 q) + ∑ k : Fin 128, X (ix2 R k) * wr0 (ix2 k q))
      + ((∑ k : Fin 128, A1 (ix2 R k) * wl1 (ix2 k q)) + b1 (ix2 0 q) + ∑ k : Fin 128, X (ix2 R k) * wr1 (ix2 k q)))
  simp only [hx, h0, h1]

/-- What point `t` writes back is block `t` of the layer's formula on the whole arrays. -/
theorem flushed_eq (V : (c : Dev nD) → (b : Ref sig .tc) → Buf (Elt Ideal) ((c : Thread nD τ).loc b)) (c : Dev nD) (t : Fin cfg2.N) :
    (dat2 (F := Ideal) V c).flushed 9 t = ((cfg2.win 9).blk t).view.read (Elt Ideal)
      (comb2 (V c main_v57) (V c main_v77) (V c main_v90) (V c main_v92) (V c main_v94) (V c main_v96) (V c main_v98) (V c main_v100) (V c main_v102)) := by
  show (cfg2.win 9).cut (grid2.coords t) ((dat2 V c).after 9 t) = _
  rw [after2_9]
  unfold out2_9
  rw [View.canon_unit_zero zero_offsets]
  simp only [View.ld_unit_zero (S := S5000x128) zero_offsets, View.ld_unit_zero (S := S128x64) zero_offsets, View.ld_unit_zero (S := S1x64) zero_offsets]
  rw [whole3 V c t, whole4 V c t, whole5 V c t, whole6 V c t, whole7 V c t, whole8 V c t]
  have ht : t.val < 10 := lt_of_lt_of_eq t.isLt N_2
  funext j
  obtain ⟨r, q, rfl⟩ : ∃ (r : Fin 5000) (q : Fin 64), j = ix2 r q := ⟨j 0, j 1, eq_ix2 j⟩
  have hr : r.val < 5000 := r.isLt
  refine (payload_at _ _ _ _ _ _ _ _ _ r q).trans ?_
  show _ = comb2 (V c main_v57) (V c main_v77) (V c main_v90) (V c main_v92) (V c main_v94) (V c main_v96) (V c main_v98) (V c main_v100) (V c main_v102)
      (((cfg2.win 9).blk t).view.emb (ix2 r q))
  rw [out_entry t r ⟨t.val * 5000 + r.val, by omega⟩ rfl q]
  exact comb2_rows _ _ _ _ _ _ _ _ _ _ _ _ r ⟨t.val * 5000 + r.val, by omega⟩ q
    (rows0 V c t r _ rfl) (rows1 V c t r _ rfl) (rows2 V c t r _ rfl)

/-! ## The blocks tile the output array -/

/-- An entry of the output array lies in point `t`'s block iff, on each axis, its coordinate is within the block's
    extent from the block's first coordinate. -/
theorem mem_block (t : Fin cfg2.N) (i : S50000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v103).slice (win2_9.rect t)).set ↔ _
  rw [View.set_slice_whole, Rect.mem_set_unit]
  exact Iff.rfl

/-- Every entry of the output array is written back by some point: row `p` by point `p / 5000`. -/
theorem covered (i : S50000x64.Idx) :
    ∃ t : Fin cfg2.N, (cfg2.win 9).flush t = true ∧ i ∈ ((cfg2.win 9).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨e00, e01, e10, e11, e20, e21, e90, e91⟩ := row_index t
  refine ⟨t, flush2_9 t, ?_⟩
  rw [mem_block]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 64 ≤ (i 1).val ∧ (i 1).val < win2_9.index t (1 : Fin 2) * 64 + 64; omega

/-- What region 2 leaves in its output array, from the contents `V` it is entered at. -/
theorem value (V : (c : Dev nD) → (b : Ref sig .tc) → Buf (Elt Ideal) ((c : Thread nD τ).loc b)) (c : Dev nD) :
    (dat2 (F := Ideal) V c).arrAt 9 cfg2.N = comb2 (V c main_v57) (V c main_v77) (V c main_v90) (V c main_v92) (V c main_v94) (V c main_v96) (V c main_v98) (V c main_v100) (V c main_v102) := by
  exact (dat2 (F := Ideal) V c).arrAt_eq_of_cover 9 _ (fun t _ => flushed_eq V c t) covered

end Cert.KernelIdeal.Region2

end
-- ==== Proof.RefLayer.lean ====
/-
  The reference program's three dense stages, each read as the layer's formula of its operands: the hidden paper
  features (two relations, clamped at zero), the hidden author features (one relation, clamped at zero) and the output
  paper logits (two relations).  A stage's matrix product against a transposed weight slice is the sum over the shared
  axis; the bias reshaped and broadcast is the bias row.
-/
import proofs.«420728_j39633958208182_1_alg».proof.Proof.Gen.ReferenceIdeal.Read
import proofs.«420728_j39633958208182_1_alg».proof.Proof.Spec

noncomputable section

namespace Cert.ReferenceIdeal.Layer

open Idealize.ShloMosaic Idealize.ShloMosaic.ValueIdx
open Cert.ReferenceIdeal Cert.ReferenceIdeal.Read Cert.Proof.Spec

variable (x0 : FVec Ideal S50000x128 .f32) (x1 : FVec Ideal S20000x128 .f32) (x2 : FVec Ideal S3x128x128 .f32)
  (x3 : FVec Ideal S3x128 .f32) (x4 : FVec Ideal S3x128x128 .f32) (x5 : FVec Ideal S3x64x128 .f32)
  (x6 : FVec Ideal S3x64 .f32) (x7 : FVec Ideal S3x64x128 .f32)
  (x8 x9 : IVec S250000 32) (x10 x11 : IVec S500000 32) (x12 x13 : IVec S250000 32)

/-! ## Row-major positions

One [out, 128] slice of a weight stack is reshaped through its row-major position q * 128 + k: that position divided
by the row length is the row again, and its remainder is the column. -/

theorem unflat128 (q k : Fin 128) :
    (q.val * 128 + k.val) / 128 % 128 = q.val ∧ (q.val * 128 + k.val) % 128 = k.val := by
  have hq := q.isLt; have hk := k.isLt; omega

theorem unflat64 (q : Fin 64) (k : Fin 128) :
    (q.val * 128 + k.val) / 128 % 64 = q.val ∧ (q.val * 128 + k.val) % 128 = k.val := by
  have hq := q.isLt; have hk := k.isLt; omega

/-! ## The weight operands

Slice p of a weight stack, reshaped to a matrix and transposed, holds W[p, q, k] at (k, q). -/

theorem w25 : val_main_v25 (F := Ideal) x2 = wT x2 0 := by
  funext i
  obtain ⟨k, q, rfl⟩ : ∃ (k : Fin 128) (q : Fin 128), i = ix2 k q := ⟨i 0, i 1, eq_ix2 i⟩
  rw [val_main_v25_apply, val_main_v1_apply, val_main_v0_apply]
  exact congrArg x2 (funext fun a => Fin.ext (by
    match a with
    | ⟨0, _⟩ => rfl
    | ⟨1, _⟩ => exact (unflat128 q k).1
    | ⟨2, _⟩ => exact (unflat128 q k).2))

theorem w30 : val_main_v30 (F := Ideal) x4 = wT x4 0 := by
  funext i
  obtain ⟨k, q, rfl⟩ : ∃ (k : Fin 128) (q : Fin 128), i = ix2 k q := ⟨i 0, i 1, eq_ix2 i⟩
  rw [val_main_v30_apply, val_main_v5_apply, val_main_v4_apply]
  exact congrArg x4 (funext fun a => Fin.ext (by
    match a with
    | ⟨0, _⟩ => rfl
    | ⟨1, _⟩ => exact (unflat128 q k).1
    | ⟨2, _⟩ => exact (unflat128 q k).2))

theorem w58 : val_main_v58 (F := Ideal) x2 = wT x2 1 := by
  funext i
  obtain ⟨k, q, rfl⟩ : ∃ (k : Fin 128) (q : Fin 128), i = ix2 k q := ⟨i 0, i 1, eq_ix2 i⟩
  rw [val_main_v58_apply, val_main_v34_apply, val_main_v33_apply]
  exact congrArg x2 (funext fun a => Fin.ext (by
    match a with
    | ⟨0, _⟩ => rfl
    | ⟨1, _⟩ => exact (unflat128 q k).1
    | ⟨2, _⟩ => exact (unflat128 q k).2))

theorem w63 : val_main_v63 (F := Ideal) x4 = wT x4 1 := by
  funext i
  obtain ⟨k, q, rfl⟩ : ∃ (k : Fin 128) (q : Fin 128), i = ix2 k q := ⟨i 0, i 1, eq_ix2 i⟩
  rw [val_main_v63_apply, val_main_v38_apply, val_main_v37_apply]
  exact congrArg x4 (funext fun a => Fin.ext (by
    match a with
    | ⟨0, _⟩ => rfl
    | ⟨1, _⟩ => exact (unflat128 q k).1
    | ⟨2, _⟩ => exact (unflat128 q k).2))

theorem w94 : val_main_v94 (F := Ideal) x2 = wT x2 2 := by
  funext i
  obtain ⟨k, q, rfl⟩ : ∃ (k : Fin 128) (q : Fin 128), i = ix2 k q := ⟨i 0, i 1, eq_ix2 i⟩
  rw [val_main_v94_apply, val_main_v70_apply, val_main_v69_apply]
  exact congrArg x2 (funext fun a => Fin.ext (by
    match a with
    | ⟨0, _⟩ => rfl
    | ⟨1, _⟩ => exact (unflat128 q k).1
    | ⟨2, _⟩ => exact (unflat128 q k).2))

theorem w99 : val_main_v99 (F := Ideal) x4 = wT x4 2 := by
  funext i
  obtain ⟨k, q, rfl⟩ : ∃ (k : Fin 128) (q : Fin 128), i = ix2 k q := ⟨i 0, i 1, eq_ix2 i⟩
  rw [val_main_v99_apply, val_main_v74_apply, val_main_v73_apply]
  exact congrArg x4 (funext fun a => Fin.ext (by
    match a with
    | ⟨0, _⟩ => rfl
    | ⟨1, _⟩ => exact (unflat128 q k).1
    | ⟨2, _⟩ => exact (unflat128 q k).2))

theorem w129 : val_main_v129 (F := Ideal) x5 = wT x5 0 := by
  funext i
  obtain ⟨k, q, rfl⟩ : ∃ (k : Fin 128) (q : Fin 64), i = ix2 k q := ⟨i 0, i 1, eq_ix2 i⟩
  rw [val_main_v129_apply, val_main_v105_apply, val_main_v104_apply]
  exact congrArg x5 (funext fun a => Fin.ext (by
    match a with
    | ⟨0, _⟩ => rfl
    | ⟨1, _⟩ => exact (unflat64 q k).1
    | ⟨2, _⟩ => exact (unflat64 q k).2))

theorem w134 : val_main_v134 (F := Ideal) x7 = wT x7 0 := by
  funext i
  obtain ⟨k, q, rfl⟩ : ∃ (k : Fin 128) (q : Fin 64), i = ix2 k q := ⟨i 0, i 1, eq_ix2 i⟩
  rw [val_main_v134_apply, val_main_v109_apply, val_main_v108_apply]
  exact congrArg x7 (funext fun a => Fin.ext (by
    match a with
    | ⟨0, _⟩ => rfl
    | ⟨1, _⟩ => exact (unflat64 q k).1
    | ⟨2, _⟩ => exact (unflat64 q k).2))

theorem w162 : val_main_v162 (F := Ideal) x5 = wT x5 1 := by
  funext i
  obtain ⟨k, q, rfl⟩ : ∃ (k : Fin 128) (q : Fin 64), i = ix2 k q := ⟨i 0, i 1, eq_ix2 i⟩
  rw [val_main_v162_apply, val_main_v138_apply, val_main_v137_apply]
  exact congrArg x5 (funext fun a => Fin.ext (by
    match a with
    | ⟨0, _⟩ => rfl
    | ⟨1, _⟩ => exact (unflat64 q k).1
    | ⟨2, _⟩ => exact (unflat64 q k).2))

theorem w167 : val_main_v167 (F := Ideal) x7 = wT x7 1 := by
  funext i
  obtain ⟨k, q, rfl⟩ : ∃ (k : Fin 128) (q : Fin 64), i = ix2 k q := ⟨i 0, i 1, eq_ix2 i⟩
  rw [val_main_v167_apply, val_main_v142_apply, val_main_v141_apply]
  exact congrArg x7 (funext fun a => Fin.ext (by
    match a with
    | ⟨0, _⟩ => rfl
    | ⟨1, _⟩ => exact (unflat64 q k).1
    | ⟨2, _⟩ => exact (unflat64 q k).2))

/-! ## The bias operands

Row p of a bias stack, reshaped to a vector and broadcast over the rows, holds B[p, q] in column q of every row. -/

theorem b28 (i : S50000x128.Idx) : val_main_v28 (F := Ideal) x3 i = bRow x3 0 (ix2 0 (i 1)) := by
  have hq : (i 1).val < 128 := (i 1).isLt
  rw [val_main_v28_apply, val_main_v27_apply, val_main_v3_apply, val_main_v2_apply]
  exact congrArg x3 (funext fun a => Fin.ext (by
    match a with
    | ⟨0, _⟩ => rfl
    | ⟨1, _⟩ => exact Nat.mod_eq_of_lt hq))

theorem b61 (i : S50000x128.Idx) : val_main_v61 (F := Ideal) x3 i = bRow x3 1 (ix2 0 (i 1)) := by
  have hq : (i 1).val < 128 := (i 1).isLt
  rw [val_main_v61_apply, val_main_v60_apply, val_main_v36_apply, val_main_v35_apply]
  exact congrArg x3 (funext fun a => Fin.ext (by
    match a with
    | ⟨0, _⟩ => rfl
    | ⟨1, _⟩ => exact Nat.mod_eq_of_lt hq))

theorem b97 (i : S20000x128.Idx) : val_main_v97 (F := Ideal) x3 i = bRow x3 2 (ix2 0 (i 1)) := by
  have hq : (i 1).val < 128 := (i 1).isLt
  rw [val_main_v97_apply, val_main_v96_apply, val_main_v72_apply, val_main_v71_apply]
  exact congrArg x3 (funext fun a => Fin.ext (by
    match a with
    | ⟨0, _⟩ => rfl
    | ⟨1, _⟩ => exact Nat.mod_eq_of_lt hq))

theorem b132 (i : S50000x64.Idx) : val_main_v132 (F := Ideal) x6 i = bRow x6 0 (ix2 0 (i 1)) := by
  have hq : (i 1).val < 64 := (i 1).isLt
  rw [val_main_v132_apply, val_main_v131_apply, val_main_v107_apply, val_main_v106_apply]
  exact congrArg x6 (funext fun a => Fin.ext (by
    match a with
    | ⟨0, _⟩ => rfl
    | ⟨1, _⟩ => exact Nat.mod_eq_of_lt hq))

theorem b165 (i : S50000x64.Idx) : val_main_v165 (F := Ideal) x6 i = bRow x6 1 (ix2 0 (i 1)) := by
  have hq : (i 1).val < 64 := (i 1).isLt
  rw [val_main_v165_apply, val_main_v164_apply, val_main_v140_apply, val_main_v139_apply]
  exact congrArg x6 (funext fun a => Fin.ext (by
    match a with
    | ⟨0, _⟩ => rfl
    | ⟨1, _⟩ => exact Nat.mod_eq_of_lt hq))

/-! ## The contractions' index maps

A product of a [rows, 128] array with a [128, out] matrix reads the left operand at (row, k) and the right one at
(k, column). -/

theorem lidx26 (i : S50000x128.Idx) (k : Fin 128) : lidx_main_v26 i k = ix2 (i 0) k := by
  funext a; match a with | ⟨0, _⟩ => rfl | ⟨1, _⟩ => rfl
theorem ridx26 (i : S50000x128.Idx) (k : Fin 128) : ridx_main_v26 i k = ix2 k (i 1) := by
  funext a; match a with | ⟨0, _⟩ => rfl | ⟨1, _⟩ => rfl
theorem lidx31 (i : S50000x128.Idx) (k : Fin 128) : lidx_main_v31 i k = ix2 (i 0) k := by
  funext a; match a with | ⟨0, _⟩ => rfl | ⟨1, _⟩ => rfl
theorem ridx31 (i : S50000x128.Idx) (k : Fin 128) : ridx_main_v31 i k = ix2 k (i 1) := by
  funext a; match a with | ⟨0, _⟩ => rfl | ⟨1, _⟩ => rfl
theorem lidx59 (i : S50000x128.Idx) (k : Fin 128) : lidx_main_v59 i k = ix2 (i 0) k := by
  funext a; match a with | ⟨0, _⟩ => rfl | ⟨1, _⟩ => rfl
theorem ridx59 (i : S50000x128.Idx) (k : Fin 128) : ridx_main_v59 i k = ix2 k (i 1) := by
  funext a; match a with | ⟨0, _⟩ => rfl | ⟨1, _⟩ => rfl
theorem lidx64 (i : S50000x128.Idx) (k : Fin 128) : lidx_main_v64 i k = ix2 (i 0) k := by
  funext a; match a with | ⟨0, _⟩ => rfl | ⟨1, _⟩ => rfl
theorem ridx64 (i : S50000x128.Idx) (k : Fin 128) : ridx_main_v64 i k = ix2 k (i 1) := by
  funext a; match a with | ⟨0, _⟩ => rfl | ⟨1, _⟩ => rfl
theorem lidx95 (i : S20000x128.Idx) (k : Fin 128) : lidx_main_v95 i k = ix2 (i 0) k := by
  funext a; match a with | ⟨0, _⟩ => rfl | ⟨1, _⟩ => rfl
theorem ridx95 (i : S20000x128.Idx) (k : Fin 128) : ridx_main_v95 i k = ix2 k (i 1) := by
  funext a; match a with | ⟨0, _⟩ => rfl | ⟨1, _⟩ => rfl
theorem lidx100 (i : S20000x128.Idx) (k : Fin 128) : lidx_main_v100 i k = ix2 (i 0) k := by
  funext a; match a with | ⟨0, _⟩ => rfl | ⟨1, _⟩ => rfl
theorem ridx100 (i : S20000x128.Idx) (k : Fin 128) : ridx_main_v100 i k = ix2 k (i 1) := by
  funext a; match a with | ⟨0, _⟩ => rfl | ⟨1, _⟩ => rfl
theorem lidx130 (i : S50000x64.Idx) (k : Fin 128) : lidx_main_v130 i k = ix2 (i 0) k := by
  funext a; match a with | ⟨0, _⟩ => rfl | ⟨1, _⟩ => rfl
theorem ridx130 (i : S50000x64.Idx) (k : Fin 128) : ridx_main_v130 i k = ix2 k (i 1) := by
  funext a; match a with | ⟨0, _⟩ => rfl | ⟨1, _⟩ => rfl
theorem lidx135 (i : S50000x64.Idx) (k : Fin 128) : lidx_main_v135 i k = ix2 (i 0) k := by
  funext a; match a with | ⟨0, _⟩ => rfl | ⟨1, _⟩ => rfl
theorem ridx135 (i : S50000x64.Idx) (k : Fin 128) : ridx_main_v135 i k = ix2 k (i 1) := by
  funext a; match a with | ⟨0, _⟩ => rfl | ⟨1, _⟩ => rfl
theorem lidx163 (i : S50000x64.Idx) (k : Fin 128) : lidx_main_v163 i k = ix2 (i 0) k := by
  funext a; match a with | ⟨0, _⟩ => rfl | ⟨1, _⟩ => rfl
theorem ridx163 (i : S50000x64.Idx) (k : Fin 128) : ridx_main_v163 i k = ix2 k (i 1) := by
  funext a; match a with | ⟨0, _⟩ => rfl | ⟨1, _⟩ => rfl
theorem lidx168 (i : S50000x64.Idx) (k : Fin 128) : lidx_main_v168 i k = ix2 (i 0) k := by
  funext a; match a with | ⟨0, _⟩ => rfl | ⟨1, _⟩ => rfl
theorem ridx168 (i : S50000x64.Idx) (k : Fin 128) : ridx_main_v168 i k = ix2 k (i 1) := by
  funext a; match a with | ⟨0, _⟩ => rfl | ⟨1, _⟩ => rfl

/-! ## The three stages -/

/-- The hidden paper features. -/
theorem hp_eq : val_main_v102 (F := Ideal) x0 x1 x2 x3 x4 x8 x9 x10 x11
    = comb2relu x0 (val_main_v24 (F := Ideal) x1 x8 x9) (val_main_v57 (F := Ideal) x0 x10 x11)
        (wT x2 0) (wT x2 1) (wT x4 0) (wT x4 1) (bRow x3 0) (bRow x3 1) := by
  funext i
  obtain ⟨p, q, rfl⟩ : ∃ (p : Fin 50000) (q : Fin 128), i = ix2 p q := ⟨i 0, i 1, eq_ix2 i⟩
  rw [val_main_v102_apply, val_main_v68_apply, val_main_v67_apply, val_main_cst_10_apply, val_main_v66_apply,
    val_main_v32_apply, val_main_v29_apply, val_main_v26_apply, b28, val_main_v31_apply,
    val_main_v65_apply, val_main_v62_apply, val_main_v59_apply, b61, val_main_v64_apply,
    val_main_call0_v0_apply, val_main_call0_cst_apply, w25, w30, w58, w63]
  unfold comb2relu comb2 sage half zero
  simp only [Ideal.addf_def, Ideal.mulf_def, Ideal.maximumf_def, Ideal.ofBits_def,
    lidx26, ridx26, lidx31, ridx31, lidx59, ridx59, lidx64, ridx64]
  congr 1

/-- The hidden author features. -/
theorem ha_eq : val_main_v103 (F := Ideal) x0 x1 x2 x3 x4 x12 x13
    = comb1relu x1 (val_main_v93 (F := Ideal) x0 x12 x13) (wT x2 2) (wT x4 2) (bRow x3 2) := by
  funext i
  obtain ⟨p, q, rfl⟩ : ∃ (p : Fin 20000) (q : Fin 128), i = ix2 p q := ⟨i 0, i 1, eq_ix2 i⟩
  rw [val_main_v103_apply, val_main_v101_apply, val_main_v98_apply, val_main_v95_apply, b97, val_main_v100_apply,
    val_main_call1_v0_apply, val_main_call1_cst_apply, w94, w99]
  unfold comb1relu sage zero
  simp only [Ideal.addf_def, Ideal.maximumf_def, Ideal.ofBits_def, lidx95, ridx95, lidx100, ridx100]
  congr 1

/-- The output paper logits. -/
theorem out_eq : val_main_v172 (F := Ideal) x0 x1 x2 x3 x4 x5 x6 x7 x8 x9 x10 x11 x12 x13
    = comb2 (val_main_v102 (F := Ideal) x0 x1 x2 x3 x4 x8 x9 x10 x11)
        (val_main_v128 (F := Ideal) x0 x1 x2 x3 x4 x8 x9 x12 x13)
        (val_main_v161 (F := Ideal) x0 x1 x2 x3 x4 x8 x9 x10 x11)
        (wT x5 0) (wT x5 1) (wT x7 0) (wT x7 1) (bRow x6 0) (bRow x6 1) := by
  funext i
  obtain ⟨p, q, rfl⟩ : ∃ (p : Fin 50000) (q : Fin 64), i = ix2 p q := ⟨i 0, i 1, eq_ix2 i⟩
  rw [val_main_v172_apply, val_main_v171_apply, val_main_cst_29_apply, val_main_v170_apply,
    val_main_v136_apply, val_main_v133_apply, val_main_v130_apply, b132, val_main_v135_apply,
    val_main_v169_apply, val_main_v166_apply, val_main_v163_apply, b165, val_main_v168_apply,
    w129, w134, w162, w167]
  unfold comb2 sage half
  simp only [Ideal.addf_def, Ideal.mulf_def, Ideal.ofBits_def,
    lidx130, ridx130, lidx135, ridx135, lidx163, ridx163, lidx168, ridx168]
  congr 1

end Cert.ReferenceIdeal.Layer

end
-- ==== Proof.KValue.lean ====
/-
  The kernel program's value.  Each region's output array is the layer's formula of the arrays the region finds; the
  arrays it finds are the program's arguments, the mean-aggregated neighbour features, and the weight and bias slices;
  and with every source index in range the kernel program's gathers are the reference's.  So the three regions' outputs
  are, one after the other, the reference's hidden paper features, its hidden author features and its output logits.
-/
import proofs.«420728_j39633958208182_1_alg».proof.Proof.KOperands
import proofs.«420728_j39633958208182_1_alg».proof.Proof.Region0
import proofs.«420728_j39633958208182_1_alg».proof.Proof.Region1
import proofs.«420728_j39633958208182_1_alg».proof.Proof.Region2
import proofs.«420728_j39633958208182_1_alg».proof.Proof.RefLayer

set_option maxRecDepth 16384

noncomputable section

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen Cert.KernelIdeal.Agg Cert.KernelIdeal.KHost
open Cert.Proof.Spec Cert.Proof.Pre
open Cert.ReferenceIdeal.Read (val_main_v24 val_main_v57 val_main_v93 val_main_v102 val_main_v103 val_main_v128 val_main_v161 val_main_v172)

variable (m : (ℓ : Loc nD τ sig) → Buf (Elt Ideal) ℓ) (ρ : Dev nD → PrngReg) (c : Dev nD)

/-- Region 0 leaves the reference's hidden paper features. -/
theorem hidden_paper (hW : InRange (m ((c : Thread nD τ).loc main_arg8)) 20000) (hC : InRange (m ((c : Thread nD τ).loc main_arg10)) 50000) :
    W8 m ρ c (Proc.devRef .tc main_v57) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  refine (W8_arr m ρ c 9).trans ((Region0.value (V7 m ρ) c).trans ?_)
  dsimp only [V7]
  rw [in0_x, in0_a0, in0_a1, in0_wl0, in0_wl1, in0_wr0, in0_wr1, in0_b0, in0_b1]
  rw [takeKW_eq _ _ hW, takeKC_eq _ _ hC, ← ref_aggW1, ← ref_aggC1]
  exact (Cert.ReferenceIdeal.Layer.hp_eq _ _ _ _ _ _ _ _ _).symm

/-- Region 1 leaves the reference's hidden author features. -/
theorem hidden_author (hR : InRange (m ((c : Thread nD τ).loc main_arg12)) 50000) :
    W10 m ρ c (Proc.devRef .tc main_v64) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (m ((c : Thread nD τ).loc main_arg13)) := by
  refine (W10_arr m ρ c 5).trans ((Region1.value (V9 m ρ) c).trans ?_)
  dsimp only [V9]
  rw [in1_x, in1_a, in1_wl, in1_wr, in1_b]
  rw [takeKR_eq _ _ hR, ← ref_aggR1]
  exact (Cert.ReferenceIdeal.Layer.ha_eq _ _ _ _ _ _ _).symm

/-- Region 2 leaves the reference's output logits. -/
theorem logits (hW : InRange (m ((c : Thread nD τ).loc main_arg8)) 20000) (hC : InRange (m ((c : Thread nD τ).loc main_arg10)) 50000) (hR : InRange (m ((c : Thread nD τ).loc main_arg12)) 50000) :
    W15 m ρ c (Proc.devRef .tc main_v103) = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W15_arr m ρ c 9).trans ((Region2.value (V14 m ρ) c).trans ?_)
  dsimp only [V14]
  rw [in2_x, in2_a0, in2_a1, in2_wl0, in2_wl1, in2_wr0, in2_wr1, in2_b0, in2_b1]
  rw [hidden_paper m ρ c hW hC, hidden_author m ρ c hR]
  rw [takeKW_eq _ _ hW, takeKC_eq _ _ hC, ← ref_aggW2, ← ref_aggC2]
  exact (Cert.ReferenceIdeal.Layer.out_eq _ _ _ _ _ _ _ _ _ _ _ _ _ _).symm

end Cert.KernelIdeal.KValue

end
-- ==== Proof.lean ====
/-
  The certificate.  Two layers of a heterogeneous graph network — mean aggregation of neighbour features over three edge
  types, a linear map of the aggregate plus a bias plus a linear map of the node's own features per relation, the
  relations into one node type averaged, a clamp at zero between the layers — computed once with the dense part in three
  tiled kernels and once as plain array operations.

  The frames of the two kernel programs are the generated ones; the reference's frame is its generated run with the
  result dropped.  For the value claim the kernel program's run is read with its result named, that result is followed
  back region by region to the program's arguments, and it is the reference's result stage by stage: the aggregation is
  the same host computation on both sides once every source index is known to be in range (the precondition says so:
  the kernel program's gather fills an out-of-range edge where the reference's gather clamps it), and each dense stage
  is the same sum of products, the kernels' row blocks tiling the rows.
-/
import proofs.«420728_j39633958208182_1_alg».proof.Defs
import proofs.«420728_j39633958208182_1_alg».proof.Proof.Gen.Kernel
import proofs.«420728_j39633958208182_1_alg».proof.Proof.Gen.Kernel.Skeleton
import proofs.«420728_j39633958208182_1_alg».proof.Proof.Gen.Kernel.Launch
import proofs.«420728_j39633958208182_1_alg».proof.Proof.Gen.Kernel.Points
import proofs.«420728_j39633958208182_1_alg».proof.Proof.Gen.Kernel.Frame
import proofs.«420728_j39633958208182_1_alg».proof.Proof.Gen.KernelIdeal
import proofs.«420728_j39633958208182_1_alg».proof.Proof.Gen.KernelIdeal.Skeleton
import proofs.«420728_j39633958208182_1_alg».proof.Proof.Gen.KernelIdeal.Launch
import proofs.«420728_j39633958208182_1_alg».proof.Proof.Gen.KernelIdeal.Points
import proofs.«420728_j39633958208182_1_alg».proof.Proof.Gen.KernelIdeal.Frame
import proofs.«420728_j39633958208182_1_alg».proof.Proof.Gen.ReferenceIdeal
import proofs.«420728_j39633958208182_1_alg».proof.Proof.Gen.ReferenceIdeal.Run
import proofs.«420728_j39633958208182_1_alg».proof.Proof.Gen.ReferenceIdeal.Read
import proofs.«420728_j39633958208182_1_alg».proof.Proof.Gen.Pre_finite_inputs
import proofs.«420728_j39633958208182_1_alg».proof.Proof.Pre
import proofs.«420728_j39633958208182_1_alg».proof.Proof.KRun
import proofs.«420728_j39633958208182_1_alg».proof.Proof.KValue
import Idealize.ShloMosaic.Adequacy
import Idealize.ShloMosaic.Init

noncomputable section

namespace Cert.Proof

open Idealize.ShloMosaic Idealize.SL.Sem

/-- From memories agreeing on the arguments, with the precondition, both idealized programs end with the same result:
    the reference's last stage as a function of the arguments. -/
theorem algebraic : Cert.algebraic_KernelIdeal_ReferenceIdeal := by
  intro m ρ m' ρ' hpre hagree
  refine ⟨fun c => Cert.ReferenceIdeal.Read.val_main_v172 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c => by
      obtain ⟨hW, hC, hR⟩ := Cert.Proof.Pre.ranges _ _ _ _ _ _ _ _ _ _ _ _ _ _ (hpre c)
      exact ⟨(h c).1.trans (Cert.KernelIdeal.KValue.logits m ρ c hW hC hR), (h c).2⟩)
      (Cert.KernelIdeal.KRun.run m ρ)
  · exact (θ_run Cert.ReferenceIdeal.defs _ _).mono (fun r h c => by
      obtain ⟨e0, e1, e2, e3, e4, e5, e6, e7, e8, e9, e10, e11, e12, e13⟩ := hagree c
      refine ⟨(h c).1.trans ((Cert.ReferenceIdeal.Read.val_main_v172_eq m' c).trans ?_), (h c).2⟩
      rw [e0, e1, e2, e3, e4, e5, e6, e7, e8, e9, e10, e11, e12, e13])
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
